-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x3x128 : Shape := ⟨3, ![65536, 3, 128]⟩
abbrev S256x256 : Shape := ⟨2, ![256, 256]⟩
abbrev S256 : Shape := ⟨1, ![256]⟩
abbrev S256x384 : Shape := ⟨2, ![256, 384]⟩
abbrev S256x512 : Shape := ⟨2, ![256, 512]⟩
abbrev S1x256 : Shape := ⟨2, ![1, 256]⟩
abbrev S1 : Shape := ⟨1, ![1]⟩
abbrev S_ : Shape := ⟨0, ![]⟩

class Facts : Prop where
  bcast_S_S65536x3x128 : S_.BroadcastsInDim S65536x3x128 (![] : Fin 0 → Fin S65536x3x128.rank)
  reducesTo_S65536x3x128_S_d0_1_2 : S65536x3x128.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x384 : S_.BroadcastsInDim S256x384 (![] : Fin 0 → Fin S256x384.rank)
  reducesTo_S256x384_S_d0_1 : S256x384.ReducesTo [0, 1] S_
  bcast_S_S256x512 : S_.BroadcastsInDim S256x512 (![] : Fin 0 → Fin S256x512.rank)
  reducesTo_S256x512_S_d0_1 : S256x512.ReducesTo [0, 1] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg7 : FVec F S256x384 .f32) (main_arg8 : FVec F S256 .f32) (main_arg9 : FVec F S1x256 .f32) (main_arg10 : FVec F S1 .f32) (main_v33 : IVec S_ 1) : IVec S_ 1 :=
  let main_v34 : FVec F S256x384 .f32 := Host.absf main_arg7
  let main_cst_12 : FVec F S_ .f32 := constant S_ .f32 0x7F800000#32
  let main_v35 : FVec F S256x384 .f32 := broadcastInDim S256x384 ![] bcast_S_S256x384 main_cst_12
  let main_v36 : IVec S256x384 1 := cmpf .olt main_v34 main_v35
  let main_c_13 : IVec S_ 1 := constantI S_ 1 1#1
  let main_v37 : IVec S_ 1 := (fun x v => Host.reduce IntOp.andi x v reducesTo_S256x384_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S1x256 .f32 := Host.absf main_arg9
  let main_cst_16 : FVec F S_ .f32 := constant S_ .f32 0x7F800000#32
  let main_v45 : FVec F S1x256 .f32 := broadcastInDim S1x256 ![] bcast_S_S1x256 main_cst_16
  let main_v46 : IVec S1x256 1 := cmpf .olt main_v44 main_v45
  let main_c_17 : IVec S_ 1 := constantI S_ 1 1#1
  let main_v47 : IVec S_ 1 := (fun x v => Host.reduce IntOp.andi x v reducesTo_S1x256_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg4 : FVec F S256 .f32) (main_arg5 : FVec F S256x512 .f32) (main_arg6 : FVec F S256 .f32) (main_arg7 : FVec F S256x384 .f32) (main_arg8 : FVec F S256 .f32) (main_arg9 : FVec F S1x256 .f32) (main_arg10 : FVec F S1 .f32) (main_v13 : IVec S_ 1) (main_v16 : IVec S256x384 1) : IVec S_ 1 :=
  let main_c_5 : IVec S_ 1 := constantI S_ 1 1#1
  let main_v17 : IVec S_ 1 := (fun x v => Host.reduce IntOp.andi x v reducesTo_S256x384_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x512 .f32 := Host.absf main_arg5
  let main_cst_8 : FVec F S_ .f32 := constant S_ .f32 0x7F800000#32
  let main_v25 : FVec F S256x512 .f32 := broadcastInDim S256x512 ![] bcast_S_S256x512 main_cst_8
  let main_v26 : IVec S256x512 1 := cmpf .olt main_v24 main_v25
  let main_c_9 : IVec S_ 1 := constantI S_ 1 1#1
  let main_v27 : IVec S_ 1 := (fun x v => Host.reduce IntOp.andi x v reducesTo_S256x512_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S65536x3x128 .f32) (main_arg1 : FVec F S256x256 .f32) (main_arg2 : FVec F S256 .f32) (main_arg3 : FVec F S256x384 .f32) (main_arg4 : FVec F S256 .f32) (main_arg5 : FVec F S256x512 .f32) (main_arg6 : FVec F S256 .f32) (main_arg7 : FVec F S256x384 .f32) (main_arg8 : FVec F S256 .f32) (main_arg9 : FVec F S1x256 .f32) (main_arg10 : FVec F S1 .f32) : IVec S_ 1 :=
  let main_v0 : FVec F S65536x3x128 .f32 := Host.absf main_arg0
  let main_cst : FVec F S_ .f32 := constant S_ .f32 0x7F800000#32
  let main_v1 : FVec F S65536x3x128 .f32 := broadcastInDim S65536x3x128 ![] bcast_S_S65536x3x128 main_cst
  let main_v2 : IVec S65536x3x128 1 := cmpf .olt main_v0 main_v1
  let main_c : IVec S_ 1 := constantI S_ 1 1#1
  let main_v3 : IVec S_ 1 := (fun x v => Host.reduce IntOp.andi x v reducesTo_S65536x3x128_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x384 .f32 := Host.absf main_arg3
  let main_cst_4 : FVec F S_ .f32 := constant S_ .f32 0x7F800000#32
  let main_v15 : FVec F S256x384 .f32 := broadcastInDim S256x384 ![] bcast_S_S256x384 main_cst_4
  let main_v16 : IVec S256x384 1 := cmpf .olt main_v14 main_v15
  fn_part1 (F := F) main_arg4 main_arg5 main_arg6 main_arg7 main_arg8 main_arg9 main_arg10 main_v13 main_v16
-- ==== Kernel.lean ====
abbrev S65536x3x128 : Shape := ⟨3, ![65536, 3, 128]⟩
abbrev S256x256 : Shape := ⟨2, ![256, 256]⟩
abbrev S256 : Shape := ⟨1, ![256]⟩
abbrev S256x384 : Shape := ⟨2, ![256, 384]⟩
abbrev S256x512 : Shape := ⟨2, ![256, 512]⟩
abbrev S1x256 : Shape := ⟨2, ![1, 256]⟩
abbrev S1 : Shape := ⟨1, ![1]⟩
abbrev S65536x384 : Shape := ⟨2, ![65536, 384]⟩
abbrev S256x128 : Shape := ⟨2, ![256, 128]⟩
abbrev S128x256 : Shape := ⟨2, ![128, 256]⟩
abbrev S256x1 : Shape := ⟨2, ![256, 1]⟩
abbrev S65536x1 : Shape := ⟨2, ![65536, 1]⟩
abbrev S1024x384 : Shape := ⟨2, ![1024, 384]⟩
abbrev S1024x1 : Shape := ⟨2, ![1024, 1]⟩
abbrev S1024x128 : Shape := ⟨2, ![1024, 128]⟩
abbrev S1024x256 : Shape := ⟨2, ![1024, 256]⟩
abbrev S1x1 : Shape := ⟨2, ![1, 1]⟩

abbrev nBuf : Space → Nat
  | .hbm => 39
  | .vmem => 18
  | .smem => 0
  | _ => 0

abbrev bufTy : (tb : Table) → Fin (tcTables nBuf tb) → BufTy
  | .hbm, ⟨0, _⟩ => ⟨S65536x3x128, .f32⟩
  | .hbm, ⟨1, _⟩ => ⟨S256x256, .f32⟩
  | .hbm, ⟨2, _⟩ => ⟨S256, .f32⟩
  | .hbm, ⟨3, _⟩ => ⟨S256x384, .f32⟩
  | .hbm, ⟨4, _⟩ => ⟨S256, .f32⟩
  | .hbm, ⟨5, _⟩ => ⟨S256x512, .f32⟩
  | .hbm, ⟨6, _⟩ => ⟨S256, .f32⟩
  | .hbm, ⟨7, _⟩ => ⟨S256x384, .f32⟩
  | .hbm, ⟨8, _⟩ => ⟨S256, .f32⟩
  | .hbm, ⟨9, _⟩ => ⟨S1x256, .f32⟩
  | .hbm, ⟨10, _⟩ => ⟨S1, .f32⟩
  | .hbm, ⟨11, _⟩ => ⟨S65536x384, .f32⟩
  | .hbm, ⟨12, _⟩ => ⟨S256x128, .f32⟩
  | .hbm, ⟨13, _⟩ => ⟨S128x256, .f32⟩
  | .hbm, ⟨14, _⟩ => ⟨S128x256, .bf16⟩
  | .hbm, ⟨15, _⟩ => ⟨S256x128, .f32⟩
  | .hbm, ⟨16, _⟩ => ⟨S128x256, .f32⟩
  | .hbm, ⟨17, _⟩ => ⟨S128x256, .bf16⟩
  | .hbm, ⟨18, _⟩ => ⟨S256x256, .f32⟩
  | .hbm, ⟨19, _⟩ => ⟨S256x256, .f32⟩
  | .hbm, ⟨20, _⟩ => ⟨S256x256, .bf16⟩
  | .hbm, ⟨21, _⟩ => ⟨S256x256, .f32⟩
  | .hbm, ⟨22, _⟩ => ⟨S256x256, .f32⟩
  | .hbm, ⟨23, _⟩ => ⟨S256x256, .bf16⟩
  | .hbm, ⟨24, _⟩ => ⟨S256x256, .f32⟩
  | .hbm, ⟨25, _⟩ => ⟨S256x256, .f32⟩
  | .hbm, ⟨26, _⟩ => ⟨S256x256, .bf16⟩
  | .hbm, ⟨27, _⟩ => ⟨S256x128, .f32⟩
  | .hbm, ⟨28, _⟩ => ⟨S128x256, .f32⟩
  | .hbm, ⟨29, _⟩ => ⟨S128x256, .bf16⟩
  | .hbm, ⟨30, _⟩ => ⟨S256x256, .f32⟩
  | .hbm, ⟨31, _⟩ => ⟨S256x256, .f32⟩
  | .hbm, ⟨32, _⟩ => ⟨S256x256, .bf16⟩
  | .hbm, ⟨33, _⟩ => ⟨S256x128, .f32⟩
  | .hbm, ⟨34, _⟩ => ⟨S128x256, .f32⟩
  | .hbm, ⟨35, _⟩ => ⟨S128x256, .bf16⟩
  | .hbm, ⟨36, _⟩ => ⟨S256x1, .f32⟩
  | .hbm, ⟨37, _⟩ => ⟨S256x1, .bf16⟩
  | .hbm, ⟨38, _⟩ => ⟨S65536x1, .f32⟩
  | .local _ .vmem, ⟨0, _⟩ => ⟨S1024x384, .f32⟩
  | .local _ .vmem, ⟨1, _⟩ => ⟨S1024x384, .f32⟩
  | .local _ .vmem, ⟨2, _⟩ => ⟨S128x256, .bf16⟩
  | .local _ .vmem, ⟨3, _⟩ => ⟨S128x256, .bf16⟩
  | .local _ .vmem, ⟨4, _⟩ => ⟨S256, .f32⟩
  | .local _ .vmem, ⟨5, _⟩ => ⟨S256x256, .bf16⟩
  | .local _ .vmem, ⟨6, _⟩ => ⟨S128x256, .bf16⟩
  | .local _ .vmem, ⟨7, _⟩ => ⟨S256, .f32⟩
  | .local _ .vmem, ⟨8, _⟩ => ⟨S256x256, .bf16⟩
  | .local _ .vmem, ⟨9, _⟩ => ⟨S256x256, .bf16⟩
  | .local _ .vmem, ⟨10, _⟩ => ⟨S256, .f32⟩
  | .local _ .vmem, ⟨11, _⟩ => ⟨S256x256, .bf16⟩
  | .local _ .vmem, ⟨12, _⟩ => ⟨S128x256, .bf16⟩
  | .local _ .vmem, ⟨13, _⟩ => ⟨S256, .f32⟩
  | .local _ .vmem, ⟨14, _⟩ => ⟨S256x1, .bf16⟩
  | .local _ .vmem, ⟨15, _⟩ => ⟨S1, .f32⟩
  | .local _ .vmem, ⟨16, _⟩ => ⟨S1024x1, .f32⟩
  | .local _ .vmem, ⟨17, _⟩ => ⟨S1024x1, .f32⟩
  | _, _ => ⟨S65536x3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1024x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  shapeCasts_S65536x3x128_S65536x384 : S65536x3x128.ShapeCasts S65536x384
  slices_S256x256_S256x128_0_0 : S256x256.Slices ![0, 0] S256x128
  transposes_S256x128_S128x256_1_0 : S256x128.Transposes [1, 0] S128x256
  bitsLt_bf16_f32 : FTy.bits .bf16 < FTy.bits .f32
  slices_S256x256_S256x128_0_128 : S256x256.Slices ![0, 128] S256x128
  slices_S256x512_S256x256_0_0 : S256x512.Slices ![0, 0] S256x256
  transposes_S256x256_S256x256_1_0 : S256x256.Transposes [1, 0] S256x256
  slices_S256x512_S256x256_0_256 : S256x512.Slices ![0, 256] S256x256
  slices_S256x384_S256x256_0_0 : S256x384.Slices ![0, 0] S256x256
  slices_S256x384_S256x128_0_256 : S256x384.Slices ![0, 256] S256x128
  transposes_S1x256_S256x1_1_0 : S1x256.Transposes [1, 0] S256x1
  inb_S1024x384_S1024x128_0_0 : ∀ a, (![0, 0] : Fin 2 → Nat) a + S1024x128.size a ≤ S1024x384.size a
  h_S1024x128 : 0 < S1024x128.numel
  shapeCasts_S1024x128_S1024x128 : S1024x128.ShapeCasts S1024x128
  inb_S1024x384_S1024x128_0_128 : ∀ a, (![0, 128] : Fin 2 → Nat) a + S1024x128.size a ≤ S1024x384.size a
  inb_S1024x384_S1024x128_0_256 : ∀ a, (![0, 256] : Fin 2 → Nat) a + S1024x128.size a ≤ S1024x384.size a
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1_S1_0 : ∀ a, (![0] : Fin 1 → Nat) a + S1.size a ≤ S1.size a
  h_S1 : 0 < S1.numel
  shapeCasts_S1_S1x1 : S1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  dot_S1024x128_S128x256_S1024x256_1_0_0_1_n_n_wf : DotDims.WF S1024x128 S128x256 S1024x256 [1] [0] [0] [1] [] []
  dot_S1024x256_S256x256_S1024x256_1_0_0_1_n_n_wf : DotDims.WF S1024x256 S256x256 S1024x256 [1] [0] [0] [1] [] []
  dot_S1024x256_S256x1_S1024x1_1_0_0_1_n_n_wf : DotDims.WF S1024x256 S256x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x384.size a ≤ S65536x384.size a
  hwx0_0 : ∀ i : grid0.Coords, EltTy.bits .f32 = 32 ∨ (Rect.block (s := S65536x384) S1024x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .bf16 = 32 ∨ (Rect.block (s := S128x256) S128x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .bf16 = 32 ∨ (Rect.block (s := S256x256) S256x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .bf16 = 32 ∨ (Rect.block (s := S256x256) S256x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S256x256.size a
  hwx0_10 : ∀ i : grid0.Coords, EltTy.bits .bf16 = 32 ∨ (Rect.block (s := S256x256) S256x256.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x256.size a ≤ S128x256.size a
  hwx0_11 : ∀ i : grid0.Coords, EltTy.bits .bf16 = 32 ∨ (Rect.block (s := S128x256) S128x256.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256.size a ≤ S256.size a
  hwx0_12 : ∀ i : grid0.Coords, EltTy.bits .f32 = 32 ∨ (Rect.block (s := S256) S256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256x1.size a ≤ S256x1.size a
  hwx0_13 : ∀ i : grid0.Coords, EltTy.bits .bf16 = 32 ∨ (Rect.block (s := S256x1) S256x1.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1.size a ≤ S1.size a
  hwx0_14 : ∀ i : grid0.Coords, EltTy.bits .f32 = 32 ∨ (Rect.block (s := S1) S1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1024x1.size a ≤ S65536x1.size a
  hwx0_15 : ∀ i : grid0.Coords, EltTy.bits .f32 = 32 ∨ (Rect.block (s := S65536x1) S1024x1.size (cc0_transform_15 i) (hinb0_15 i)).WholeWords (EltTy.packing .f32)

variable [Facts₀]

def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x1_S1024x1_1_0_0_1_n_n : DotDims S1024x256 S256x1 S1024x1 where
  lhsContracting := [1]
  rhsContracting := [0]
  lhsNonContracting := [0]
  rhsNonContracting := [1]
  lhsBatch := []
  rhsBatch := []
  wf := dot_S1024x256_S256x1_S1024x1_1_0_0_1_n_n_wf

abbrev win0_0 : Pipeline.Window sig grid0 :=
  Pipeline.Window.ofSpec (Memref.whole main_v0) S1024x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg6) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v21) S256x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v24) S128x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg8) S256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v26) S256x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg10) S1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v27) S1024x1.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S65536x3x128 : Shape := ⟨3, ![65536, 3, 128]⟩
abbrev S256x256 : Shape := ⟨2, ![256, 256]⟩
abbrev S256 : Shape := ⟨1, ![256]⟩
abbrev S256x384 : Shape := ⟨2, ![256, 384]⟩
abbrev S256x512 : Shape := ⟨2, ![256, 512]⟩
abbrev S1x256 : Shape := ⟨2, ![1, 256]⟩
abbrev S1 : Shape := ⟨1, ![1]⟩
abbrev S6 : Shape := ⟨1, ![6]⟩
abbrev S_ : Shape := ⟨0, ![]⟩
abbrev S6x1 : Shape := ⟨2, ![6, 1]⟩
abbrev S65536x6x128 : Shape := ⟨3, ![65536, 6, 128]⟩
abbrev S65536x6x256 : Shape := ⟨3, ![65536, 6, 256]⟩
abbrev S1x1x256 : Shape := ⟨3, ![1, 1, 256]⟩
abbrev S65536x3x256 : Shape := ⟨3, ![65536, 3, 256]⟩
abbrev S65536x3x384 : Shape := ⟨3, ![65536, 3, 384]⟩
abbrev S65536x6x512 : Shape := ⟨3, ![65536, 6, 512]⟩
abbrev S65536x256 : Shape := ⟨2, ![65536, 256]⟩
abbrev S256x1 : Shape := ⟨2, ![256, 1]⟩
abbrev S65536x1 : Shape := ⟨2, ![65536, 1]⟩
abbrev S1x1 : Shape := ⟨2, ![1, 1]⟩

abbrev nBuf : Space → Nat
  | .hbm => 116
  | .vmem => 0
  | .smem => 0
  | _ => 0

abbrev bufTy : (tb : Table) → Fin (tcTables nBuf tb) → BufTy
  | .hbm, ⟨0, _⟩ => ⟨S65536x3x128, .f32⟩
  | .hbm, ⟨1, _⟩ => ⟨S256x256, .f32⟩
  | .hbm, ⟨2, _⟩ => ⟨S256, .f32⟩
  | .hbm, ⟨3, _⟩ => ⟨S256x384, .f32⟩
  | .hbm, ⟨4, _⟩ => ⟨S256, .f32⟩
  | .hbm, ⟨5, _⟩ => ⟨S256x512, .f32⟩
  | .hbm, ⟨6, _⟩ => ⟨S256, .f32⟩
  | .hbm, ⟨7, _⟩ => ⟨S256x384, .f32⟩
  | .hbm, ⟨8, _⟩ => ⟨S256, .f32⟩
  | .hbm, ⟨9, _⟩ => ⟨S1x256, .f32⟩
  | .hbm, ⟨10, _⟩ => ⟨S1, .f32⟩
  | .hbm, ⟨11, _⟩ => ⟨S6, .i32⟩
  | .hbm, ⟨12, _⟩ => ⟨S6, .i32⟩
  | .hbm, ⟨13, _⟩ => ⟨S_, .i32⟩
  | .hbm, ⟨14, _⟩ => ⟨S6, .i32⟩
  | .hbm, ⟨15, _⟩ => ⟨S6, .i1⟩
  | .hbm, ⟨16, _⟩ => ⟨S_, .i32⟩
  | .hbm, ⟨17, _⟩ => ⟨S6, .i32⟩
  | .hbm, ⟨18, _⟩ => ⟨S6, .i32⟩
  | .hbm, ⟨19, _⟩ => ⟨S6, .i32⟩
  | .hbm, ⟨20, _⟩ => ⟨S6x1, .i32⟩
  | .hbm, ⟨21, _⟩ => ⟨S65536x6x128, .f32⟩
  | .hbm, ⟨22, _⟩ => ⟨S_, .i32⟩
  | .hbm, ⟨23, _⟩ => ⟨S6, .i32⟩
  | .hbm, ⟨24, _⟩ => ⟨S6, .i1⟩
  | .hbm, ⟨25, _⟩ => ⟨S_, .i32⟩
  | .hbm, ⟨26, _⟩ => ⟨S6, .i32⟩
  | .hbm, ⟨27, _⟩ => ⟨S6, .i32⟩
  | .hbm, ⟨28, _⟩ => ⟨S6, .i32⟩
  | .hbm, ⟨29, _⟩ => ⟨S6x1, .i32⟩
  | .hbm, ⟨30, _⟩ => ⟨S65536x6x128, .f32⟩
  | .hbm, ⟨31, _⟩ => ⟨S65536x6x256, .f32⟩
  | .hbm, ⟨32, _⟩ => ⟨S65536x6x256, .f32⟩
  | .hbm, ⟨33, _⟩ => ⟨S1x1x256, .f32⟩
  | .hbm, ⟨34, _⟩ => ⟨S65536x6x256, .f32⟩
  | .hbm, ⟨35, _⟩ => ⟨S65536x6x256, .f32⟩
  | .hbm, ⟨36, _⟩ => ⟨S_, .f32⟩
  | .hbm, ⟨37, _⟩ => ⟨S65536x6x256, .f32⟩
  | .hbm, ⟨38, _⟩ => ⟨S65536x6x256, .f32⟩
  | .hbm, ⟨39, _⟩ => ⟨S_, .f32⟩
  | .hbm, ⟨40, _⟩ => ⟨S65536x3x256, .f32⟩
  | .hbm, ⟨41, _⟩ => ⟨S_, .i32⟩
  | .hbm, ⟨42, _⟩ => ⟨S6, .i32⟩
  | .hbm, ⟨43, _⟩ => ⟨S6, .i1⟩
  | .hbm, ⟨44, _⟩ => ⟨S_, .i32⟩
  | .hbm, ⟨45, _⟩ => ⟨S6, .i32⟩
  | .hbm, ⟨46, _⟩ => ⟨S6, .i32⟩
  | .hbm, ⟨47, _⟩ => ⟨S6, .i32⟩
  | .hbm, ⟨48, _⟩ => ⟨S6x1, .i32⟩
  | .hbm, ⟨49, _⟩ => ⟨S65536x3x256, .f32⟩
  | .hbm, ⟨50, _⟩ => ⟨S_, .f32⟩
  | .hbm, ⟨51, _⟩ => ⟨S65536x3x256, .f32⟩
  | .hbm, ⟨52, _⟩ => ⟨S65536x3x256, .f32⟩
  | .hbm, ⟨53, _⟩ => ⟨S65536x3x384, .f32⟩
  | .hbm, ⟨54, _⟩ => ⟨S65536x3x256, .f32⟩
  | .hbm, ⟨55, _⟩ => ⟨S1x1x256, .f32⟩
  | .hbm, ⟨56, _⟩ => ⟨S65536x3x256, .f32⟩
  | .hbm, ⟨57, _⟩ => ⟨S65536x3x256, .f32⟩
  | .hbm, ⟨58, _⟩ => ⟨S_, .f32⟩
  | .hbm, ⟨59, _⟩ => ⟨S65536x3x256, .f32⟩
  | .hbm, ⟨60, _⟩ => ⟨S65536x3x256, .f32⟩
  | .hbm, ⟨61, _⟩ => ⟨S_, .i32⟩
  | .hbm, ⟨62, _⟩ => ⟨S6, .i32⟩
  | .hbm, ⟨63, _⟩ => ⟨S6, .i1⟩
  | .hbm, ⟨64, _⟩ => ⟨S_, .i32⟩
  | .hbm, ⟨65, _⟩ => ⟨S6, .i32⟩
  | .hbm, ⟨66, _⟩ => ⟨S6, .i32⟩
  | .hbm, ⟨67, _⟩ => ⟨S6, .i32⟩
  | .hbm, ⟨68, _⟩ => ⟨S6x1, .i32⟩
  | .hbm, ⟨69, _⟩ => ⟨S65536x6x256, .f32⟩
  | .hbm, ⟨70, _⟩ => ⟨S_, .i32⟩
  | .hbm, ⟨71, _⟩ => ⟨S6, .i32⟩
  | .hbm, ⟨72, _⟩ => ⟨S6, .i1⟩
  | .hbm, ⟨73, _⟩ => ⟨S_, .i32⟩
  | .hbm, ⟨74, _⟩ => ⟨S6, .i32⟩
  | .hbm, ⟨75, _⟩ => ⟨S6, .i32⟩
  | .hbm, ⟨76, _⟩ => ⟨S6, .i32⟩
  | .hbm, ⟨77, _⟩ => ⟨S6x1, .i32⟩
  | .hbm, ⟨78, _⟩ => ⟨S65536x6x256, .f32⟩
  | .hbm, ⟨79, _⟩ => ⟨S65536x6x512, .f32⟩
  | .hbm, ⟨80, _⟩ => ⟨S65536x6x256, .f32⟩
  | .hbm, ⟨81, _⟩ => ⟨S1x1x256, .f32⟩
  | .hbm, ⟨82, _⟩ => ⟨S65536x6x256, .f32⟩
  | .hbm, ⟨83, _⟩ => ⟨S65536x6x256, .f32⟩
  | .hbm, ⟨84, _⟩ => ⟨S_, .f32⟩
  | .hbm, ⟨85, _⟩ => ⟨S65536x6x256, .f32⟩
  | .hbm, ⟨86, _⟩ => ⟨S65536x6x256, .f32⟩
  | .hbm, ⟨87, _⟩ => ⟨S_, .f32⟩
  | .hbm, ⟨88, _⟩ => ⟨S65536x3x256, .f32⟩
  | .hbm, ⟨89, _⟩ => ⟨S_, .i32⟩
  | .hbm, ⟨90, _⟩ => ⟨S6, .i32⟩
  | .hbm, ⟨91, _⟩ => ⟨S6, .i1⟩
  | .hbm, ⟨92, _⟩ => ⟨S_, .i32⟩
  | .hbm, ⟨93, _⟩ => ⟨S6, .i32⟩
  | .hbm, ⟨94, _⟩ => ⟨S6, .i32⟩
  | .hbm, ⟨95, _⟩ => ⟨S6, .i32⟩
  | .hbm, ⟨96, _⟩ => ⟨S6x1, .i32⟩
  | .hbm, ⟨97, _⟩ => ⟨S65536x3x256, .f32⟩
  | .hbm, ⟨98, _⟩ => ⟨S_, .f32⟩
  | .hbm, ⟨99, _⟩ => ⟨S65536x3x256, .f32⟩
  | .hbm, ⟨100, _⟩ => ⟨S65536x3x256, .f32⟩
  | .hbm, ⟨101, _⟩ => ⟨S65536x3x384, .f32⟩
  | .hbm, ⟨102, _⟩ => ⟨S65536x3x256, .f32⟩
  | .hbm, ⟨103, _⟩ => ⟨S1x1x256, .f32⟩
  | .hbm, ⟨104, _⟩ => ⟨S65536x3x256, .f32⟩
  | .hbm, ⟨105, _⟩ => ⟨S65536x3x256, .f32⟩
  | .hbm, ⟨106, _⟩ => ⟨S_, .f32⟩
  | .hbm, ⟨107, _⟩ => ⟨S65536x3x256, .f32⟩
  | .hbm, ⟨108, _⟩ => ⟨S65536x3x256, .f32⟩
  | .hbm, ⟨109, _⟩ => ⟨S_, .f32⟩
  | .hbm, ⟨110, _⟩ => ⟨S65536x256, .f32⟩
  | .hbm, ⟨111, _⟩ => ⟨S256x1, .f32⟩
  | .hbm, ⟨112, _⟩ => ⟨S65536x1, .f32⟩
  | .hbm, ⟨113, _⟩ => ⟨S1x1, .f32⟩
  | .hbm, ⟨114, _⟩ => ⟨S65536x1, .f32⟩
  | .hbm, ⟨115, _⟩ => ⟨S65536x1, .f32⟩
  | _, _ => ⟨S65536x3x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_c_0 : Ref sig .tc := ⟨.hbm, 12, rfl⟩
abbrev main_c_1 : Ref sig .tc := ⟨.hbm, 13, rfl⟩
abbrev main_v0 : Ref sig .tc := ⟨.hbm, 14, rfl⟩
abbrev main_v1 : Ref sig .tc := ⟨.hbm, 15, rfl⟩
abbrev main_c_2 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_3 : Ref sig .tc := ⟨.hbm, 22, rfl⟩
abbrev main_v7 : Ref sig .tc := ⟨.hbm, 23, rfl⟩
abbrev main_v8 : Ref sig .tc := ⟨.hbm, 24, rfl⟩
abbrev main_c_4 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_call0_cst : Ref sig .tc := ⟨.hbm, 36, rfl⟩
abbrev main_call0_v0 : Ref sig .tc := ⟨.hbm, 37, rfl⟩
abbrev main_v19 : Ref sig .tc := ⟨.hbm, 38, rfl⟩
abbrev main_cst : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_v22 : Ref sig .tc := ⟨.hbm, 43, rfl⟩
abbrev main_c_6 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_7 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_call1_cst : Ref sig .tc := ⟨.hbm, 58, rfl⟩
abbrev main_call1_v0 : Ref sig .tc := ⟨.hbm, 59, rfl⟩
abbrev main_v35 : Ref sig .tc := ⟨.hbm, 60, rfl⟩
abbrev main_c_8 : Ref sig .tc := ⟨.hbm, 61, rfl⟩
abbrev main_v36 : Ref sig .tc := ⟨.hbm, 62, rfl⟩
abbrev main_v37 : Ref sig .tc := ⟨.hbm, 63, rfl⟩
abbrev main_c_9 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_10 : Ref sig .tc := ⟨.hbm, 70, rfl⟩
abbrev main_v43 : Ref sig .tc := ⟨.hbm, 71, rfl⟩
abbrev main_v44 : Ref sig .tc := ⟨.hbm, 72, rfl⟩
abbrev main_c_11 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_call2_cst : Ref sig .tc := ⟨.hbm, 84, rfl⟩
abbrev main_call2_v0 : Ref sig .tc := ⟨.hbm, 85, rfl⟩
abbrev main_v55 : Ref sig .tc := ⟨.hbm, 86, rfl⟩
abbrev main_cst_12 : Ref sig .tc := ⟨.hbm, 87, rfl⟩
abbrev main_v56 : Ref sig .tc := ⟨.hbm, 88, rfl⟩
abbrev main_c_13 : Ref sig .tc := ⟨.hbm, 89, rfl⟩
abbrev main_v57 : Ref sig .tc := ⟨.hbm, 90, rfl⟩
abbrev main_v58 : Ref sig .tc := ⟨.hbm, 91, rfl⟩
abbrev main_c_14 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_15 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_call3_cst : Ref sig .tc := ⟨.hbm, 106, rfl⟩
abbrev main_call3_v0 : Ref sig .tc := ⟨.hbm, 107, rfl⟩
abbrev main_v71 : Ref sig .tc := ⟨.hbm, 108, rfl⟩
abbrev main_cst_16 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩

abbrev nD : Nat := 1
abbrev τ : Topo := Topo.v7x

variable {F : FTy → Type} [FloatOps F]

class Facts₀ : Prop where
  bcast_S_S6 : S_.BroadcastsInDim S6 (![] : Fin 0 → Fin S6.rank)
  bcast_S6_S6x1_0 : S6.BroadcastsInDim S6x1 (![0] : Fin 1 → Fin S6x1.rank)
  concatenates_S65536x6x128_S65536x6x128_S65536x6x256_d2 : Shape.Concatenates [S65536x6x128, S65536x6x128] S65536x6x256 2
  bcast_S256_S1x1x256_2 : S256.BroadcastsInDim S1x1x256 (![2] : Fin 1 → Fin S1x1x256.rank)
  bcast_S1x1x256_S65536x6x256_0_1_2 : S1x1x256.BroadcastsInDim S65536x6x256 (![0, 1, 2] : Fin 3 → Fin S65536x6x256.rank)
  bcast_S_S65536x6x256 : S_.BroadcastsInDim S65536x6x256 (![] : Fin 0 → Fin S65536x6x256.rank)
  bcast_S_S65536x3x256 : S_.BroadcastsInDim S65536x3x256 (![] : Fin 0 → Fin S65536x3x256.rank)
  concatenates_S65536x3x256_S65536x3x128_S65536x3x384_d2 : Shape.Concatenates [S65536x3x256, S65536x3x128] S65536x3x384 2
  bcast_S1x1x256_S65536x3x256_0_1_2 : S1x1x256.BroadcastsInDim S65536x3x256 (![0, 1, 2] : Fin 3 → Fin S65536x3x256.rank)
  concatenates_S65536x6x256_S65536x6x256_S65536x6x512_d2 : Shape.Concatenates [S65536x6x256, S65536x6x256] S65536x6x512 2
  reducesTo_S65536x3x256_S65536x256_d1 : S65536x3x256.ReducesTo [1] S65536x256
  h_S_ : 0 < S_.numel
  transposes_S1x256_S256x1_1_0 : S1x256.Transposes [1, 0] S256x1
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  gather_S65536x3x128_S6x1_S65536x6x128_02_1_n_n_1_1_655361128_wf : GatherDims.WF S65536x3x128 S6x1 S65536x6x128 [0, 2] [1] [] [1] [] 1 ![65536, 1, 128]
  dot_S65536x6x256_S256x256_S65536x6x256_2_1_01_0_n_n_wf : DotDims.WF S65536x6x256 S256x256 S65536x6x256 [2] [1] [0, 1] [0] [] []
  scatter_S65536x3x256_S6x1_S65536x6x256_02_1_1_1_wf : ScatterDims.WF S65536x3x256 S6x1 S65536x6x256 [0, 2] [1] [1] 1
  dot_S65536x3x384_S256x384_S65536x3x256_2_1_01_0_n_n_wf : DotDims.WF S65536x3x384 S256x384 S65536x3x256 [2] [1] [0, 1] [0] [] []
  gather_S65536x3x256_S6x1_S65536x6x256_02_1_n_n_1_1_655361256_wf : GatherDims.WF S65536x3x256 S6x1 S65536x6x256 [0, 2] [1] [] [1] [] 1 ![65536, 1, 256]
  dot_S65536x6x512_S256x512_S65536x6x256_2_1_01_0_n_n_wf : DotDims.WF S65536x6x512 S256x512 S65536x6x256 [2] [1] [0, 1] [0] [] []
  dot_S65536x256_S256x1_S65536x1_1_0_0_1_n_n_wf : DotDims.WF S65536x256 S256x1 S65536x1 [1] [0] [0] [1] [] []

variable [Facts₀]

def gather_S65536x3x128_S6x1_S65536x6x128_02_1_n_n_1_1_655361128 : GatherDims S65536x3x128 S6x1 S65536x6x128 where
  offsetDims := [0, 2]
  collapsedSliceDims := [1]
  operandBatchingDims := []
  startIndicesBatchingDims := []
  startIndexMap := [1]
  indexVectorDim := 1
  sliceSizes := ![65536, 1, 128]
  wf := gather_S65536x3x128_S6x1_S65536x6x128_02_1_n_n_1_1_655361128_wf
def dot_S65536x6x256_S256x256_S65536x6x256_2_1_01_0_n_n : DotDims S65536x6x256 S256x256 S65536x6x256 where
  lhsContracting := [2]
  rhsContracting := [1]
  lhsNonContracting := [0, 1]
  rhsNonContracting := [0]
  lhsBatch := []
  rhsBatch := []
  wf := dot_S65536x6x256_S256x256_S65536x6x256_2_1_01_0_n_n_wf
def scatter_S65536x3x256_S6x1_S65536x6x256_02_1_1_1 : ScatterDims S65536x3x256 S6x1 S65536x6x256 where
  updateWindowDims := [0, 2]
  insertedWindowDims := [1]
  scatterDimsToOperandDims := [1]
  indexVectorDim := 1
  wf := scatter_S65536x3x256_S6x1_S65536x6x256_02_1_1_1_wf
def dot_S65536x3x384_S256x384_S65536x3x256_2_1_01_0_n_n : DotDims S65536x3x384 S256x384 S65536x3x256 where
  lhsContracting := [2]
  rhsContracting := [1]
  lhsNonContracting := [0, 1]
  rhsNonContracting := [0]
  lhsBatch := []
  rhsBatch := []
  wf := dot_S65536x3x384_S256x384_S65536x3x256_2_1_01_0_n_n_wf
def gather_S65536x3x256_S6x1_S65536x6x256_02_1_n_n_1_1_655361256 : GatherDims S65536x3x256 S6x1 S65536x6x256 where
  offsetDims := [0, 2]
  collapsedSliceDims := [1]
  operandBatchingDims := []
  startIndicesBatchingDims := []
  startIndexMap := [1]
  indexVectorDim := 1
  sliceSizes := ![65536, 1, 256]
  wf := gather_S65536x3x256_S6x1_S65536x6x256_02_1_n_n_1_1_655361256_wf
def dot_S65536x6x512_S256x512_S65536x6x256_2_1_01_0_n_n : DotDims S65536x6x512 S256x512 S65536x6x256 where
  lhsContracting := [2]
  rhsContracting := [1]
  lhsNonContracting := [0, 1]
  rhsNonContracting := [0]
  lhsBatch := []
  rhsBatch := []
  wf := dot_S65536x6x512_S256x512_S65536x6x256_2_1_01_0_n_n_wf
def dot_S65536x256_S256x1_S65536x1_1_0_0_1_n_n : DotDims S65536x256 S256x1 S65536x1 where
  lhsContracting := [1]
  rhsContracting := [0]
  lhsNonContracting := [0]
  rhsNonContracting := [1]
  lhsBatch := []
  rhsBatch := []
  wf := dot_S65536x256_S256x1_S65536x1_1_0_0_1_n_n_wf

class Facts : Prop extends Facts₀ where

variable [Facts]
-- ==== Proof.Spec.lean ====
/-
  The common value of the two programs, as mathematics on the extended reals.

  One batch row carries three agents, each a vector of 128 features.  The six directed edges of the
  triangle on the agents are numbered 0..5 with sources (0,0,1,1,2,2) and targets (1,2,0,2,0,1).
  An edge layer sends agent features h to  relu (h_src · Wsᵀ + h_dst · Wdᵀ + b)  per edge, where
  Ws and Wd are the two column halves of the layer's weight matrix; a node averages (sum times one
  half) its two incoming edges; a node layer sends the averaged message A and the raw input x to
  relu (A · Waᵀ + x · Wxᵀ + b).  Two rounds of edge / average / node, a maximum over the three
  agents, and a final linear read-out give one number per batch row.
-/
import Idealize.ShloMosaic.PureOps.Ideal
import Idealize.ShloMosaic.Lib.ValueIdx

noncomputable section

open scoped BigOperators

namespace Cert.Spec

open Idealize.ShloMosaic Idealize.ShloMosaic.ValueIdx

/-- The float word of zero, kept as a word: both programs compare against the same word. -/
abbrev zeroW : EReal := Ideal.ofBits .f32 0x00000000#32
/-- The float word of one half, kept as a word: both programs multiply by the same word. -/
abbrev halfW : EReal := Ideal.ofBits .f32 0x3F000000#32

/-- The rectifier: the larger of the value and zero. -/
def relu (z : EReal) : EReal := max z zeroW

/-- Source agent of each directed edge. -/
def src : Fin 6 → Fin 3 := ![0, 0, 1, 1, 2, 2]
/-- Target agent of each directed edge. -/
def dst : Fin 6 → Fin 3 := ![1, 2, 0, 2, 0, 1]
/-- The lower-numbered edge arriving at each agent. -/
def inA : Fin 3 → Fin 6 := ![2, 0, 1]
/-- The higher-numbered edge arriving at each agent. -/
def inB : Fin 3 → Fin 6 := ![4, 5, 3]

/-- An edge layer on `n` features: output feature `j` of edge `e`. -/
def edge {n : ℕ} (h : Fin 3 → Fin n → EReal) (wS wD : Fin 256 → Fin n → EReal) (b : Fin 256 → EReal)
    (e : Fin 6) (j : Fin 256) : EReal :=
  relu (((∑ f, h (src e) f * wS j f) + (∑ f, h (dst e) f * wD j f)) + b j)

/-- The half-sum of the two edges arriving at agent `k`. -/
def agg (E : Fin 6 → Fin 256 → EReal) (k : Fin 3) (j : Fin 256) : EReal :=
  (E (inA k) j + E (inB k) j) * halfW

/-- A node layer: output feature `j` of agent `k` from its averaged message and its raw input. -/
def node (A : Fin 3 → Fin 256 → EReal) (x : Fin 3 → Fin 128 → EReal) (wA : Fin 256 → Fin 256 → EReal)
    (wX : Fin 256 → Fin 128 → EReal) (b : Fin 256 → EReal) (k : Fin 3) (j : Fin 256) : EReal :=
  relu (((∑ f, A k f * wA j f) + (∑ f, x k f * wX j f)) + b j)

/-- The maximum over the three agents, feature by feature. -/
def pool (H : Fin 3 → Fin 256 → EReal) (j : Fin 256) : EReal := max (max (H 0 j) (H 1 j)) (H 2 j)

/-- The linear read-out. -/
def head (P : Fin 256 → EReal) (vw : Fin 256 → EReal) (vb : EReal) : EReal := (∑ j, P j * vw j) + vb

/-- One batch row through the whole network. -/
def rowOut (x : Fin 3 → Fin 128 → EReal)
    (w1S w1D : Fin 256 → Fin 128 → EReal) (b1 : Fin 256 → EReal)
    (v1A : Fin 256 → Fin 256 → EReal) (v1X : Fin 256 → Fin 128 → EReal) (c1 : Fin 256 → EReal)
    (w2S w2D : Fin 256 → Fin 256 → EReal) (b2 : Fin 256 → EReal)
    (v2A : Fin 256 → Fin 256 → EReal) (v2X : Fin 256 → Fin 128 → EReal) (c2 : Fin 256 → EReal)
    (vw : Fin 256 → EReal) (vb : EReal) : EReal :=
  head (pool (node (agg (edge (node (agg (edge x w1S w1D b1)) x v1A v1X c1) w2S w2D b2)) x v2A v2X c2)) vw vb

/-- The shapes of the eleven arguments and of the result. -/
abbrev SX : Shape := ⟨3, ![65536, 3, 128]⟩
abbrev SW1 : Shape := ⟨2, ![256, 256]⟩
abbrev SB : Shape := ⟨1, ![256]⟩
abbrev SV : Shape := ⟨2, ![256, 384]⟩
abbrev SW2 : Shape := ⟨2, ![256, 512]⟩
abbrev SVw : Shape := ⟨2, ![1, 256]⟩
abbrev SVb : Shape := ⟨1, ![1]⟩
abbrev SOut : Shape := ⟨2, ![65536, 1]⟩

/-- Row `r` of the result as a function of the argument arrays: the weight matrices enter by their
    column halves (the first `n` columns meet the source / the averaged message, the rest the target /
    the raw input). -/
def Gat (x : FVec Ideal SX .f32) (fe1w : FVec Ideal SW1 .f32) (fe1b : FVec Ideal SB .f32)
    (fv1w : FVec Ideal SV .f32) (fv1b : FVec Ideal SB .f32) (fe2w : FVec Ideal SW2 .f32) (fe2b : FVec Ideal SB .f32)
    (fv2w : FVec Ideal SV .f32) (fv2b : FVec Ideal SB .f32) (Vw : FVec Ideal SVw .f32) (Vb : FVec Ideal SVb .f32)
    (r : Fin 65536) : EReal :=
  rowOut (fun a f => x (ix3 r a f))
    (fun j f => fe1w (ix2 j (⟨f.val, by omega⟩ : Fin 256))) (fun j f => fe1w (ix2 j (⟨128 + f.val, by omega⟩ : Fin 256)))
    (fun j => fe1b (ix1 j))
    (fun j f => fv1w (ix2 j (⟨f.val, by omega⟩ : Fin 384))) (fun j f => fv1w (ix2 j (⟨256 + f.val, by omega⟩ : Fin 384)))
    (fun j => fv1b (ix1 j))
    (fun j f => fe2w (ix2 j (⟨f.val, by omega⟩ : Fin 512))) (fun j f => fe2w (ix2 j (⟨256 + f.val, by omega⟩ : Fin 512)))
    (fun j => fe2b (ix1 j))
    (fun j f => fv2w (ix2 j (⟨f.val, by omega⟩ : Fin 384))) (fun j f => fv2w (ix2 j (⟨256 + f.val, by omega⟩ : Fin 384)))
    (fun j => fv2b (ix1 j))
    (fun j => Vw (ix2 (0 : Fin 1) j)) (Vb (ix1 (0 : Fin 1)))

/-- The whole result array. -/
def G (x : FVec Ideal SX .f32) (fe1w : FVec Ideal SW1 .f32) (fe1b : FVec Ideal SB .f32)
    (fv1w : FVec Ideal SV .f32) (fv1b : FVec Ideal SB .f32) (fe2w : FVec Ideal SW2 .f32) (fe2b : FVec Ideal SB .f32)
    (fv2w : FVec Ideal SV .f32) (fv2b : FVec Ideal SB .f32) (Vw : FVec Ideal SVw .f32) (Vb : FVec Ideal SVb .f32) :
    FVec Ideal SOut .f32 :=
  fun i => Gat x fe1w fe1b fv1w fv1b fe2w fe2b fv2w fv2b Vw Vb ⟨(i 0).val, idx2_lt0 i⟩

theorem G_apply (x : FVec Ideal SX .f32) (fe1w : FVec Ideal SW1 .f32) (fe1b : FVec Ideal SB .f32)
    (fv1w : FVec Ideal SV .f32) (fv1b : FVec Ideal SB .f32) (fe2w : FVec Ideal SW2 .f32) (fe2b : FVec Ideal SB .f32)
    (fv2w : FVec Ideal SV .f32) (fv2b : FVec Ideal SB .f32) (Vw : FVec Ideal SVw .f32) (Vb : FVec Ideal SVb .f32)
    (r : Fin 65536) (u : Fin 1) :
    G x fe1w fe1b fv1w fv1b fe2w fe2b fv2w fv2b Vw Vb (ix2 r u) = Gat x fe1w fe1b fv1w fv1b fe2w fe2b fv2w fv2b Vw Vb r := rfl

end Cert.Spec

end
-- ==== Proof.KernelBody.lean ====
/-
  The kernel body on one block of 1024 batch rows: row `r` of what it stores is the network of the
  specification applied to row `r` of the input block (the three agents' features side by side in
  384 columns), the weight blocks entering transposed.
-/
import proofs.«426260_j63917703299078_3_alg».proof.Proof.Gen.KernelIdeal.Frame
import proofs.«426260_j63917703299078_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Idealize.ShloMosaic Idealize.ShloMosaic.ValueIdx Cert.KernelIdeal Cert.KernelIdeal.Gen

/-- A plain product of an m×k block by a k×n block into the zero accumulator, read at (a, b): the sum over the
    contracted coordinate of the products of the entries. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant (F := Ideal) ⟨2, ![m, n]⟩ .f32 0x00000000#32) (ix2 a b)
      = ∑ c : Fin k, A (ix2 a c) * B (ix2 c b) := by
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

/-- The three products of the kernel are plain ones: 1024×128 by 128×256, -/
theorem mm128 (a : FVec Ideal S1024x128 .bf16) (w : FVec Ideal S128x256 .bf16) (p : Fin 1024) (q : Fin 256) :
    matmul dot_S1024x128_S128x256_S1024x256_1_0_0_1_n_n none a w (constant (F := Ideal) S1024x256 .f32 0x00000000#32) (ix2 p q)
      = ∑ k : Fin 128, a (ix2 p k) * w (ix2 k q) :=
  matmul_plain_zero_apply none a w p q

/-- 1024×256 by 256×256, -/
theorem mm256 (a : FVec Ideal S1024x256 .bf16) (w : FVec Ideal S256x256 .bf16) (p : Fin 1024) (q : Fin 256) :
    matmul dot_S1024x256_S256x256_S1024x256_1_0_0_1_n_n none a w (constant (F := Ideal) S1024x256 .f32 0x00000000#32) (ix2 p q)
      = ∑ k : Fin 256, a (ix2 p k) * w (ix2 k q) :=
  matmul_plain_zero_apply none a w p q

/-- and 1024×256 by 256×1. -/
theorem mm256x1 (a : FVec Ideal S1024x256 .bf16) (w : FVec Ideal S256x1 .bf16) (p : Fin 1024) (q : Fin 1) :
    matmul dot_S1024x256_S256x1_S1024x1_1_0_0_1_n_n none a w (constant (F := Ideal) S1024x1 .f32 0x00000000#32) (ix2 p q)
      = ∑ k : Fin 256, a (ix2 p k) * w (ix2 k q) :=
  matmul_plain_zero_apply none a w p q

/-- A bias row of 256 entries added to every batch row: at (p, q) it is entry q. -/
theorem bias_apply (b : Vec Ideal S256 .f32) (p : Fin 1024) (q : Fin 256) :
    broadcastTo (α := Ideal .f32) S1024x256 (shapeCast (α := Ideal .f32) S1x256 b shapeCasts_S256_S1x256)
      broadcasts_S1x256_S1024x256 (ix2 p q) = b (ix1 q) := by
  rw [broadcastTo_1b_ab_apply, shapeCast_a_1a_apply]

/-- The read-out's one bias entry on every batch row. -/
theorem bias1_apply (b : Vec Ideal S1 .f32) (p : Fin 1024) (q : Fin 1) :
    broadcastTo (α := Ideal .f32) S1024x1 (shapeCast (α := Ideal .f32) S1x1 b shapeCasts_S1_S1x1)
      broadcasts_S1x1_S1024x1 (ix2 p q) = b (ix1 (0 : Fin 1)) := by
  rw [broadcastTo_1b_ab_apply, shapeCast_a_1a_apply]
  have hq : q = 0 := Subsingleton.elim _ _
  subst hq; rfl

/-- The features of agent a in a block of 1024 batch rows: column q of them is column 128·a + q of the block. -/
def agentCols (x0 : Vec Ideal S1024x384 .f32) (a : Fin 3) : Vec Ideal S1024x128 .f32 :=
  fun i => x0 (ix2 (⟨(i 0).val, idx2_lt0 i⟩ : Fin 1024)
    (⟨128 * a.val + (i 1).val, by have := a.isLt; have := idx2_lt1 i; omega⟩ : Fin 384))

theorem agentCols_apply (x0 : Vec Ideal S1024x384 .f32) (a : Fin 3) (p : Fin 1024) (q : Fin 128) :
    agentCols x0 a (ix2 p q) = x0 (ix2 p (⟨128 * a.val + q.val, by have := a.isLt; have := q.isLt; omega⟩ : Fin 384)) := rfl

/-- The three column thirds of the input block are the three agents' features. -/
theorem ld_agent0 (x0 : Vec Ideal S1024x384 .f32) : View.ld x0 r0_0 = agentCols x0 0 := by
  funext i
  refine congrArg x0 (funext fun a => Fin.ext ?_)
  match a with
  | ⟨0, _⟩ => show 0 + 1 * (i 0).val = (i 0).val; omega
  | ⟨1, _⟩ => show 0 + 1 * (i 1).val = 128 * 0 + (i 1).val; omega

theorem ld_agent1 (x0 : Vec Ideal S1024x384 .f32) : View.ld x0 r0_1 = agentCols x0 1 := by
  funext i
  refine congrArg x0 (funext fun a => Fin.ext ?_)
  match a with
  | ⟨0, _⟩ => show 0 + 1 * (i 0).val = (i 0).val; omega
  | ⟨1, _⟩ => show 128 + 1 * (i 1).val = 128 * 1 + (i 1).val; omega

theorem ld_agent2 (x0 : Vec Ideal S1024x384 .f32) : View.ld x0 r0_2 = agentCols x0 2 := by
  funext i
  refine congrArg x0 (funext fun a => Fin.ext ?_)
  match a with
  | ⟨0, _⟩ => show 0 + 1 * (i 0).val = (i 0).val; omega
  | ⟨1, _⟩ => show 256 + 1 * (i 1).val = 128 * 2 + (i 1).val; omega

/-- The other loads read whole blocks. -/
theorem ld_w128 (x : Vec Ideal S128x256 .bf16) : View.ld x r0_3 = x :=
  View.ld_unit_zero (by funext a; fin_cases a <;> rfl) _ x
theorem ld_b256 (x : Vec Ideal S256 .f32) : View.ld x r0_4 = x :=
  View.ld_unit_zero (by funext a; fin_cases a <;> rfl) _ x
theorem ld_w256 (x : Vec Ideal S256x256 .bf16) : View.ld x r0_5 = x :=
  View.ld_unit_zero (by funext a; fin_cases a <;> rfl) _ x
theorem ld_w256x1 (x : Vec Ideal S256x1 .bf16) : View.ld x r0_6 = x :=
  View.ld_unit_zero (by funext a; fin_cases a <;> rfl) _ x
theorem ld_b1 (x : Vec Ideal S1 .f32) : View.ld x r0_7 = x :=
  View.ld_unit_zero (by funext a; fin_cases a <;> rfl) _ x

/-- The scalar words of the kernel are the specification's words. -/
theorem scalar_word (φ : FTy) (w : BitVec φ.bits) : Scalar.ofBits (F := Ideal) φ w = Ideal.ofBits φ w := rfl

/-- The triangle's edges at each number, -/
theorem src_0 : Spec.src 0 = 0 := rfl
theorem src_1 : Spec.src 1 = 0 := rfl
theorem src_2 : Spec.src 2 = 1 := rfl
theorem src_3 : Spec.src 3 = 1 := rfl
theorem src_4 : Spec.src 4 = 2 := rfl
theorem src_5 : Spec.src 5 = 2 := rfl
theorem dst_0 : Spec.dst 0 = 1 := rfl
theorem dst_1 : Spec.dst 1 = 2 := rfl
theorem dst_2 : Spec.dst 2 = 0 := rfl
theorem dst_3 : Spec.dst 3 = 2 := rfl
theorem dst_4 : Spec.dst 4 = 0 := rfl
theorem dst_5 : Spec.dst 5 = 1 := rfl
/-- and the two edges arriving at each agent. -/
theorem inA_0 : Spec.inA 0 = 2 := rfl
theorem inA_1 : Spec.inA 1 = 0 := rfl
theorem inA_2 : Spec.inA 2 = 1 := rfl
theorem inB_0 : Spec.inB 0 = 4 := rfl
theorem inB_1 : Spec.inB 1 = 5 := rfl
theorem inB_2 : Spec.inB 2 = 3 := rfl

theorem out_row (x0 : Vec Ideal S1024x384 .f32) (x1 x2 : Vec Ideal S128x256 .bf16) (x3 : Vec Ideal S256 .f32)
    (x4 : Vec Ideal S256x256 .bf16) (x5 : Vec Ideal S128x256 .bf16) (x6 : Vec Ideal S256 .f32)
    (x7 x8 : Vec Ideal S256x256 .bf16) (x9 : Vec Ideal S256 .f32) (x10 : Vec Ideal S256x256 .bf16)
    (x11 : Vec Ideal S128x256 .bf16) (x12 : Vec Ideal S256 .f32) (x13 : Vec Ideal S256x1 .bf16) (x14 : Vec Ideal S1 .f32)
    (r : Fin 1024) (u : Fin 1) :
    out0_15 (F := Ideal) x0 x1 x2 x3 x4 x5 x6 x7 x8 x9 x10 x11 x12 x13 x14 (ix2 r u) =
      Cert.Spec.rowOut
        (fun a f => x0 (ix2 r (⟨128 * a.val + f.val, by have := a.isLt; have := f.isLt; omega⟩ : Fin 384)))
        (fun j f => x1 (ix2 f j)) (fun j f => x2 (ix2 f j)) (fun j => x3 (ix1 j))
        (fun j f => x4 (ix2 f j)) (fun j f => x5 (ix2 f j)) (fun j => x6 (ix1 j))
        (fun j f => x7 (ix2 f j)) (fun j f => x8 (ix2 f j)) (fun j => x9 (ix1 j))
        (fun j f => x10 (ix2 f j)) (fun j f => x11 (ix2 f j)) (fun j => x12 (ix1 j))
        (fun j => x13 (ix2 j (0 : Fin 1))) (x14 (ix1 (0 : Fin 1))) := by
  -- the one batch row of the stored block has one column
  obtain rfl : u = 0 := Subsingleton.elim _ _
  -- the one store covers the block: what is stored is its payload
  unfold out0_15
  rw [View.canon_unit_zero (by funext a; fin_cases a <;> rfl)]
  -- the loads: whole weight and bias blocks, and the three agents' column thirds of the input block
  simp only [ld_w128, ld_b256, ld_w256, ld_w256x1, ld_b1, ld_agent0, ld_agent1, ld_agent2]
  -- the payload as a tree of products, sums, maxima and half-sums of blocks
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41]
  -- read at (r, ·): every product is a sum over the contracted coordinate, every bias its entry, every format
  -- change the identity
  simp only [addf_apply, mulf_apply, maximumf_apply, truncf_apply, broadcast_apply, shapeCast_self, mm128, mm256, mm256x1,
    bias_apply, bias1_apply, agentCols_apply, scalar_word]
  -- the specification, edge by edge and agent by agent: the same tree
  simp only [Spec.rowOut, Spec.head, Spec.pool, Spec.node, Spec.agg, Spec.edge, Spec.relu,
    src_0, src_1, src_2, src_3, src_4, src_5, dst_0, dst_1, dst_2, dst_3, dst_4, dst_5,
    inA_0, inA_1, inA_2, inB_0, inB_1, inB_2]

end Cert.KernelIdeal.Body

end
-- ==== Proof.KernelHost.lean ====
/-
  What the kernel program's host operations hand to the launch, read at an index: the input array
  with its two trailing axes merged (agent a, feature f at column 128 a + f), and each weight matrix
  as its two column halves transposed (entry (f, j) of a half is entry (j, offset + f) of the matrix).
-/
import proofs.«426260_j63917703299078_3_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.HostOps

open Cert.KernelIdeal Cert.KernelIdeal.Gen Idealize.ShloMosaic Idealize.ShloMosaic.TcCoe Idealize.SL.Sem Idealize.ShloMosaic.ValueIdx Idealize.ShloMosaic.StableHlo

/-- Entry (f, j) of the transpose of the block of `n` columns starting at column `off` of a matrix with
    256 rows is the matrix's entry (j, k) at the column `k = off + f`. -/
theorem transposed_cols_apply {n W : ℕ} (x : (⟨2, ![256, W]⟩ : Shape).Idx → EReal) (off : ℕ)
    (hs : (⟨2, ![256, W]⟩ : Shape).Slices ![0, off] ⟨2, ![256, n]⟩)
    (ht : (⟨2, ![256, n]⟩ : Shape).Transposes [1, 0] ⟨2, ![n, 256]⟩)
    (f : Fin n) (j : Fin 256) (k : Fin W) (hk : k.val = off + f.val) :
    transpose ⟨2, ![n, 256]⟩ [1, 0] (extractStridedSlice ⟨2, ![256, n]⟩ ![0, off] x hs) ht (ix2 f j) = x (ix2 j k) := by
  refine (transpose_apply [1, 0] _ _ (ix2 f j) (ix2 j f) ?_).trans ?_
  · intro b; match b with | ⟨0, _⟩ => rfl | ⟨1, _⟩ => rfl
  refine extractStridedSlice_apply _ _ _ (ix2 j f) _ ?_
  intro a; match a with
    | ⟨0, _⟩ => show j.val = 0 + j.val; omega
    | ⟨1, _⟩ => show k.val = off + f.val; exact hk

variable (m : (ℓ : Loc nD τ sig) → Buf (Elt Ideal) ℓ)

/-- The input with agent and feature axes merged: column 128 a + f of row R is feature f of agent a. -/
theorem V_v0 (c : Dev nD) (R : Fin 65536) (a : Fin 3) (f : Fin 128) :
    V m c main_v0 (ix2 R (⟨128 * a.val + f.val, by have := a.isLt; have := f.isLt; omega⟩ : Fin 384)) = m ((c.tc : Thread nD τ).loc main_arg0) (ix3 R a f) := by
  have e : @Eq (S65536x384.Idx → EReal) (V m c main_v0)
      (shapeCast S65536x384 (m ((c.tc : Thread nD τ).loc main_arg0)) shapeCasts_S65536x3x128_S65536x384) := by
    dsimp only [Gen.V, Gen.hostOps0]; after_results; rfl
  rw [e]
  refine shapeCast_apply _ _ _ (ix3 R a f) ?_
  rw [Shape.rowMajor_val_two, Shape.rowMajor_val_three]
  show (R.val * 3 + a.val) * 128 + f.val = R.val * 384 + (128 * a.val + f.val)
  omega

/-- The first edge layer's source half: columns 0..127 of its weight matrix, transposed. -/
theorem V_v3 (c : Dev nD) (f : Fin 128) (j : Fin 256) :
    V m c main_v3 (ix2 f j) = m ((c.tc : Thread nD τ).loc main_arg1) (ix2 j (⟨f.val, by omega⟩ : Fin 256)) := by
  have e : @Eq (S128x256.Idx → EReal) (V m c main_v3)
      (truncf (F := Ideal) .bf16 (transpose S128x256 [1, 0] (extractStridedSlice S256x128 ![0, 0]
        (m ((c.tc : Thread nD τ).loc main_arg1)) slices_S256x256_S256x128_0_0) transposes_S256x128_S128x256_1_0) bitsLt_bf16_f32) := by
    dsimp only [Gen.V, Gen.hostOps0]; after_results
  rw [e, truncf_apply]
  exact transposed_cols_apply _ 0 _ _ f j _ (Nat.zero_add _).symm

/-- The first edge layer's target half: columns 128..255 of its weight matrix, transposed. -/
theorem V_v6 (c : Dev nD) (f : Fin 128) (j : Fin 256) :
    V m c main_v6 (ix2 f j) = m ((c.tc : Thread nD τ).loc main_arg1) (ix2 j (⟨128 + f.val, by omega⟩ : Fin 256)) := by
  have e : @Eq (S128x256.Idx → EReal) (V m c main_v6)
      (truncf (F := Ideal) .bf16 (transpose S128x256 [1, 0] (extractStridedSlice S256x128 ![0, 128]
        (m ((c.tc : Thread nD τ).loc main_arg1)) slices_S256x256_S256x128_0_128) transposes_S256x128_S128x256_1_0) bitsLt_bf16_f32) := by
    dsimp only [Gen.V, Gen.hostOps0]; after_results
  rw [e, truncf_apply]
  exact transposed_cols_apply _ 128 _ _ f j _ rfl

/-- The first node layer's message half: columns 0..255 of its weight matrix, transposed. -/
theorem V_v15 (c : Dev nD) (f : Fin 256) (j : Fin 256) :
    V m c main_v15 (ix2 f j) = m ((c.tc : Thread nD τ).loc main_arg3) (ix2 j (⟨f.val, by omega⟩ : Fin 384)) := by
  have e : @Eq (S256x256.Idx → EReal) (V m c main_v15)
      (truncf (F := Ideal) .bf16 (transpose S256x256 [1, 0] (extractStridedSlice S256x256 ![0, 0]
        (m ((c.tc : Thread nD τ).loc main_arg3)) slices_S256x384_S256x256_0_0) transposes_S256x256_S256x256_1_0) bitsLt_bf16_f32) := by
    dsimp only [Gen.V, Gen.hostOps0]; after_results
  rw [e, truncf_apply]
  exact transposed_cols_apply _ 0 _ _ f j _ (Nat.zero_add _).symm

/-- The first node layer's input half: columns 256..383 of its weight matrix, transposed. -/
theorem V_v18 (c : Dev nD) (f : Fin 128) (j : Fin 256) :
    V m c main_v18 (ix2 f j) = m ((c.tc : Thread nD τ).loc main_arg3) (ix2 j (⟨256 + f.val, by omega⟩ : Fin 384)) := by
  have e : @Eq (S128x256.Idx → EReal) (V m c main_v18)
      (truncf (F := Ideal) .bf16 (transpose S128x256 [1, 0] (extractStridedSlice S256x128 ![0, 256]
        (m ((c.tc : Thread nD τ).loc main_arg3)) slices_S256x384_S256x128_0_256) transposes_S256x128_S128x256_1_0) bitsLt_bf16_f32) := by
    dsimp only [Gen.V, Gen.hostOps0]; after_results
  rw [e, truncf_apply]
  exact transposed_cols_apply _ 256 _ _ f j _ rfl

/-- The second edge layer's source half: columns 0..255 of its weight matrix, transposed. -/
theorem V_v9 (c : Dev nD) (f : Fin 256) (j : Fin 256) :
    V m c main_v9 (ix2 f j) = m ((c.tc : Thread nD τ).loc main_arg5) (ix2 j (⟨f.val, by omega⟩ : Fin 512)) := by
  have e : @Eq (S256x256.Idx → EReal) (V m c main_v9)
      (truncf (F := Ideal) .bf16 (transpose S256x256 [1, 0] (extractStridedSlice S256x256 ![0, 0]
        (m ((c.tc : Thread nD τ).loc main_arg5)) slices_S256x512_S256x256_0_0) transposes_S256x256_S256x256_1_0) bitsLt_bf16_f32) := by
    dsimp only [Gen.V, Gen.hostOps0]; after_results
  rw [e, truncf_apply]
  exact transposed_cols_apply _ 0 _ _ f j _ (Nat.zero_add _).symm

/-- The second edge layer's target half: columns 256..511 of its weight matrix, transposed. -/
theorem V_v12 (c : Dev nD) (f : Fin 256) (j : Fin 256) :
    V m c main_v12 (ix2 f j) = m ((c.tc : Thread nD τ).loc main_arg5) (ix2 j (⟨256 + f.val, by omega⟩ : Fin 512)) := by
  have e : @Eq (S256x256.Idx → EReal) (V m c main_v12)
      (truncf (F := Ideal) .bf16 (transpose S256x256 [1, 0] (extractStridedSlice S256x256 ![0, 256]
        (m ((c.tc : Thread nD τ).loc main_arg5)) slices_S256x512_S256x256_0_256) transposes_S256x256_S256x256_1_0) bitsLt_bf16_f32) := by
    dsimp only [Gen.V, Gen.hostOps0]; after_results
  rw [e, truncf_apply]
  exact transposed_cols_apply _ 256 _ _ f j _ rfl

/-- The second node layer's message half: columns 0..255 of its weight matrix, transposed. -/
theorem V_v21 (c : Dev nD) (f : Fin 256) (j : Fin 256) :
    V m c main_v21 (ix2 f j) = m ((c.tc : Thread nD τ).loc main_arg7) (ix2 j (⟨f.val, by omega⟩ : Fin 384)) := by
  have e : @Eq (S256x256.Idx → EReal) (V m c main_v21)
      (truncf (F := Ideal) .bf16 (transpose S256x256 [1, 0] (extractStridedSlice S256x256 ![0, 0]
        (m ((c.tc : Thread nD τ).loc main_arg7)) slices_S256x384_S256x256_0_0) transposes_S256x256_S256x256_1_0) bitsLt_bf16_f32) := by
    dsimp only [Gen.V, Gen.hostOps0]; after_results
  rw [e, truncf_apply]
  exact transposed_cols_apply _ 0 _ _ f j _ (Nat.zero_add _).symm

/-- The second node layer's input half: columns 256..383 of its weight matrix, transposed. -/
theorem V_v24 (c : Dev nD) (f : Fin 128) (j : Fin 256) :
    V m c main_v24 (ix2 f j) = m ((c.tc : Thread nD τ).loc main_arg7) (ix2 j (⟨256 + f.val, by omega⟩ : Fin 384)) := by
  have e : @Eq (S128x256.Idx → EReal) (V m c main_v24)
      (truncf (F := Ideal) .bf16 (transpose S128x256 [1, 0] (extractStridedSlice S256x128 ![0, 256]
        (m ((c.tc : Thread nD τ).loc main_arg7)) slices_S256x384_S256x128_0_256) transposes_S256x128_S128x256_1_0) bitsLt_bf16_f32) := by
    dsimp only [Gen.V, Gen.hostOps0]; after_results
  rw [e, truncf_apply]
  exact transposed_cols_apply _ 256 _ _ f j _ rfl

/-- The read-out row as a column. -/
theorem V_v26 (c : Dev nD) (j : Fin 256) (u : Fin 1) :
    V m c main_v26 (ix2 j u) = m ((c.tc : Thread nD τ).loc main_arg9) (ix2 (0 : Fin 1) j) := by
  have e : @Eq (S256x1.Idx → EReal) (V m c main_v26)
      (truncf (F := Ideal) .bf16 (transpose S256x1 [1, 0] (m ((c.tc : Thread nD τ).loc main_arg9)) transposes_S1x256_S256x1_1_0) bitsLt_bf16_f32) := by
    dsimp only [Gen.V, Gen.hostOps0]; after_results
  rw [e, truncf_apply]
  refine transpose_apply [1, 0] _ _ (ix2 j u) (ix2 (0 : Fin 1) j) ?_
  intro b; match b with
    | ⟨0, _⟩ => rfl
    | ⟨1, _⟩ => show (0 : Fin 1).val = u.val; omega

end Cert.KernelIdeal.HostOps

end
-- ==== Proof.KernelRun.lean ====
/-
  The kernel program's run: the grid's 64 points each write one block of 1024 rows of the result,
  the blocks tile the result array, and row by row each block is the network of the specification of
  the argument arrays (the host operations before the launch reshape the input to 384 columns and
  hand each weight matrix over as its two transposed column halves).
-/
import proofs.«426260_j63917703299078_3_alg».proof.Proof.Gen.KernelIdeal.Value
import proofs.«426260_j63917703299078_3_alg».proof.Proof.KernelBody
import proofs.«426260_j63917703299078_3_alg».proof.Proof.KernelHost
import proofs.«426260_j63917703299078_3_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.KRun

open Cert.KernelIdeal Cert.KernelIdeal.Gen Idealize.ShloMosaic Idealize.ShloMosaic.TcCoe Idealize.SL.Sem Idealize.ShloMosaic.ValueIdx

section Blocks

variable (m : (ℓ : Loc nD τ sig) → Buf (Elt Ideal) ℓ)

/-! ## Where each grid point's blocks sit

The grid has 64 points.  Point `t` reads rows `1024 t … 1024 t + 1023` of the 384-column input and
writes the same rows of the one-column result; every weight array is a single block, read whole at
every point. -/

/-- Block index of the input rows and of the result rows at point `t`: `(t, 0)`. -/
theorem idx_rows : ∀ t : Fin cfg0.N,
    win0_0.index t (0 : Fin 2) = t.val ∧ win0_0.index t (1 : Fin 2) = 0
    ∧ win0_15.index t (0 : Fin 2) = t.val ∧ win0_15.index t (1 : Fin 2) = 0 :=
  (by decide +kernel : ∀ t : Fin grid0.N, _)

/-- Window 1 stays at block index zero. -/
theorem idx_w1 : ∀ t : Fin cfg0.N, win0_1.index t (0 : Fin 2) = 0 ∧ win0_1.index t (1 : Fin 2) = 0 :=
  (by decide +kernel : ∀ t : Fin grid0.N, _)

/-- Window 2 stays at block index zero. -/
theorem idx_w2 : ∀ t : Fin cfg0.N, win0_2.index t (0 : Fin 2) = 0 ∧ win0_2.index t (1 : Fin 2) = 0 :=
  (by decide +kernel : ∀ t : Fin grid0.N, _)

/-- Window 3 stays at block index zero. -/
theorem idx_w3 : ∀ t : Fin cfg0.N, win0_3.index t (0 : Fin 1) = 0 :=
  (by decide +kernel : ∀ t : Fin grid0.N, _)

/-- Window 4 stays at block index zero. -/
theorem idx_w4 : ∀ t : Fin cfg0.N, win0_4.index t (0 : Fin 2) = 0 ∧ win0_4.index t (1 : Fin 2) = 0 :=
  (by decide +kernel : ∀ t : Fin grid0.N, _)

/-- Window 5 stays at block index zero. -/
theorem idx_w5 : ∀ t : Fin cfg0.N, win0_5.index t (0 : Fin 2) = 0 ∧ win0_5.index t (1 : Fin 2) = 0 :=
  (by decide +kernel : ∀ t : Fin grid0.N, _)

/-- Window 6 stays at block index zero. -/
theorem idx_w6 : ∀ t : Fin cfg0.N, win0_6.index t (0 : Fin 1) = 0 :=
  (by decide +kernel : ∀ t : Fin grid0.N, _)

/-- Window 7 stays at block index zero. -/
theorem idx_w7 : ∀ t : Fin cfg0.N, win0_7.index t (0 : Fin 2) = 0 ∧ win0_7.index t (1 : Fin 2) = 0 :=
  (by decide +kernel : ∀ t : Fin grid0.N, _)

/-- Window 8 stays at block index zero. -/
theorem idx_w8 : ∀ t : Fin cfg0.N, win0_8.index t (0 : Fin 2) = 0 ∧ win0_8.index t (1 : Fin 2) = 0 :=
  (by decide +kernel : ∀ t : Fin grid0.N, _)

/-- Window 9 stays at block index zero. -/
theorem idx_w9 : ∀ t : Fin cfg0.N, win0_9.index t (0 : Fin 1) = 0 :=
  (by decide +kernel : ∀ t : Fin grid0.N, _)

/-- Window 10 stays at block index zero. -/
theorem idx_w10 : ∀ t : Fin cfg0.N, win0_10.index t (0 : Fin 2) = 0 ∧ win0_10.index t (1 : Fin 2) = 0 :=
  (by decide +kernel : ∀ t : Fin grid0.N, _)

/-- Window 11 stays at block index zero. -/
theorem idx_w11 : ∀ t : Fin cfg0.N, win0_11.index t (0 : Fin 2) = 0 ∧ win0_11.index t (1 : Fin 2) = 0 :=
  (by decide +kernel : ∀ t : Fin grid0.N, _)

/-- Window 12 stays at block index zero. -/
theorem idx_w12 : ∀ t : Fin cfg0.N, win0_12.index t (0 : Fin 1) = 0 :=
  (by decide +kernel : ∀ t : Fin grid0.N, _)

/-- Window 13 stays at block index zero. -/
theorem idx_w13 : ∀ t : Fin cfg0.N, win0_13.index t (0 : Fin 2) = 0 ∧ win0_13.index t (1 : Fin 2) = 0 :=
  (by decide +kernel : ∀ t : Fin grid0.N, _)

/-- Window 14 stays at block index zero. -/
theorem idx_w14 : ∀ t : Fin cfg0.N, win0_14.index t (0 : Fin 1) = 0 :=
  (by decide +kernel : ∀ t : Fin grid0.N, _)

/-- Row `r` of the input block at point `t` is row `1024 t + r` of the 384-column input. -/
theorem blk0 (c : Dev nD) (t : Fin cfg0.N) (r : Fin 1024) (q : Fin 384) :
    (iblk m c 0 t : Vec Ideal S1024x384 .f32) (ix2 r q)
      = V m c main_v0 (ix2 (⟨1024 * t.val + r.val, by have := t.isLt; have := r.isLt; have : cfg0.N = 64 := rfl; omega⟩ : Fin 65536) q) := by
  have hi := idx_rows t
  unfold iblk
  rw [View.read_apply]
  show V m c main_v0 _ = V m c main_v0 _
  congr 1
  funext a
  apply Fin.ext
  match a with
  | ⟨0, _⟩ => show win0_0.index t 0 * 1024 + 1 * r.val = 1024 * t.val + r.val; rw [hi.1]; omega
  | ⟨1, _⟩ => show win0_0.index t 1 * 384 + 1 * q.val = q.val; rw [hi.2.1]; omega

/-- Window 1's block at any point is the whole array `main_v3`. -/
theorem blk1 (c : Dev nD) (t : Fin cfg0.N) (y : S128x256.Idx) :
    (iblk m c 1 t : Vec Ideal S128x256 .bf16) y = V m c main_v3 y := by
  unfold iblk
  rw [View.read_apply]
  show V m c main_v3 _ = V m c main_v3 _
  congr 1
  funext a
  apply Fin.ext
  match a with
  | ⟨0, _⟩ => show win0_1.index t 0 * 128 + 1 * (y 0).val = (y 0).val; rw [(idx_w1 t).1]; omega
  | ⟨1, _⟩ => show win0_1.index t 1 * 256 + 1 * (y 1).val = (y 1).val; rw [(idx_w1 t).2]; omega

/-- Window 2's block at any point is the whole array `main_v6`. -/
theorem blk2 (c : Dev nD) (t : Fin cfg0.N) (y : S128x256.Idx) :
    (iblk m c 2 t : Vec Ideal S128x256 .bf16) y = V m c main_v6 y := by
  unfold iblk
  rw [View.read_apply]
  show V m c main_v6 _ = V m c main_v6 _
  congr 1
  funext a
  apply Fin.ext
  match a with
  | ⟨0, _⟩ => show win0_2.index t 0 * 128 + 1 * (y 0).val = (y 0).val; rw [(idx_w2 t).1]; omega
  | ⟨1, _⟩ => show win0_2.index t 1 * 256 + 1 * (y 1).val = (y 1).val; rw [(idx_w2 t).2]; omega

/-- Window 3's block at any point is the whole array `main_arg2`. -/
theorem blk3 (c : Dev nD) (t : Fin cfg0.N) (y : S256.Idx) :
    (iblk m c 3 t : Vec Ideal S256 .f32) y = V m c main_arg2 y := by
  unfold iblk
  rw [View.read_apply]
  show V m c main_arg2 _ = V m c main_arg2 _
  congr 1
  funext a
  apply Fin.ext
  match a with
  | ⟨0, _⟩ => show win0_3.index t 0 * 256 + 1 * (y 0).val = (y 0).val; rw [(idx_w3 t)]; omega

/-- Window 4's block at any point is the whole array `main_v15`. -/
theorem blk4 (c : Dev nD) (t : Fin cfg0.N) (y : S256x256.Idx) :
    (iblk m c 4 t : Vec Ideal S256x256 .bf16) y = V m c main_v15 y := by
  unfold iblk
  rw [View.read_apply]
  show V m c main_v15 _ = V m c main_v15 _
  congr 1
  funext a
  apply Fin.ext
  match a with
  | ⟨0, _⟩ => show win0_4.index t 0 * 256 + 1 * (y 0).val = (y 0).val; rw [(idx_w4 t).1]; omega
  | ⟨1, _⟩ => show win0_4.index t 1 * 256 + 1 * (y 1).val = (y 1).val; rw [(idx_w4 t).2]; omega

/-- Window 5's block at any point is the whole array `main_v18`. -/
theorem blk5 (c : Dev nD) (t : Fin cfg0.N) (y : S128x256.Idx) :
    (iblk m c 5 t : Vec Ideal S128x256 .bf16) y = V m c main_v18 y := by
  unfold iblk
  rw [View.read_apply]
  show V m c main_v18 _ = V m c main_v18 _
  congr 1
  funext a
  apply Fin.ext
  match a with
  | ⟨0, _⟩ => show win0_5.index t 0 * 128 + 1 * (y 0).val = (y 0).val; rw [(idx_w5 t).1]; omega
  | ⟨1, _⟩ => show win0_5.index t 1 * 256 + 1 * (y 1).val = (y 1).val; rw [(idx_w5 t).2]; omega

/-- Window 6's block at any point is the whole array `main_arg4`. -/
theorem blk6 (c : Dev nD) (t : Fin cfg0.N) (y : S256.Idx) :
    (iblk m c 6 t : Vec Ideal S256 .f32) y = V m c main_arg4 y := by
  unfold iblk
  rw [View.read_apply]
  show V m c main_arg4 _ = V m c main_arg4 _
  congr 1
  funext a
  apply Fin.ext
  match a with
  | ⟨0, _⟩ => show win0_6.index t 0 * 256 + 1 * (y 0).val = (y 0).val; rw [(idx_w6 t)]; omega

/-- Window 7's block at any point is the whole array `main_v9`. -/
theorem blk7 (c : Dev nD) (t : Fin cfg0.N) (y : S256x256.Idx) :
    (iblk m c 7 t : Vec Ideal S256x256 .bf16) y = V m c main_v9 y := by
  unfold iblk
  rw [View.read_apply]
  show V m c main_v9 _ = V m c main_v9 _
  congr 1
  funext a
  apply Fin.ext
  match a with
  | ⟨0, _⟩ => show win0_7.index t 0 * 256 + 1 * (y 0).val = (y 0).val; rw [(idx_w7 t).1]; omega
  | ⟨1, _⟩ => show win0_7.index t 1 * 256 + 1 * (y 1).val = (y 1).val; rw [(idx_w7 t).2]; omega

/-- Window 8's block at any point is the whole array `main_v12`. -/
theorem blk8 (c : Dev nD) (t : Fin cfg0.N) (y : S256x256.Idx) :
    (iblk m c 8 t : Vec Ideal S256x256 .bf16) y = V m c main_v12 y := by
  unfold iblk
  rw [View.read_apply]
  show V m c main_v12 _ = V m c main_v12 _
  congr 1
  funext a
  apply Fin.ext
  match a with
  | ⟨0, _⟩ => show win0_8.index t 0 * 256 + 1 * (y 0).val = (y 0).val; rw [(idx_w8 t).1]; omega
  | ⟨1, _⟩ => show win0_8.index t 1 * 256 + 1 * (y 1).val = (y 1).val; rw [(idx_w8 t).2]; omega

/-- Window 9's block at any point is the whole array `main_arg6`. -/
theorem blk9 (c : Dev nD) (t : Fin cfg0.N) (y : S256.Idx) :
    (iblk m c 9 t : Vec Ideal S256 .f32) y = V m c main_arg6 y := by
  unfold iblk
  rw [View.read_apply]
  show V m c main_arg6 _ = V m c main_arg6 _
  congr 1
  funext a
  apply Fin.ext
  match a with
  | ⟨0, _⟩ => show win0_9.index t 0 * 256 + 1 * (y 0).val = (y 0).val; rw [(idx_w9 t)]; omega

/-- Window 10's block at any point is the whole array `main_v21`. -/
theorem blk10 (c : Dev nD) (t : Fin cfg0.N) (y : S256x256.Idx) :
    (iblk m c 10 t : Vec Ideal S256x256 .bf16) y = V m c main_v21 y := by
  unfold iblk
  rw [View.read_apply]
  show V m c main_v21 _ = V m c main_v21 _
  congr 1
  funext a
  apply Fin.ext
  match a with
  | ⟨0, _⟩ => show win0_10.index t 0 * 256 + 1 * (y 0).val = (y 0).val; rw [(idx_w10 t).1]; omega
  | ⟨1, _⟩ => show win0_10.index t 1 * 256 + 1 * (y 1).val = (y 1).val; rw [(idx_w10 t).2]; omega

/-- Window 11's block at any point is the whole array `main_v24`. -/
theorem blk11 (c : Dev nD) (t : Fin cfg0.N) (y : S128x256.Idx) :
    (iblk m c 11 t : Vec Ideal S128x256 .bf16) y = V m c main_v24 y := by
  unfold iblk
  rw [View.read_apply]
  show V m c main_v24 _ = V m c main_v24 _
  congr 1
  funext a
  apply Fin.ext
  match a with
  | ⟨0, _⟩ => show win0_11.index t 0 * 128 + 1 * (y 0).val = (y 0).val; rw [(idx_w11 t).1]; omega
  | ⟨1, _⟩ => show win0_11.index t 1 * 256 + 1 * (y 1).val = (y 1).val; rw [(idx_w11 t).2]; omega

/-- Window 12's block at any point is the whole array `main_arg8`. -/
theorem blk12 (c : Dev nD) (t : Fin cfg0.N) (y : S256.Idx) :
    (iblk m c 12 t : Vec Ideal S256 .f32) y = V m c main_arg8 y := by
  unfold iblk
  rw [View.read_apply]
  show V m c main_arg8 _ = V m c main_arg8 _
  congr 1
  funext a
  apply Fin.ext
  match a with
  | ⟨0, _⟩ => show win0_12.index t 0 * 256 + 1 * (y 0).val = (y 0).val; rw [(idx_w12 t)]; omega

/-- Window 13's block at any point is the whole array `main_v26`. -/
theorem blk13 (c : Dev nD) (t : Fin cfg0.N) (y : S256x1.Idx) :
    (iblk m c 13 t : Vec Ideal S256x1 .bf16) y = V m c main_v26 y := by
  unfold iblk
  rw [View.read_apply]
  show V m c main_v26 _ = V m c main_v26 _
  congr 1
  funext a
  apply Fin.ext
  match a with
  | ⟨0, _⟩ => show win0_13.index t 0 * 256 + 1 * (y 0).val = (y 0).val; rw [(idx_w13 t).1]; omega
  | ⟨1, _⟩ => show win0_13.index t 1 * 1 + 1 * (y 1).val = (y 1).val; rw [(idx_w13 t).2]; omega

/-- Window 14's block at any point is the whole array `main_arg10`. -/
theorem blk14 (c : Dev nD) (t : Fin cfg0.N) (y : S1.Idx) :
    (iblk m c 14 t : Vec Ideal S1 .f32) y = V m c main_arg10 y := by
  unfold iblk
  rw [View.read_apply]
  show V m c main_arg10 _ = V m c main_arg10 _
  congr 1
  funext a
  apply Fin.ext
  match a with
  | ⟨0, _⟩ => show win0_14.index t 0 * 1 + 1 * (y 0).val = (y 0).val; rw [(idx_w14 t)]; omega

/-! ## One row of what a point writes back -/

/-- Row `r` of the block point `t` writes back is row `1024 t + r` of the specification's result of the
    argument arrays: the input block's row is that row of the argument with agent `a`'s feature `f` at
    column `128 a + f`, and each weight block is a transposed column half of its argument matrix. -/
theorem flushed_row (c : Dev nD) (t : Fin cfg0.N) (r : Fin 1024) (u : Fin 1) :
    out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r u)
      = Cert.Spec.Gat (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
          (⟨1024 * t.val + r.val, by have := t.isLt; have := r.isLt; have : cfg0.N = 64 := rfl; omega⟩ : Fin 65536) := by
  refine (Body.out_row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r u).trans ?_
  unfold Cert.Spec.Gat
  congr 1
  case e_x => funext a f; exact (blk0 m c t r _).trans (HostOps.V_v0 m c _ a f)
  case e_w1S => funext j f; exact (blk1 m c t _).trans (HostOps.V_v3 m c f j)
  case e_w1D => funext j f; exact (blk2 m c t _).trans (HostOps.V_v6 m c f j)
  case e_b1 => funext j; rw [blk3, V_main_arg2]
  case e_v1A => funext j f; exact (blk4 m c t _).trans (HostOps.V_v15 m c f j)
  case e_v1X => funext j f; exact (blk5 m c t _).trans (HostOps.V_v18 m c f j)
  case e_c1 => funext j; rw [blk6, V_main_arg4]
  case e_w2S => funext j f; exact (blk7 m c t _).trans (HostOps.V_v9 m c f j)
  case e_w2D => funext j f; exact (blk8 m c t _).trans (HostOps.V_v12 m c f j)
  case e_b2 => funext j; rw [blk9, V_main_arg6]
  case e_v2A => funext j f; exact (blk10 m c t _).trans (HostOps.V_v21 m c f j)
  case e_v2X => funext j f; exact (blk11 m c t _).trans (HostOps.V_v24 m c f j)
  case e_c2 => funext j; rw [blk12, V_main_arg8]
  case e_vw => funext j; exact (blk13 m c t _).trans (HostOps.V_v26 m c j 0)
  case e_vb => rw [blk14, V_main_arg10]

/-! ## From the blocks to the array -/

/-- The specification's result of the argument arrays as launched. -/
abbrev Gm (c : Dev nD) : FVec Ideal Cert.Spec.SOut .f32 :=
  Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

/-- What point `t` writes back is block `t` of the specification's result: rows `1024 t … 1024 t + 1023`. -/
theorem flushed_eq (c : Dev nD) (t : Fin cfg0.N) :
    (dats m 0 c).flushed 15 t = ((cfg0.win 15).blk t).view.read (Elt Ideal) (Gm m c) := by
  rw [Value.flushed15]
  funext y
  have hy : ∀ y : S1024x1.Idx, out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y
      = Gm m c (((cfg0.win 15).blk t).view.emb y) := by
    intro y
    obtain ⟨r, u, rfl⟩ : ∃ (r : Fin 1024) (u : Fin 1), y = ix2 r u := ⟨y 0, y 1, eq_ix2 y⟩
    rw [flushed_row m c t r u]
    show Cert.Spec.Gat _ _ _ _ _ _ _ _ _ _ _ _ = Cert.Spec.Gat _ _ _ _ _ _ _ _ _ _ _ _
    congr 1
    apply Fin.ext
    show 1024 * t.val + r.val = win0_15.index t 0 * 1024 + 1 * r.val
    rw [(idx_rows t).2.2.1]; omega
  exact hy y

/-- An index of the result is in point `t`'s block iff each coordinate is in the block's range on its axis. -/
theorem mem_blk (t : Fin cfg0.N) (i : S65536x1.Idx) :
    i ∈ ((cfg0.win 15).blk t).view.set ↔ ∀ a : Fin 2, win0_15.index t a * S1024x1.size a ≤ (i a).val ∧ (i a).val < win0_15.index t a * S1024x1.size a + S1024x1.size a := by
  show i ∈ ((View.whole main_v27).slice (win0_15.rect t)).set ↔ _
  rw [View.set_slice_whole, Rect.mem_set_unit]
  exact Iff.rfl

/-- The 64 blocks tile the result: row `R` lies in the block of point `R / 1024`. -/
theorem cover (i : S65536x1.Idx) :
    ∃ t : Fin cfg0.N, (cfg0.win 15).flush t = true ∧ i ∈ ((cfg0.win 15).blk t).view.set := by
  have h0 : (i 0).val < 65536 := (i 0).isLt
  have h1 : (i 1).val < 1 := (i 1).isLt
  have hN : cfg0.N = 64 := rfl
  let t : Fin cfg0.N := ⟨(i 0).val / 1024, by omega⟩
  have ht : t.val = (i 0).val / 1024 := rfl
  obtain ⟨-, -, e0, e1⟩ := idx_rows t
  refine ⟨t, flush0_15 t, ?_⟩
  rw [mem_blk]
  intro a
  match a with
  | ⟨0, _⟩ => show win0_15.index t 0 * 1024 ≤ (i 0).val ∧ (i 0).val < win0_15.index t 0 * 1024 + 1024; rw [e0, ht]; omega
  | ⟨1, _⟩ => show win0_15.index t 1 * 1 ≤ (i 1).val ∧ (i 1).val < win0_15.index t 1 * 1 + 1; rw [e1]; omega

/-- After the run the result array is the specification's result of the argument arrays. -/
theorem final (c : Dev nD) : (dats m 0 c).arrAt 15 cfg0.N = Gm m c :=
  (dats m 0 c).arrAt_eq_of_cover 15 (Gm m c) (fun t _ => flushed_eq m c t) cover

end Blocks

/-! ## The run -/

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v27) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  exact (θ_run defs _ _).mono (fun r h c => ⟨(h c).1.trans (final m c), (h c).2⟩) (Value.run_blocks m ρ)

end Cert.KernelIdeal.KRun

end
-- ==== Proof.RefStages.lean ====
/-
  The reference program's host operations grouped into the layers of the network: the index
  vectors of the edge sources and targets as the program computes them, an edge layer (two gathers of
  the agents' features, laid side by side, times the weight matrix, plus the bias, rectified), the
  averaging of incoming edges (a scatter-add onto zeros, times one half), a node layer, and the
  read-out (maximum over agents, product with the transposed weight row, plus the bias).
  `refTerm` is their composition: the array the reference program leaves in its result.
-/
import proofs.«426260_j63917703299078_3_alg».proof.ReferenceIdeal
import proofs.«426260_j63917703299078_3_alg».proof.Proof.Gen.ReferenceIdeal
import Idealize.ShloMosaic.PureOps.Ideal

noncomputable section

namespace Cert.ReferenceIdeal.Stages

open Idealize.ShloMosaic Cert.ReferenceIdeal Cert.ReferenceIdeal.Facts₀

/-- A length-6 agent index vector as the program normalises it (a negative entry is shifted up by the
    number of agents), as a column. -/
def idxCol (c : IVec S6 32) : IVec S6x1 32 :=
  broadcastInDim S6x1 ![0] bcast_S6_S6x1_0
    (select (cmpi .slt c (broadcastInDim S6 ![] bcast_S_S6 (constantI S_ 32 0#32)))
      (addi c (broadcastInDim S6 ![] bcast_S_S6 (constantI S_ 32 3#32))) c)

/-- The edge sources as a column of indices. -/
def srcIdx : IVec S6x1 32 := idxCol (fun i => lit0 (S6.rowMajor i))
/-- The edge targets as a column of indices. -/
def dstIdx : IVec S6x1 32 := idxCol (fun i => lit1 (S6.rowMajor i))

/-- The rectifier on per-edge features. -/
def reluE (z : FVec Ideal S65536x6x256 .f32) : FVec Ideal S65536x6x256 .f32 :=
  maximumf z (broadcastInDim S65536x6x256 ![] bcast_S_S65536x6x256 (constant S_ .f32 0x00000000#32))
/-- The rectifier on per-agent features. -/
def reluN (z : FVec Ideal S65536x3x256 .f32) : FVec Ideal S65536x3x256 .f32 :=
  maximumf z (broadcastInDim S65536x3x256 ![] bcast_S_S65536x3x256 (constant S_ .f32 0x00000000#32))

/-- The first edge layer, on the 128 input features. -/
def edge1 (x : FVec Ideal S65536x3x128 .f32) (w : FVec Ideal S256x256 .f32) (b : FVec Ideal S256 .f32) :
    FVec Ideal S65536x6x256 .f32 :=
  reluE (addf
    (Host.dotGeneral dot_S65536x6x256_S256x256_S65536x6x256_2_1_01_0_n_n none
      (concatenate S65536x6x256 2
        [⟨S65536x6x128, Host.gather gather_S65536x3x128_S6x1_S65536x6x128_02_1_n_n_1_1_655361128 x srcIdx⟩,
         ⟨S65536x6x128, Host.gather gather_S65536x3x128_S6x1_S65536x6x128_02_1_n_n_1_1_655361128 x dstIdx⟩]
        concatenates_S65536x6x128_S65536x6x128_S65536x6x256_d2) w)
    (broadcastInDim S65536x6x256 ![0, 1, 2] bcast_S1x1x256_S65536x6x256_0_1_2
      (broadcastInDim S1x1x256 ![2] bcast_S256_S1x1x256_2 b)))

/-- The second edge layer, on 256 hidden features. -/
def edge2 (h : FVec Ideal S65536x3x256 .f32) (w : FVec Ideal S256x512 .f32) (b : FVec Ideal S256 .f32) :
    FVec Ideal S65536x6x256 .f32 :=
  reluE (addf
    (Host.dotGeneral dot_S65536x6x512_S256x512_S65536x6x256_2_1_01_0_n_n none
      (concatenate S65536x6x512 2
        [⟨S65536x6x256, Host.gather gather_S65536x3x256_S6x1_S65536x6x256_02_1_n_n_1_1_655361256 h srcIdx⟩,
         ⟨S65536x6x256, Host.gather gather_S65536x3x256_S6x1_S65536x6x256_02_1_n_n_1_1_655361256 h dstIdx⟩]
        concatenates_S65536x6x256_S65536x6x256_S65536x6x512_d2) w)
    (broadcastInDim S65536x6x256 ![0, 1, 2] bcast_S1x1x256_S65536x6x256_0_1_2
      (broadcastInDim S1x1x256 ![2] bcast_S256_S1x1x256_2 b)))

/-- The half-sum of the edges arriving at each agent: a scatter-add onto zeros, times one half. -/
def aggr (E : FVec Ideal S65536x6x256 .f32) : FVec Ideal S65536x3x256 .f32 :=
  mulf
    (Host.scatterAdd scatter_S65536x3x256_S6x1_S65536x6x256_02_1_1_1
      (broadcastInDim S65536x3x256 ![] bcast_S_S65536x3x256 (constant S_ .f32 0x00000000#32)) dstIdx E)
    (broadcastInDim S65536x3x256 ![] bcast_S_S65536x3x256 (constant S_ .f32 0x3F000000#32))

/-- A node layer. -/
def node (A : FVec Ideal S65536x3x256 .f32) (x : FVec Ideal S65536x3x128 .f32) (w : FVec Ideal S256x384 .f32)
    (b : FVec Ideal S256 .f32) : FVec Ideal S65536x3x256 .f32 :=
  reluN (addf
    (Host.dotGeneral dot_S65536x3x384_S256x384_S65536x3x256_2_1_01_0_n_n none
      (concatenate S65536x3x384 2 [⟨S65536x3x256, A⟩, ⟨S65536x3x128, x⟩]
        concatenates_S65536x3x256_S65536x3x128_S65536x3x384_d2) w)
    (broadcastInDim S65536x3x256 ![0, 1, 2] bcast_S1x1x256_S65536x3x256_0_1_2
      (broadcastInDim S1x1x256 ![2] bcast_S256_S1x1x256_2 b)))

/-- The read-out. -/
def headR (H : FVec Ideal S65536x3x256 .f32) (vw : FVec Ideal S1x256 .f32) (vb : FVec Ideal S1 .f32) :
    FVec Ideal S65536x1 .f32 :=
  addf
    (Host.dotGeneral dot_S65536x256_S256x1_S65536x1_1_0_0_1_n_n none
      (Host.reduce FloatOps.maximumf H (constant S_ .f32 0xFF800000#32) reducesTo_S65536x3x256_S65536x256_d1 h_S_)
      (transpose S256x1 [1, 0] vw transposes_S1x256_S256x1_1_0))
    (broadcastInDim S65536x1 ![0, 1] bcast_S1x1_S65536x1_0_1 (broadcastInDim S1x1 ![1] bcast_S1_S1x1_1 vb))

/-- The reference program's result as a function of its eleven arguments. -/
def refTerm (x : FVec Ideal S65536x3x128 .f32) (w1 : FVec Ideal S256x256 .f32) (b1 : FVec Ideal S256 .f32)
    (wv1 : FVec Ideal S256x384 .f32) (bv1 : FVec Ideal S256 .f32) (w2 : FVec Ideal S256x512 .f32) (b2 : FVec Ideal S256 .f32)
    (wv2 : FVec Ideal S256x384 .f32) (bv2 : FVec Ideal S256 .f32) (vw : FVec Ideal S1x256 .f32) (vb : FVec Ideal S1 .f32) :
    FVec Ideal S65536x1 .f32 :=
  headR (node (aggr (edge2 (node (aggr (edge1 x w1 b1)) x wv1 bv1) w2 b2)) x wv2 bv2) vw vb

end Cert.ReferenceIdeal.Stages

end
-- ==== Proof.RefRun.lean ====
/-
  The reference program's run: every weakly fair execution of its host operations terminates and
  leaves in the result buffer the composition of the network's layers applied to the argument arrays,
  the arguments unchanged.
-/
import proofs.«426260_j63917703299078_3_alg».proof.Proof.RefStages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Two lines of operations run one after the other: the contents after the second, started from the contents
    after the first. -/
theorem after_app (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- @main's 105 operations in order: its own 93 lines and, at each of the four calls of the rectifier, the callee's
    three (the zero constant, its broadcast to the operand's shape, the maximum of the operand and that) over the
    call's own buffers. -/
abbrev ops : List (HloOp τ sig (Elt F)) :=
  [ nullary main_c (fun i => lit0 (S6.rowMajor i)),
    nullary main_c_0 (fun i => lit1 (S6.rowMajor i)),
    nullary main_c_1 (constantI S_ 32 0#32),
    unary main_c_1 main_v0 (broadcastInDim S6 ![] bcast_S_S6 : (⟨S_, .i32⟩ : BufTy).Contents (Elt F) → (⟨S6, .i32⟩ : BufTy).Contents (Elt F)),
    binary main_c main_v0 main_v1 (cmpi .slt : (⟨S6, .i32⟩ : BufTy).Contents (Elt F) → (⟨S6, .i32⟩ : BufTy).Contents (Elt F) → (⟨S6, .i1⟩ : BufTy).Contents (Elt F)),
    nullary main_c_2 (constantI S_ 32 3#32),
    unary main_c_2 main_v2 (broadcastInDim S6 ![] bcast_S_S6 : (⟨S_, .i32⟩ : BufTy).Contents (Elt F) → (⟨S6, .i32⟩ : BufTy).Contents (Elt F)),
    binary main_c main_v2 main_v3 (addi : (⟨S6, .i32⟩ : BufTy).Contents (Elt F) → (⟨S6, .i32⟩ : BufTy).Contents (Elt F) → (⟨S6, .i32⟩ : BufTy).Contents (Elt F)),
    ternary main_v1 main_v3 main_c main_v4 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    unary main_v4 main_v5 (broadcastInDim S6x1 ![0] bcast_S6_S6x1_0 : (⟨S6, .i32⟩ : BufTy).Contents (Elt F) → (⟨S6x1, .i32⟩ : BufTy).Contents (Elt F)),
    binary main_arg0 main_v5 main_v6 ((fun x i => Host.gather gather_S65536x3x128_S6x1_S65536x6x128_02_1_n_n_1_1_655361128 x i) : (⟨S65536x3x128, .f32⟩ : BufTy).Contents (Elt F) → (⟨S6x1, .i32⟩ : BufTy).Contents (Elt F) → (⟨S65536x6x128, .f32⟩ : BufTy).Contents (Elt F)),
    nullary main_c_3 (constantI S_ 32 0#32),
    unary main_c_3 main_v7 (broadcastInDim S6 ![] bcast_S_S6 : (⟨S_, .i32⟩ : BufTy).Contents (Elt F) → (⟨S6, .i32⟩ : BufTy).Contents (Elt F)),
    binary main_c_0 main_v7 main_v8 (cmpi .slt : (⟨S6, .i32⟩ : BufTy).Contents (Elt F) → (⟨S6, .i32⟩ : BufTy).Contents (Elt F) → (⟨S6, .i1⟩ : BufTy).Contents (Elt F)),
    nullary main_c_4 (constantI S_ 32 3#32),
    unary main_c_4 main_v9 (broadcastInDim S6 ![] bcast_S_S6 : (⟨S_, .i32⟩ : BufTy).Contents (Elt F) → (⟨S6, .i32⟩ : BufTy).Contents (Elt F)),
    binary main_c_0 main_v9 main_v10 (addi : (⟨S6, .i32⟩ : BufTy).Contents (Elt F) → (⟨S6, .i32⟩ : BufTy).Contents (Elt F) → (⟨S6, .i32⟩ : BufTy).Contents (Elt F)),
    ternary main_v8 main_v10 main_c_0 main_v11 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    unary main_v11 main_v12 (broadcastInDim S6x1 ![0] bcast_S6_S6x1_0 : (⟨S6, .i32⟩ : BufTy).Contents (Elt F) → (⟨S6x1, .i32⟩ : BufTy).Contents (Elt F)),
    binary main_arg0 main_v12 main_v13 ((fun x i => Host.gather gather_S65536x3x128_S6x1_S65536x6x128_02_1_n_n_1_1_655361128 x i) : (⟨S65536x3x128, .f32⟩ : BufTy).Contents (Elt F) → (⟨S6x1, .i32⟩ : BufTy).Contents (Elt F) → (⟨S65536x6x128, .f32⟩ : BufTy).Contents (Elt F)),
    binary main_v6 main_v13 main_v14 ((fun a b => concatenate S65536x6x256 2 [⟨S65536x6x128, a⟩, ⟨S65536x6x128, b⟩] concatenates_S65536x6x128_S65536x6x128_S65536x6x256_d2) : (⟨S65536x6x128, .f32⟩ : BufTy).Contents (Elt F) → (⟨S65536x6x128, .f32⟩ : BufTy).Contents (Elt F) → (⟨S65536x6x256, .f32⟩ : BufTy).Contents (Elt F)),
    binary main_v14 main_arg1 main_v15 ((fun l r => Host.dotGeneral dot_S65536x6x256_S256x256_S65536x6x256_2_1_01_0_n_n none l r) : (⟨S65536x6x256, .f32⟩ : BufTy).Contents (Elt F) → (⟨S256x256, .f32⟩ : BufTy).Contents (Elt F) → (⟨S65536x6x256, .f32⟩ : BufTy).Contents (Elt F)),
    unary main_arg2 main_v16 (broadcastInDim S1x1x256 ![2] bcast_S256_S1x1x256_2 : (⟨S256, .f32⟩ : BufTy).Contents (Elt F) → (⟨S1x1x256, .f32⟩ : BufTy).Contents (Elt F)),
    unary main_v16 main_v17 (broadcastInDim S65536x6x256 ![0, 1, 2] bcast_S1x1x256_S65536x6x256_0_1_2 : (⟨S1x1x256, .f32⟩ : BufTy).Contents (Elt F) → (⟨S65536x6x256, .f32⟩ : BufTy).Contents (Elt F)),
    binary main_v15 main_v17 main_v18 (addf : (⟨S65536x6x256, .f32⟩ : BufTy).Contents (Elt F) → (⟨S65536x6x256, .f32⟩ : BufTy).Contents (Elt F) → (⟨S65536x6x256, .f32⟩ : BufTy).Contents (Elt F)),
    TRef.nullary main_call0.cst (constant S_ .f32 0x00000000#32),
    TRef.unary main_call0.cst main_call0.v0 (broadcastInDim S65536x6x256 ![] bcast_S_S65536x6x256),
    TRef.binary (.of main_v18) main_call0.v0 main_call0.v1 maximumf,
    nullary main_cst (constant S_ .f32 0x00000000#32),
    unary main_cst main_v20 (broadcastInDim S65536x3x256 ![] bcast_S_S65536x3x256 : (⟨S_, .f32⟩ : BufTy).Contents (Elt F) → (⟨S65536x3x256, .f32⟩ : BufTy).Contents (Elt F)),
    nullary main_c_5 (constantI S_ 32 0#32),
    unary main_c_5 main_v21 (broadcastInDim S6 ![] bcast_S_S6 : (⟨S_, .i32⟩ : BufTy).Contents (Elt F) → (⟨S6, .i32⟩ : BufTy).Contents (Elt F)),
    binary main_c_0 main_v21 main_v22 (cmpi .slt : (⟨S6, .i32⟩ : BufTy).Contents (Elt F) → (⟨S6, .i32⟩ : BufTy).Contents (Elt F) → (⟨S6, .i1⟩ : BufTy).Contents (Elt F)),
    nullary main_c_6 (constantI S_ 32 3#32),
    unary main_c_6 main_v23 (broadcastInDim S6 ![] bcast_S_S6 : (⟨S_, .i32⟩ : BufTy).Contents (Elt F) → (⟨S6, .i32⟩ : BufTy).Contents (Elt F)),
    binary main_c_0 main_v23 main_v24 (addi : (⟨S6, .i32⟩ : BufTy).Contents (Elt F) → (⟨S6, .i32⟩ : BufTy).Contents (Elt F) → (⟨S6, .i32⟩ : BufTy).Contents (Elt F)),
    ternary main_v22 main_v24 main_c_0 main_v25 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    unary main_v25 main_v26 (broadcastInDim S6x1 ![0] bcast_S6_S6x1_0 : (⟨S6, .i32⟩ : BufTy).Contents (Elt F) → (⟨S6x1, .i32⟩ : BufTy).Contents (Elt F)),
    ternary main_v20 main_v26 main_v19 main_v27 ((fun x i u => Host.scatterAdd scatter_S65536x3x256_S6x1_S65536x6x256_02_1_1_1 x i u) : (⟨S65536x3x256, .f32⟩ : BufTy).Contents (Elt F) → (⟨S6x1, .i32⟩ : BufTy).Contents (Elt F) → (⟨S65536x6x256, .f32⟩ : BufTy).Contents (Elt F) → (⟨S65536x3x256, .f32⟩ : BufTy).Contents (Elt F)),
    nullary main_cst_7 (constant S_ .f32 0x3F000000#32),
    unary main_cst_7 main_v28 (broadcastInDim S65536x3x256 ![] bcast_S_S65536x3x256 : (⟨S_, .f32⟩ : BufTy).Contents (Elt F) → (⟨S65536x3x256, .f32⟩ : BufTy).Contents (Elt F)),
    binary main_v27 main_v28 main_v29 (mulf : (⟨S65536x3x256, .f32⟩ : BufTy).Contents (Elt F) → (⟨S65536x3x256, .f32⟩ : BufTy).Contents (Elt F) → (⟨S65536x3x256, .f32⟩ : BufTy).Contents (Elt F)),
    binary main_v29 main_arg0 main_v30 ((fun a b => concatenate S65536x3x384 2 [⟨S65536x3x256, a⟩, ⟨S65536x3x128, b⟩] concatenates_S65536x3x256_S65536x3x128_S65536x3x384_d2) : (⟨S65536x3x256, .f32⟩ : BufTy).Contents (Elt F) → (⟨S65536x3x128, .f32⟩ : BufTy).Contents (Elt F) → (⟨S65536x3x384, .f32⟩ : BufTy).Contents (Elt F)),
    binary main_v30 main_arg3 main_v31 ((fun l r => Host.dotGeneral dot_S65536x3x384_S256x384_S65536x3x256_2_1_01_0_n_n none l r) : (⟨S65536x3x384, .f32⟩ : BufTy).Contents (Elt F) → (⟨S256x384, .f32⟩ : BufTy).Contents (Elt F) → (⟨S65536x3x256, .f32⟩ : BufTy).Contents (Elt F)),
    unary main_arg4 main_v32 (broadcastInDim S1x1x256 ![2] bcast_S256_S1x1x256_2 : (⟨S256, .f32⟩ : BufTy).Contents (Elt F) → (⟨S1x1x256, .f32⟩ : BufTy).Contents (Elt F)),
    unary main_v32 main_v33 (broadcastInDim S65536x3x256 ![0, 1, 2] bcast_S1x1x256_S65536x3x256_0_1_2 : (⟨S1x1x256, .f32⟩ : BufTy).Contents (Elt F) → (⟨S65536x3x256, .f32⟩ : BufTy).Contents (Elt F)),
    binary main_v31 main_v33 main_v34 (addf : (⟨S65536x3x256, .f32⟩ : BufTy).Contents (Elt F) → (⟨S65536x3x256, .f32⟩ : BufTy).Contents (Elt F) → (⟨S65536x3x256, .f32⟩ : BufTy).Contents (Elt F)),
    TRef.nullary main_call1.cst (constant S_ .f32 0x00000000#32),
    TRef.unary main_call1.cst main_call1.v0 (broadcastInDim S65536x3x256 ![] bcast_S_S65536x3x256),
    TRef.binary (.of main_v34) main_call1.v0 main_call1.v1 maximumf,
    nullary main_c_8 (constantI S_ 32 0#32),
    unary main_c_8 main_v36 (broadcastInDim S6 ![] bcast_S_S6 : (⟨S_, .i32⟩ : BufTy).Contents (Elt F) → (⟨S6, .i32⟩ : BufTy).Contents (Elt F)),
    binary main_c main_v36 main_v37 (cmpi .slt : (⟨S6, .i32⟩ : BufTy).Contents (Elt F) → (⟨S6, .i32⟩ : BufTy).Contents (Elt F) → (⟨S6, .i1⟩ : BufTy).Contents (Elt F)),
    nullary main_c_9 (constantI S_ 32 3#32),
    unary main_c_9 main_v38 (broadcastInDim S6 ![] bcast_S_S6 : (⟨S_, .i32⟩ : BufTy).Contents (Elt F) → (⟨S6, .i32⟩ : BufTy).Contents (Elt F)),
    binary main_c main_v38 main_v39 (addi : (⟨S6, .i32⟩ : BufTy).Contents (Elt F) → (⟨S6, .i32⟩ : BufTy).Contents (Elt F) → (⟨S6, .i32⟩ : BufTy).Contents (Elt F)),
    ternary main_v37 main_v39 main_c main_v40 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    unary main_v40 main_v41 (broadcastInDim S6x1 ![0] bcast_S6_S6x1_0 : (⟨S6, .i32⟩ : BufTy).Contents (Elt F) → (⟨S6x1, .i32⟩ : BufTy).Contents (Elt F)),
    binary main_v35 main_v41 main_v42 ((fun x i => Host.gather gather_S65536x3x256_S6x1_S65536x6x256_02_1_n_n_1_1_655361256 x i) : (⟨S65536x3x256, .f32⟩ : BufTy).Contents (Elt F) → (⟨S6x1, .i32⟩ : BufTy).Contents (Elt F) → (⟨S65536x6x256, .f32⟩ : BufTy).Contents (Elt F)),
    nullary main_c_10 (constantI S_ 32 0#32),
    unary main_c_10 main_v43 (broadcastInDim S6 ![] bcast_S_S6 : (⟨S_, .i32⟩ : BufTy).Contents (Elt F) → (⟨S6, .i32⟩ : BufTy).Contents (Elt F)),
    binary main_c_0 main_v43 main_v44 (cmpi .slt : (⟨S6, .i32⟩ : BufTy).Contents (Elt F) → (⟨S6, .i32⟩ : BufTy).Contents (Elt F) → (⟨S6, .i1⟩ : BufTy).Contents (Elt F)),
    nullary main_c_11 (constantI S_ 32 3#32),
    unary main_c_11 main_v45 (broadcastInDim S6 ![] bcast_S_S6 : (⟨S_, .i32⟩ : BufTy).Contents (Elt F) → (⟨S6, .i32⟩ : BufTy).Contents (Elt F)),
    binary main_c_0 main_v45 main_v46 (addi : (⟨S6, .i32⟩ : BufTy).Contents (Elt F) → (⟨S6, .i32⟩ : BufTy).Contents (Elt F) → (⟨S6, .i32⟩ : BufTy).Contents (Elt F)),
    ternary main_v44 main_v46 main_c_0 main_v47 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    unary main_v47 main_v48 (broadcastInDim S6x1 ![0] bcast_S6_S6x1_0 : (⟨S6, .i32⟩ : BufTy).Contents (Elt F) → (⟨S6x1, .i32⟩ : BufTy).Contents (Elt F)),
    binary main_v35 main_v48 main_v49 ((fun x i => Host.gather gather_S65536x3x256_S6x1_S65536x6x256_02_1_n_n_1_1_655361256 x i) : (⟨S65536x3x256, .f32⟩ : BufTy).Contents (Elt F) → (⟨S6x1, .i32⟩ : BufTy).Contents (Elt F) → (⟨S65536x6x256, .f32⟩ : BufTy).Contents (Elt F)),
    binary main_v42 main_v49 main_v50 ((fun a b => concatenate S65536x6x512 2 [⟨S65536x6x256, a⟩, ⟨S65536x6x256, b⟩] concatenates_S65536x6x256_S65536x6x256_S65536x6x512_d2) : (⟨S65536x6x256, .f32⟩ : BufTy).Contents (Elt F) → (⟨S65536x6x256, .f32⟩ : BufTy).Contents (Elt F) → (⟨S65536x6x512, .f32⟩ : BufTy).Contents (Elt F)),
    binary main_v50 main_arg5 main_v51 ((fun l r => Host.dotGeneral dot_S65536x6x512_S256x512_S65536x6x256_2_1_01_0_n_n none l r) : (⟨S65536x6x512, .f32⟩ : BufTy).Contents (Elt F) → (⟨S256x512, .f32⟩ : BufTy).Contents (Elt F) → (⟨S65536x6x256, .f32⟩ : BufTy).Contents (Elt F)),
    unary main_arg6 main_v52 (broadcastInDim S1x1x256 ![2] bcast_S256_S1x1x256_2 : (⟨S256, .f32⟩ : BufTy).Contents (Elt F) → (⟨S1x1x256, .f32⟩ : BufTy).Contents (Elt F)),
    unary main_v52 main_v53 (broadcastInDim S65536x6x256 ![0, 1, 2] bcast_S1x1x256_S65536x6x256_0_1_2 : (⟨S1x1x256, .f32⟩ : BufTy).Contents (Elt F) → (⟨S65536x6x256, .f32⟩ : BufTy).Contents (Elt F)),
    binary main_v51 main_v53 main_v54 (addf : (⟨S65536x6x256, .f32⟩ : BufTy).Contents (Elt F) → (⟨S65536x6x256, .f32⟩ : BufTy).Contents (Elt F) → (⟨S65536x6x256, .f32⟩ : BufTy).Contents (Elt F)),
    TRef.nullary main_call2.cst (constant S_ .f32 0x00000000#32),
    TRef.unary main_call2.cst main_call2.v0 (broadcastInDim S65536x6x256 ![] bcast_S_S65536x6x256),
    TRef.binary (.of main_v54) main_call2.v0 main_call2.v1 maximumf,
    nullary main_cst_12 (constant S_ .f32 0x00000000#32),
    unary main_cst_12 main_v56 (broadcastInDim S65536x3x256 ![] bcast_S_S65536x3x256 : (⟨S_, .f32⟩ : BufTy).Contents (Elt F) → (⟨S65536x3x256, .f32⟩ : BufTy).Contents (Elt F)),
    nullary main_c_13 (constantI S_ 32 0#32),
    unary main_c_13 main_v57 (broadcastInDim S6 ![] bcast_S_S6 : (⟨S_, .i32⟩ : BufTy).Contents (Elt F) → (⟨S6, .i32⟩ : BufTy).Contents (Elt F)),
    binary main_c_0 main_v57 main_v58 (cmpi .slt : (⟨S6, .i32⟩ : BufTy).Contents (Elt F) → (⟨S6, .i32⟩ : BufTy).Contents (Elt F) → (⟨S6, .i1⟩ : BufTy).Contents (Elt F)),
    nullary main_c_14 (constantI S_ 32 3#32),
    unary main_c_14 main_v59 (broadcastInDim S6 ![] bcast_S_S6 : (⟨S_, .i32⟩ : BufTy).Contents (Elt F) → (⟨S6, .i32⟩ : BufTy).Contents (Elt F)),
    binary main_c_0 main_v59 main_v60 (addi : (⟨S6, .i32⟩ : BufTy).Contents (Elt F) → (⟨S6, .i32⟩ : BufTy).Contents (Elt F) → (⟨S6, .i32⟩ : BufTy).Contents (Elt F)),
    ternary main_v58 main_v60 main_c_0 main_v61 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    unary main_v61 main_v62 (broadcastInDim S6x1 ![0] bcast_S6_S6x1_0 : (⟨S6, .i32⟩ : BufTy).Contents (Elt F) → (⟨S6x1, .i32⟩ : BufTy).Contents (Elt F)),
    ternary main_v56 main_v62 main_v55 main_v63 ((fun x i u => Host.scatterAdd scatter_S65536x3x256_S6x1_S65536x6x256_02_1_1_1 x i u) : (⟨S65536x3x256, .f32⟩ : BufTy).Contents (Elt F) → (⟨S6x1, .i32⟩ : BufTy).Contents (Elt F) → (⟨S65536x6x256, .f32⟩ : BufTy).Contents (Elt F) → (⟨S65536x3x256, .f32⟩ : BufTy).Contents (Elt F)),
    nullary main_cst_15 (constant S_ .f32 0x3F000000#32),
    unary main_cst_15 main_v64 (broadcastInDim S65536x3x256 ![] bcast_S_S65536x3x256 : (⟨S_, .f32⟩ : BufTy).Contents (Elt F) → (⟨S65536x3x256, .f32⟩ : BufTy).Contents (Elt F)),
    binary main_v63 main_v64 main_v65 (mulf : (⟨S65536x3x256, .f32⟩ : BufTy).Contents (Elt F) → (⟨S65536x3x256, .f32⟩ : BufTy).Contents (Elt F) → (⟨S65536x3x256, .f32⟩ : BufTy).Contents (Elt F)),
    binary main_v65 main_arg0 main_v66 ((fun a b => concatenate S65536x3x384 2 [⟨S65536x3x256, a⟩, ⟨S65536x3x128, b⟩] concatenates_S65536x3x256_S65536x3x128_S65536x3x384_d2) : (⟨S65536x3x256, .f32⟩ : BufTy).Contents (Elt F) → (⟨S65536x3x128, .f32⟩ : BufTy).Contents (Elt F) → (⟨S65536x3x384, .f32⟩ : BufTy).Contents (Elt F)),
    binary main_v66 main_arg7 main_v67 ((fun l r => Host.dotGeneral dot_S65536x3x384_S256x384_S65536x3x256_2_1_01_0_n_n none l r) : (⟨S65536x3x384, .f32⟩ : BufTy).Contents (Elt F) → (⟨S256x384, .f32⟩ : BufTy).Contents (Elt F) → (⟨S65536x3x256, .f32⟩ : BufTy).Contents (Elt F)),
    unary main_arg8 main_v68 (broadcastInDim S1x1x256 ![2] bcast_S256_S1x1x256_2 : (⟨S256, .f32⟩ : BufTy).Contents (Elt F) → (⟨S1x1x256, .f32⟩ : BufTy).Contents (Elt F)),
    unary main_v68 main_v69 (broadcastInDim S65536x3x256 ![0, 1, 2] bcast_S1x1x256_S65536x3x256_0_1_2 : (⟨S1x1x256, .f32⟩ : BufTy).Contents (Elt F) → (⟨S65536x3x256, .f32⟩ : BufTy).Contents (Elt F)),
    binary main_v67 main_v69 main_v70 (addf : (⟨S65536x3x256, .f32⟩ : BufTy).Contents (Elt F) → (⟨S65536x3x256, .f32⟩ : BufTy).Contents (Elt F) → (⟨S65536x3x256, .f32⟩ : BufTy).Contents (Elt F)),
    TRef.nullary main_call3.cst (constant S_ .f32 0x00000000#32),
    TRef.unary main_call3.cst main_call3.v0 (broadcastInDim S65536x3x256 ![] bcast_S_S65536x3x256),
    TRef.binary (.of main_v70) main_call3.v0 main_call3.v1 maximumf,
    nullary main_cst_16 (constant S_ .f32 0xFF800000#32),
    binary main_v71 main_cst_16 main_v72 ((fun x v => Host.reduce FloatOps.maximumf x v reducesTo_S65536x3x256_S65536x256_d1 h_S_) : (⟨S65536x3x256, .f32⟩ : BufTy).Contents (Elt F) → (⟨S_, .f32⟩ : BufTy).Contents (Elt F) → (⟨S65536x256, .f32⟩ : BufTy).Contents (Elt F)),
    unary main_arg9 main_v73 ((transpose S256x1 [1, 0] · transposes_S1x256_S256x1_1_0) : (⟨S1x256, .f32⟩ : BufTy).Contents (Elt F) → (⟨S256x1, .f32⟩ : BufTy).Contents (Elt F)),
    binary main_v72 main_v73 main_v74 ((fun l r => Host.dotGeneral dot_S65536x256_S256x1_S65536x1_1_0_0_1_n_n none l r) : (⟨S65536x256, .f32⟩ : BufTy).Contents (Elt F) → (⟨S256x1, .f32⟩ : BufTy).Contents (Elt F) → (⟨S65536x1, .f32⟩ : BufTy).Contents (Elt F)),
    unary main_arg10 main_v75 (broadcastInDim S1x1 ![1] bcast_S1_S1x1_1 : (⟨S1, .f32⟩ : BufTy).Contents (Elt F) → (⟨S1x1, .f32⟩ : BufTy).Contents (Elt F)),
    unary main_v75 main_v76 (broadcastInDim S65536x1 ![0, 1] bcast_S1x1_S65536x1_0_1 : (⟨S1x1, .f32⟩ : BufTy).Contents (Elt F) → (⟨S65536x1, .f32⟩ : BufTy).Contents (Elt F)),
    binary main_v74 main_v76 main_v77 (addf : (⟨S65536x1, .f32⟩ : BufTy).Contents (Elt F) → (⟨S65536x1, .f32⟩ : BufTy).Contents (Elt F) → (⟨S65536x1, .f32⟩ : BufTy).Contents (Elt F)) ]

set_option maxRecDepth 8192 in
set_option maxHeartbeats 4000000 in
/-- @main is that straight line: its two windows in order and the callees' bodies at their calls are one chain of
    steps once sequencing is reassociated, which it is by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., binary_bufs_sub .., unary_bufs_sub .., unary_bufs_sub ..,
    binary_bufs_sub .., nullary_bufs_sub .., unary_bufs_sub .., binary_bufs_sub .., nullary_bufs_sub .., unary_bufs_sub ..,
    nullary_bufs_sub .., unary_bufs_sub .., binary_bufs_sub .., nullary_bufs_sub .., unary_bufs_sub .., binary_bufs_sub ..,
    ternary_bufs_sub .., unary_bufs_sub .., ternary_bufs_sub .., nullary_bufs_sub .., unary_bufs_sub .., binary_bufs_sub ..,
    binary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., binary_bufs_sub .., unary_bufs_sub .., unary_bufs_sub ..,
    binary_bufs_sub .., nullary_bufs_sub .., unary_bufs_sub .., binary_bufs_sub .., nullary_bufs_sub .., unary_bufs_sub ..,
    nullary_bufs_sub .., unary_bufs_sub .., binary_bufs_sub .., nullary_bufs_sub .., unary_bufs_sub .., binary_bufs_sub ..,
    ternary_bufs_sub .., unary_bufs_sub .., ternary_bufs_sub .., nullary_bufs_sub .., unary_bufs_sub .., binary_bufs_sub ..,
    binary_bufs_sub .., binary_bufs_sub .., unary_bufs_sub .., unary_bufs_sub .., binary_bufs_sub .., nullary_bufs_sub ..,
    unary_bufs_sub .., binary_bufs_sub .., nullary_bufs_sub .., binary_bufs_sub .., unary_bufs_sub .., binary_bufs_sub ..,
    unary_bufs_sub .., unary_bufs_sub .., binary_bufs_sub ..⟩

/-! ## The line cut at the layers

The network's layers follow one another in the line: each stretch below reads the arguments, the two literal
index tables and the previous layer's result, and writes buffers of its own only. For any contents `W` before a
stretch, its result buffer afterwards holds the layer applied to what `W` holds at the buffers it reads. -/

/-- The first edge layer (operations 1 … 28): the two literal tables of edge sources and targets, the source and
    target index columns, the two gathers of the agents' features laid side by side, the product with the weight
    matrix, the bias, and the rectifier's three operations (zero, its broadcast, the maximum). -/
abbrev line1 : List (HloOp τ sig (Elt F)) :=
  [ nullary main_c (fun i => lit0 (S6.rowMajor i)),
    nullary main_c_0 (fun i => lit1 (S6.rowMajor i)),
    nullary main_c_1 (constantI S_ 32 0#32),
    unary main_c_1 main_v0 (broadcastInDim S6 ![] bcast_S_S6 : (⟨S_, .i32⟩ : BufTy).Contents (Elt F) → (⟨S6, .i32⟩ : BufTy).Contents (Elt F)),
    binary main_c main_v0 main_v1 (cmpi .slt : (⟨S6, .i32⟩ : BufTy).Contents (Elt F) → (⟨S6, .i32⟩ : BufTy).Contents (Elt F) → (⟨S6, .i1⟩ : BufTy).Contents (Elt F)),
    nullary main_c_2 (constantI S_ 32 3#32),
    unary main_c_2 main_v2 (broadcastInDim S6 ![] bcast_S_S6 : (⟨S_, .i32⟩ : BufTy).Contents (Elt F) → (⟨S6, .i32⟩ : BufTy).Contents (Elt F)),
    binary main_c main_v2 main_v3 (addi : (⟨S6, .i32⟩ : BufTy).Contents (Elt F) → (⟨S6, .i32⟩ : BufTy).Contents (Elt F) → (⟨S6, .i32⟩ : BufTy).Contents (Elt F)),
    ternary main_v1 main_v3 main_c main_v4 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    unary main_v4 main_v5 (broadcastInDim S6x1 ![0] bcast_S6_S6x1_0 : (⟨S6, .i32⟩ : BufTy).Contents (Elt F) → (⟨S6x1, .i32⟩ : BufTy).Contents (Elt F)),
    binary main_arg0 main_v5 main_v6 ((fun x i => Host.gather gather_S65536x3x128_S6x1_S65536x6x128_02_1_n_n_1_1_655361128 x i) : (⟨S65536x3x128, .f32⟩ : BufTy).Contents (Elt F) → (⟨S6x1, .i32⟩ : BufTy).Contents (Elt F) → (⟨S65536x6x128, .f32⟩ : BufTy).Contents (Elt F)),
    nullary main_c_3 (constantI S_ 32 0#32),
    unary main_c_3 main_v7 (broadcastInDim S6 ![] bcast_S_S6 : (⟨S_, .i32⟩ : BufTy).Contents (Elt F) → (⟨S6, .i32⟩ : BufTy).Contents (Elt F)),
    binary main_c_0 main_v7 main_v8 (cmpi .slt : (⟨S6, .i32⟩ : BufTy).Contents (Elt F) → (⟨S6, .i32⟩ : BufTy).Contents (Elt F) → (⟨S6, .i1⟩ : BufTy).Contents (Elt F)),
    nullary main_c_4 (constantI S_ 32 3#32),
    unary main_c_4 main_v9 (broadcastInDim S6 ![] bcast_S_S6 : (⟨S_, .i32⟩ : BufTy).Contents (Elt F) → (⟨S6, .i32⟩ : BufTy).Contents (Elt F)),
    binary main_c_0 main_v9 main_v10 (addi : (⟨S6, .i32⟩ : BufTy).Contents (Elt F) → (⟨S6, .i32⟩ : BufTy).Contents (Elt F) → (⟨S6, .i32⟩ : BufTy).Contents (Elt F)),
    ternary main_v8 main_v10 main_c_0 main_v11 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    unary main_v11 main_v12 (broadcastInDim S6x1 ![0] bcast_S6_S6x1_0 : (⟨S6, .i32⟩ : BufTy).Contents (Elt F) → (⟨S6x1, .i32⟩ : BufTy).Contents (Elt F)),
    binary main_arg0 main_v12 main_v13 ((fun x i => Host.gather gather_S65536x3x128_S6x1_S65536x6x128_02_1_n_n_1_1_655361128 x i) : (⟨S65536x3x128, .f32⟩ : BufTy).Contents (Elt F) → (⟨S6x1, .i32⟩ : BufTy).Contents (Elt F) → (⟨S65536x6x128, .f32⟩ : BufTy).Contents (Elt F)),
    binary main_v6 main_v13 main_v14 ((fun a b => concatenate S65536x6x256 2 [⟨S65536x6x128, a⟩, ⟨S65536x6x128, b⟩] concatenates_S65536x6x128_S65536x6x128_S65536x6x256_d2) : (⟨S65536x6x128, .f32⟩ : BufTy).Contents (Elt F) → (⟨S65536x6x128, .f32⟩ : BufTy).Contents (Elt F) → (⟨S65536x6x256, .f32⟩ : BufTy).Contents (Elt F)),
    binary main_v14 main_arg1 main_v15 ((fun l r => Host.dotGeneral dot_S65536x6x256_S256x256_S65536x6x256_2_1_01_0_n_n none l r) : (⟨S65536x6x256, .f32⟩ : BufTy).Contents (Elt F) → (⟨S256x256, .f32⟩ : BufTy).Contents (Elt F) → (⟨S65536x6x256, .f32⟩ : BufTy).Contents (Elt F)),
    unary main_arg2 main_v16 (broadcastInDim S1x1x256 ![2] bcast_S256_S1x1x256_2 : (⟨S256, .f32⟩ : BufTy).Contents (Elt F) → (⟨S1x1x256, .f32⟩ : BufTy).Contents (Elt F)),
    unary main_v16 main_v17 (broadcastInDim S65536x6x256 ![0, 1, 2] bcast_S1x1x256_S65536x6x256_0_1_2 : (⟨S1x1x256, .f32⟩ : BufTy).Contents (Elt F) → (⟨S65536x6x256, .f32⟩ : BufTy).Contents (Elt F)),
    binary main_v15 main_v17 main_v18 (addf : (⟨S65536x6x256, .f32⟩ : BufTy).Contents (Elt F) → (⟨S65536x6x256, .f32⟩ : BufTy).Contents (Elt F) → (⟨S65536x6x256, .f32⟩ : BufTy).Contents (Elt F)),
    TRef.nullary main_call0.cst (constant S_ .f32 0x00000000#32),
    TRef.unary main_call0.cst main_call0.v0 (broadcastInDim S65536x6x256 ![] bcast_S_S65536x6x256),
    TRef.binary (.of main_v18) main_call0.v0 main_call0.v1 maximumf ]

/-- The buffers those operations write, one each. -/
abbrev line1_W : List (Ref sig .tc) :=
  [main_c, main_c_0, main_c_1, main_v0, main_v1, main_c_2, main_v2, main_v3, main_v4, main_v5, main_v6, main_c_3, main_v7, main_v8, main_c_4, main_v9, main_v10, main_v11, main_v12, main_v13, main_v14, main_v15, main_v16, main_v17, main_v18, main_call0_cst, main_call0_v0, main_v19]

theorem line1_writes : (line1 : List (HloOp τ sig (Elt F))).Forall fun op =>
    op.writes ⊆ (line1_W.map (Proc.devRef (τ := τ) .tc)).toFinset := by
  simp only [List.Forall, nullary_writes, unary_writes, binary_writes, ternary_writes, Finset.singleton_subset_iff,
    List.mem_toFinset]
  repeat' apply And.intro
  all_goals exact List.mem_map_of_mem (by decide)

/-- A buffer none of them writes keeps its contents through them. -/
theorem keep1 (W : Valuation τ sig (Elt F)) (r : Ref sig .tc) (h : r ∉ line1_W) :
    after line1 W (Proc.devRef .tc r) = W (Proc.devRef .tc r) :=
  after_of_writes_sub line1 W line1_writes h

/-- The first averaging and node layer (operations 29 … 50): the zero array, the target index column, the
    scatter-add of the edge features onto it, the product with one half, the raw input laid beside it, the product
    with the weight matrix, the bias, and the rectifier's three operations. -/
abbrev line2 : List (HloOp τ sig (Elt F)) :=
  [ nullary main_cst (constant S_ .f32 0x00000000#32),
    unary main_cst main_v20 (broadcastInDim S65536x3x256 ![] bcast_S_S65536x3x256 : (⟨S_, .f32⟩ : BufTy).Contents (Elt F) → (⟨S65536x3x256, .f32⟩ : BufTy).Contents (Elt F)),
    nullary main_c_5 (constantI S_ 32 0#32),
    unary main_c_5 main_v21 (broadcastInDim S6 ![] bcast_S_S6 : (⟨S_, .i32⟩ : BufTy).Contents (Elt F) → (⟨S6, .i32⟩ : BufTy).Contents (Elt F)),
    binary main_c_0 main_v21 main_v22 (cmpi .slt : (⟨S6, .i32⟩ : BufTy).Contents (Elt F) → (⟨S6, .i32⟩ : BufTy).Contents (Elt F) → (⟨S6, .i1⟩ : BufTy).Contents (Elt F)),
    nullary main_c_6 (constantI S_ 32 3#32),
    unary main_c_6 main_v23 (broadcastInDim S6 ![] bcast_S_S6 : (⟨S_, .i32⟩ : BufTy).Contents (Elt F) → (⟨S6, .i32⟩ : BufTy).Contents (Elt F)),
    binary main_c_0 main_v23 main_v24 (addi : (⟨S6, .i32⟩ : BufTy).Contents (Elt F) → (⟨S6, .i32⟩ : BufTy).Contents (Elt F) → (⟨S6, .i32⟩ : BufTy).Contents (Elt F)),
    ternary main_v22 main_v24 main_c_0 main_v25 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    unary main_v25 main_v26 (broadcastInDim S6x1 ![0] bcast_S6_S6x1_0 : (⟨S6, .i32⟩ : BufTy).Contents (Elt F) → (⟨S6x1, .i32⟩ : BufTy).Contents (Elt F)),
    ternary main_v20 main_v26 main_v19 main_v27 ((fun x i u => Host.scatterAdd scatter_S65536x3x256_S6x1_S65536x6x256_02_1_1_1 x i u) : (⟨S65536x3x256, .f32⟩ : BufTy).Contents (Elt F) → (⟨S6x1, .i32⟩ : BufTy).Contents (Elt F) → (⟨S65536x6x256, .f32⟩ : BufTy).Contents (Elt F) → (⟨S65536x3x256, .f32⟩ : BufTy).Contents (Elt F)),
    nullary main_cst_7 (constant S_ .f32 0x3F000000#32),
    unary main_cst_7 main_v28 (broadcastInDim S65536x3x256 ![] bcast_S_S65536x3x256 : (⟨S_, .f32⟩ : BufTy).Contents (Elt F) → (⟨S65536x3x256, .f32⟩ : BufTy).Contents (Elt F)),
    binary main_v27 main_v28 main_v29 (mulf : (⟨S65536x3x256, .f32⟩ : BufTy).Contents (Elt F) → (⟨S65536x3x256, .f32⟩ : BufTy).Contents (Elt F) → (⟨S65536x3x256, .f32⟩ : BufTy).Contents (Elt F)),
    binary main_v29 main_arg0 main_v30 ((fun a b => concatenate S65536x3x384 2 [⟨S65536x3x256, a⟩, ⟨S65536x3x128, b⟩] concatenates_S65536x3x256_S65536x3x128_S65536x3x384_d2) : (⟨S65536x3x256, .f32⟩ : BufTy).Contents (Elt F) → (⟨S65536x3x128, .f32⟩ : BufTy).Contents (Elt F) → (⟨S65536x3x384, .f32⟩ : BufTy).Contents (Elt F)),
    binary main_v30 main_arg3 main_v31 ((fun l r => Host.dotGeneral dot_S65536x3x384_S256x384_S65536x3x256_2_1_01_0_n_n none l r) : (⟨S65536x3x384, .f32⟩ : BufTy).Contents (Elt F) → (⟨S256x384, .f32⟩ : BufTy).Contents (Elt F) → (⟨S65536x3x256, .f32⟩ : BufTy).Contents (Elt F)),
    unary main_arg4 main_v32 (broadcastInDim S1x1x256 ![2] bcast_S256_S1x1x256_2 : (⟨S256, .f32⟩ : BufTy).Contents (Elt F) → (⟨S1x1x256, .f32⟩ : BufTy).Contents (Elt F)),
    unary main_v32 main_v33 (broadcastInDim S65536x3x256 ![0, 1, 2] bcast_S1x1x256_S65536x3x256_0_1_2 : (⟨S1x1x256, .f32⟩ : BufTy).Contents (Elt F) → (⟨S65536x3x256, .f32⟩ : BufTy).Contents (Elt F)),
    binary main_v31 main_v33 main_v34 (addf : (⟨S65536x3x256, .f32⟩ : BufTy).Contents (Elt F) → (⟨S65536x3x256, .f32⟩ : BufTy).Contents (Elt F) → (⟨S65536x3x256, .f32⟩ : BufTy).Contents (Elt F)),
    TRef.nullary main_call1.cst (constant S_ .f32 0x00000000#32),
    TRef.unary main_call1.cst main_call1.v0 (broadcastInDim S65536x3x256 ![] bcast_S_S65536x3x256),
    TRef.binary (.of main_v34) main_call1.v0 main_call1.v1 maximumf ]

/-- The buffers those operations write, one each. -/
abbrev line2_W : List (Ref sig .tc) :=
  [main_cst, main_v20, main_c_5, main_v21, main_v22, main_c_6, main_v23, main_v24, main_v25, main_v26, main_v27, main_cst_7, main_v28, main_v29, main_v30, main_v31, main_v32, main_v33, main_v34, main_call1_cst, main_call1_v0, main_v35]

theorem line2_writes : (line2 : List (HloOp τ sig (Elt F))).Forall fun op =>
    op.writes ⊆ (line2_W.map (Proc.devRef (τ := τ) .tc)).toFinset := by
  simp only [List.Forall, nullary_writes, unary_writes, binary_writes, ternary_writes, Finset.singleton_subset_iff,
    List.mem_toFinset]
  repeat' apply And.intro
  all_goals exact List.mem_map_of_mem (by decide)

/-- A buffer none of them writes keeps its contents through them. -/
theorem keep2 (W : Valuation τ sig (Elt F)) (r : Ref sig .tc) (h : r ∉ line2_W) :
    after line2 W (Proc.devRef .tc r) = W (Proc.devRef .tc r) :=
  after_of_writes_sub line2 W line2_writes h

/-- The second edge layer (operations 51 … 76): as the first, on the 256 hidden features. -/
abbrev line3 : List (HloOp τ sig (Elt F)) :=
  [ nullary main_c_8 (constantI S_ 32 0#32),
    unary main_c_8 main_v36 (broadcastInDim S6 ![] bcast_S_S6 : (⟨S_, .i32⟩ : BufTy).Contents (Elt F) → (⟨S6, .i32⟩ : BufTy).Contents (Elt F)),
    binary main_c main_v36 main_v37 (cmpi .slt : (⟨S6, .i32⟩ : BufTy).Contents (Elt F) → (⟨S6, .i32⟩ : BufTy).Contents (Elt F) → (⟨S6, .i1⟩ : BufTy).Contents (Elt F)),
    nullary main_c_9 (constantI S_ 32 3#32),
    unary main_c_9 main_v38 (broadcastInDim S6 ![] bcast_S_S6 : (⟨S_, .i32⟩ : BufTy).Contents (Elt F) → (⟨S6, .i32⟩ : BufTy).Contents (Elt F)),
    binary main_c main_v38 main_v39 (addi : (⟨S6, .i32⟩ : BufTy).Contents (Elt F) → (⟨S6, .i32⟩ : BufTy).Contents (Elt F) → (⟨S6, .i32⟩ : BufTy).Contents (Elt F)),
    ternary main_v37 main_v39 main_c main_v40 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    unary main_v40 main_v41 (broadcastInDim S6x1 ![0] bcast_S6_S6x1_0 : (⟨S6, .i32⟩ : BufTy).Contents (Elt F) → (⟨S6x1, .i32⟩ : BufTy).Contents (Elt F)),
    binary main_v35 main_v41 main_v42 ((fun x i => Host.gather gather_S65536x3x256_S6x1_S65536x6x256_02_1_n_n_1_1_655361256 x i) : (⟨S65536x3x256, .f32⟩ : BufTy).Contents (Elt F) → (⟨S6x1, .i32⟩ : BufTy).Contents (Elt F) → (⟨S65536x6x256, .f32⟩ : BufTy).Contents (Elt F)),
    nullary main_c_10 (constantI S_ 32 0#32),
    unary main_c_10 main_v43 (broadcastInDim S6 ![] bcast_S_S6 : (⟨S_, .i32⟩ : BufTy).Contents (Elt F) → (⟨S6, .i32⟩ : BufTy).Contents (Elt F)),
    binary main_c_0 main_v43 main_v44 (cmpi .slt : (⟨S6, .i32⟩ : BufTy).Contents (Elt F) → (⟨S6, .i32⟩ : BufTy).Contents (Elt F) → (⟨S6, .i1⟩ : BufTy).Contents (Elt F)),
    nullary main_c_11 (constantI S_ 32 3#32),
    unary main_c_11 main_v45 (broadcastInDim S6 ![] bcast_S_S6 : (⟨S_, .i32⟩ : BufTy).Contents (Elt F) → (⟨S6, .i32⟩ : BufTy).Contents (Elt F)),
    binary main_c_0 main_v45 main_v46 (addi : (⟨S6, .i32⟩ : BufTy).Contents (Elt F) → (⟨S6, .i32⟩ : BufTy).Contents (Elt F) → (⟨S6, .i32⟩ : BufTy).Contents (Elt F)),
    ternary main_v44 main_v46 main_c_0 main_v47 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    unary main_v47 main_v48 (broadcastInDim S6x1 ![0] bcast_S6_S6x1_0 : (⟨S6, .i32⟩ : BufTy).Contents (Elt F) → (⟨S6x1, .i32⟩ : BufTy).Contents (Elt F)),
    binary main_v35 main_v48 main_v49 ((fun x i => Host.gather gather_S65536x3x256_S6x1_S65536x6x256_02_1_n_n_1_1_655361256 x i) : (⟨S65536x3x256, .f32⟩ : BufTy).Contents (Elt F) → (⟨S6x1, .i32⟩ : BufTy).Contents (Elt F) → (⟨S65536x6x256, .f32⟩ : BufTy).Contents (Elt F)),
    binary main_v42 main_v49 main_v50 ((fun a b => concatenate S65536x6x512 2 [⟨S65536x6x256, a⟩, ⟨S65536x6x256, b⟩] concatenates_S65536x6x256_S65536x6x256_S65536x6x512_d2) : (⟨S65536x6x256, .f32⟩ : BufTy).Contents (Elt F) → (⟨S65536x6x256, .f32⟩ : BufTy).Contents (Elt F) → (⟨S65536x6x512, .f32⟩ : BufTy).Contents (Elt F)),
    binary main_v50 main_arg5 main_v51 ((fun l r => Host.dotGeneral dot_S65536x6x512_S256x512_S65536x6x256_2_1_01_0_n_n none l r) : (⟨S65536x6x512, .f32⟩ : BufTy).Contents (Elt F) → (⟨S256x512, .f32⟩ : BufTy).Contents (Elt F) → (⟨S65536x6x256, .f32⟩ : BufTy).Contents (Elt F)),
    unary main_arg6 main_v52 (broadcastInDim S1x1x256 ![2] bcast_S256_S1x1x256_2 : (⟨S256, .f32⟩ : BufTy).Contents (Elt F) → (⟨S1x1x256, .f32⟩ : BufTy).Contents (Elt F)),
    unary main_v52 main_v53 (broadcastInDim S65536x6x256 ![0, 1, 2] bcast_S1x1x256_S65536x6x256_0_1_2 : (⟨S1x1x256, .f32⟩ : BufTy).Contents (Elt F) → (⟨S65536x6x256, .f32⟩ : BufTy).Contents (Elt F)),
    binary main_v51 main_v53 main_v54 (addf : (⟨S65536x6x256, .f32⟩ : BufTy).Contents (Elt F) → (⟨S65536x6x256, .f32⟩ : BufTy).Contents (Elt F) → (⟨S65536x6x256, .f32⟩ : BufTy).Contents (Elt F)),
    TRef.nullary main_call2.cst (constant S_ .f32 0x00000000#32),
    TRef.unary main_call2.cst main_call2.v0 (broadcastInDim S65536x6x256 ![] bcast_S_S65536x6x256),
    TRef.binary (.of main_v54) main_call2.v0 main_call2.v1 maximumf ]

/-- The buffers those operations write, one each. -/
abbrev line3_W : List (Ref sig .tc) :=
  [main_c_8, main_v36, main_v37, main_c_9, main_v38, main_v39, main_v40, main_v41, main_v42, main_c_10, main_v43, main_v44, main_c_11, main_v45, main_v46, main_v47, main_v48, main_v49, main_v50, main_v51, main_v52, main_v53, main_v54, main_call2_cst, main_call2_v0, main_v55]

theorem line3_writes : (line3 : List (HloOp τ sig (Elt F))).Forall fun op =>
    op.writes ⊆ (line3_W.map (Proc.devRef (τ := τ) .tc)).toFinset := by
  simp only [List.Forall, nullary_writes, unary_writes, binary_writes, ternary_writes, Finset.singleton_subset_iff,
    List.mem_toFinset]
  repeat' apply And.intro
  all_goals exact List.mem_map_of_mem (by decide)

/-- A buffer none of them writes keeps its contents through them. -/
theorem keep3 (W : Valuation τ sig (Elt F)) (r : Ref sig .tc) (h : r ∉ line3_W) :
    after line3 W (Proc.devRef .tc r) = W (Proc.devRef .tc r) :=
  after_of_writes_sub line3 W line3_writes h

/-- The second averaging and node layer (operations 77 … 98): as the first. -/
abbrev line4 : List (HloOp τ sig (Elt F)) :=
  [ nullary main_cst_12 (constant S_ .f32 0x00000000#32),
    unary main_cst_12 main_v56 (broadcastInDim S65536x3x256 ![] bcast_S_S65536x3x256 : (⟨S_, .f32⟩ : BufTy).Contents (Elt F) → (⟨S65536x3x256, .f32⟩ : BufTy).Contents (Elt F)),
    nullary main_c_13 (constantI S_ 32 0#32),
    unary main_c_13 main_v57 (broadcastInDim S6 ![] bcast_S_S6 : (⟨S_, .i32⟩ : BufTy).Contents (Elt F) → (⟨S6, .i32⟩ : BufTy).Contents (Elt F)),
    binary main_c_0 main_v57 main_v58 (cmpi .slt : (⟨S6, .i32⟩ : BufTy).Contents (Elt F) → (⟨S6, .i32⟩ : BufTy).Contents (Elt F) → (⟨S6, .i1⟩ : BufTy).Contents (Elt F)),
    nullary main_c_14 (constantI S_ 32 3#32),
    unary main_c_14 main_v59 (broadcastInDim S6 ![] bcast_S_S6 : (⟨S_, .i32⟩ : BufTy).Contents (Elt F) → (⟨S6, .i32⟩ : BufTy).Contents (Elt F)),
    binary main_c_0 main_v59 main_v60 (addi : (⟨S6, .i32⟩ : BufTy).Contents (Elt F) → (⟨S6, .i32⟩ : BufTy).Contents (Elt F) → (⟨S6, .i32⟩ : BufTy).Contents (Elt F)),
    ternary main_v58 main_v60 main_c_0 main_v61 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    unary main_v61 main_v62 (broadcastInDim S6x1 ![0] bcast_S6_S6x1_0 : (⟨S6, .i32⟩ : BufTy).Contents (Elt F) → (⟨S6x1, .i32⟩ : BufTy).Contents (Elt F)),
    ternary main_v56 main_v62 main_v55 main_v63 ((fun x i u => Host.scatterAdd scatter_S65536x3x256_S6x1_S65536x6x256_02_1_1_1 x i u) : (⟨S65536x3x256, .f32⟩ : BufTy).Contents (Elt F) → (⟨S6x1, .i32⟩ : BufTy).Contents (Elt F) → (⟨S65536x6x256, .f32⟩ : BufTy).Contents (Elt F) → (⟨S65536x3x256, .f32⟩ : BufTy).Contents (Elt F)),
    nullary main_cst_15 (constant S_ .f32 0x3F000000#32),
    unary main_cst_15 main_v64 (broadcastInDim S65536x3x256 ![] bcast_S_S65536x3x256 : (⟨S_, .f32⟩ : BufTy).Contents (Elt F) → (⟨S65536x3x256, .f32⟩ : BufTy).Contents (Elt F)),
    binary main_v63 main_v64 main_v65 (mulf : (⟨S65536x3x256, .f32⟩ : BufTy).Contents (Elt F) → (⟨S65536x3x256, .f32⟩ : BufTy).Contents (Elt F) → (⟨S65536x3x256, .f32⟩ : BufTy).Contents (Elt F)),
    binary main_v65 main_arg0 main_v66 ((fun a b => concatenate S65536x3x384 2 [⟨S65536x3x256, a⟩, ⟨S65536x3x128, b⟩] concatenates_S65536x3x256_S65536x3x128_S65536x3x384_d2) : (⟨S65536x3x256, .f32⟩ : BufTy).Contents (Elt F) → (⟨S65536x3x128, .f32⟩ : BufTy).Contents (Elt F) → (⟨S65536x3x384, .f32⟩ : BufTy).Contents (Elt F)),
    binary main_v66 main_arg7 main_v67 ((fun l r => Host.dotGeneral dot_S65536x3x384_S256x384_S65536x3x256_2_1_01_0_n_n none l r) : (⟨S65536x3x384, .f32⟩ : BufTy).Contents (Elt F) → (⟨S256x384, .f32⟩ : BufTy).Contents (Elt F) → (⟨S65536x3x256, .f32⟩ : BufTy).Contents (Elt F)),
    unary main_arg8 main_v68 (broadcastInDim S1x1x256 ![2] bcast_S256_S1x1x256_2 : (⟨S256, .f32⟩ : BufTy).Contents (Elt F) → (⟨S1x1x256, .f32⟩ : BufTy).Contents (Elt F)),
    unary main_v68 main_v69 (broadcastInDim S65536x3x256 ![0, 1, 2] bcast_S1x1x256_S65536x3x256_0_1_2 : (⟨S1x1x256, .f32⟩ : BufTy).Contents (Elt F) → (⟨S65536x3x256, .f32⟩ : BufTy).Contents (Elt F)),
    binary main_v67 main_v69 main_v70 (addf : (⟨S65536x3x256, .f32⟩ : BufTy).Contents (Elt F) → (⟨S65536x3x256, .f32⟩ : BufTy).Contents (Elt F) → (⟨S65536x3x256, .f32⟩ : BufTy).Contents (Elt F)),
    TRef.nullary main_call3.cst (constant S_ .f32 0x00000000#32),
    TRef.unary main_call3.cst main_call3.v0 (broadcastInDim S65536x3x256 ![] bcast_S_S65536x3x256),
    TRef.binary (.of main_v70) main_call3.v0 main_call3.v1 maximumf ]

/-- The buffers those operations write, one each. -/
abbrev line4_W : List (Ref sig .tc) :=
  [main_cst_12, main_v56, main_c_13, main_v57, main_v58, main_c_14, main_v59, main_v60, main_v61, main_v62, main_v63, main_cst_15, main_v64, main_v65, main_v66, main_v67, main_v68, main_v69, main_v70, main_call3_cst, main_call3_v0, main_v71]

theorem line4_writes : (line4 : List (HloOp τ sig (Elt F))).Forall fun op =>
    op.writes ⊆ (line4_W.map (Proc.devRef (τ := τ) .tc)).toFinset := by
  simp only [List.Forall, nullary_writes, unary_writes, binary_writes, ternary_writes, Finset.singleton_subset_iff,
    List.mem_toFinset]
  repeat' apply And.intro
  all_goals exact List.mem_map_of_mem (by decide)

/-- A buffer none of them writes keeps its contents through them. -/
theorem keep4 (W : Valuation τ sig (Elt F)) (r : Ref sig .tc) (h : r ∉ line4_W) :
    after line4 W (Proc.devRef .tc r) = W (Proc.devRef .tc r) :=
  after_of_writes_sub line4 W line4_writes h

/-- The read-out (operations 99 … 105): the maximum over the three agents from minus infinity, the weight row
    transposed, the product, the bias broadcast, the sum. -/
abbrev line5 : List (HloOp τ sig (Elt F)) :=
  [ nullary main_cst_16 (constant S_ .f32 0xFF800000#32),
    binary main_v71 main_cst_16 main_v72 ((fun x v => Host.reduce FloatOps.maximumf x v reducesTo_S65536x3x256_S65536x256_d1 h_S_) : (⟨S65536x3x256, .f32⟩ : BufTy).Contents (Elt F) → (⟨S_, .f32⟩ : BufTy).Contents (Elt F) → (⟨S65536x256, .f32⟩ : BufTy).Contents (Elt F)),
    unary main_arg9 main_v73 ((transpose S256x1 [1, 0] · transposes_S1x256_S256x1_1_0) : (⟨S1x256, .f32⟩ : BufTy).Contents (Elt F) → (⟨S256x1, .f32⟩ : BufTy).Contents (Elt F)),
    binary main_v72 main_v73 main_v74 ((fun l r => Host.dotGeneral dot_S65536x256_S256x1_S65536x1_1_0_0_1_n_n none l r) : (⟨S65536x256, .f32⟩ : BufTy).Contents (Elt F) → (⟨S256x1, .f32⟩ : BufTy).Contents (Elt F) → (⟨S65536x1, .f32⟩ : BufTy).Contents (Elt F)),
    unary main_arg10 main_v75 (broadcastInDim S1x1 ![1] bcast_S1_S1x1_1 : (⟨S1, .f32⟩ : BufTy).Contents (Elt F) → (⟨S1x1, .f32⟩ : BufTy).Contents (Elt F)),
    unary main_v75 main_v76 (broadcastInDim S65536x1 ![0, 1] bcast_S1x1_S65536x1_0_1 : (⟨S1x1, .f32⟩ : BufTy).Contents (Elt F) → (⟨S65536x1, .f32⟩ : BufTy).Contents (Elt F)),
    binary main_v74 main_v76 main_v77 (addf : (⟨S65536x1, .f32⟩ : BufTy).Contents (Elt F) → (⟨S65536x1, .f32⟩ : BufTy).Contents (Elt F) → (⟨S65536x1, .f32⟩ : BufTy).Contents (Elt F)) ]

/-- The buffers those operations write, one each. -/
abbrev line5_W : List (Ref sig .tc) :=
  [main_cst_16, main_v72, main_v73, main_v74, main_v75, main_v76, main_v77]

theorem line5_writes : (line5 : List (HloOp τ sig (Elt F))).Forall fun op =>
    op.writes ⊆ (line5_W.map (Proc.devRef (τ := τ) .tc)).toFinset := by
  simp only [List.Forall, nullary_writes, unary_writes, binary_writes, ternary_writes, Finset.singleton_subset_iff,
    List.mem_toFinset]
  repeat' apply And.intro
  all_goals exact List.mem_map_of_mem (by decide)

/-- A buffer none of them writes keeps its contents through them. -/
theorem keep5 (W : Valuation τ sig (Elt F)) (r : Ref sig .tc) (h : r ∉ line5_W) :
    after line5 W (Proc.devRef .tc r) = W (Proc.devRef .tc r) :=
  after_of_writes_sub line5 W line5_writes h

/-- The whole line is the five stretches in order. -/
theorem ops_split : (ops : List (HloOp τ sig (Elt F))) = line1 ++ (line2 ++ (line3 ++ (line4 ++ line5))) := rfl

set_option maxRecDepth 4096 in
set_option maxHeartbeats 2000000 in
/-- The first stretch leaves the first edge layer of the input, the weights and the bias. -/
theorem out1 (W : Valuation τ sig (Elt Ideal)) :
    after (line1 (F := Ideal)) W (main_v19 : DevRef τ sig)
      = Stages.edge1 (W (main_arg0 : DevRef τ sig)) (W (main_arg1 : DevRef τ sig)) (W (main_arg2 : DevRef τ sig)) := by
  after_results
  rfl

/-- The first stretch leaves the table of edge sources … -/
theorem tab0 (W : Valuation τ sig (Elt Ideal)) :
    after (line1 (F := Ideal)) W (main_c : DevRef τ sig) = (fun i => lit0 (S6.rowMajor i) : IVec S6 32) := by
  after_results
  rfl

/-- … and the table of edge targets. -/
theorem tab1 (W : Valuation τ sig (Elt Ideal)) :
    after (line1 (F := Ideal)) W (main_c_0 : DevRef τ sig) = (fun i => lit1 (S6.rowMajor i) : IVec S6 32) := by
  after_results
  rfl

set_option maxRecDepth 4096 in
set_option maxHeartbeats 2000000 in
/-- The second stretch, started where the targets' table is in place, leaves the node layer of the averaged first
    edge features and the raw input. -/
theorem out2 (W : Valuation τ sig (Elt Ideal)) (h1 : (W (main_c_0 : DevRef τ sig)) = (fun i => lit1 (S6.rowMajor i) : IVec S6 32)) :
    after (line2 (F := Ideal)) W (main_v35 : DevRef τ sig)
      = Stages.node (Stages.aggr (W (main_v19 : DevRef τ sig))) (W (main_arg0 : DevRef τ sig)) (W (main_arg3 : DevRef τ sig)) (W (main_arg4 : DevRef τ sig)) := by
  after_results
  rw [h1]
  rfl

set_option maxRecDepth 4096 in
set_option maxHeartbeats 2000000 in
/-- The third stretch, started where both tables are in place, leaves the second edge layer of the hidden features. -/
theorem out3 (W : Valuation τ sig (Elt Ideal)) (h0 : (W (main_c : DevRef τ sig)) = (fun i => lit0 (S6.rowMajor i) : IVec S6 32)) (h1 : (W (main_c_0 : DevRef τ sig)) = (fun i => lit1 (S6.rowMajor i) : IVec S6 32)) :
    after (line3 (F := Ideal)) W (main_v55 : DevRef τ sig)
      = Stages.edge2 (W (main_v35 : DevRef τ sig)) (W (main_arg5 : DevRef τ sig)) (W (main_arg6 : DevRef τ sig)) := by
  after_results
  rw [h0, h1]
  rfl

set_option maxRecDepth 4096 in
set_option maxHeartbeats 2000000 in
/-- The fourth stretch leaves the second node layer. -/
theorem out4 (W : Valuation τ sig (Elt Ideal)) (h1 : (W (main_c_0 : DevRef τ sig)) = (fun i => lit1 (S6.rowMajor i) : IVec S6 32)) :
    after (line4 (F := Ideal)) W (main_v71 : DevRef τ sig)
      = Stages.node (Stages.aggr (W (main_v55 : DevRef τ sig))) (W (main_arg0 : DevRef τ sig)) (W (main_arg7 : DevRef τ sig)) (W (main_arg8 : DevRef τ sig)) := by
  after_results
  rw [h1]
  rfl

set_option maxRecDepth 4096 in
set_option maxHeartbeats 2000000 in
/-- The last stretch leaves the read-out of the hidden features. -/
theorem out5 (W : Valuation τ sig (Elt Ideal)) :
    after (line5 (F := Ideal)) W (main_v77 : DevRef τ sig)
      = Stages.headR (W (main_v71 : DevRef τ sig)) (W (main_arg9 : DevRef τ sig)) (W (main_arg10 : DevRef τ sig)) := by
  after_results
  rfl

/-- A buffer no stretch writes keeps its launch contents through the whole line. -/
theorem kept (V : Valuation τ sig (Elt F)) (r : Ref sig .tc) (h1 : r ∉ line1_W) (h2 : r ∉ line2_W) (h3 : r ∉ line3_W)
    (h4 : r ∉ line4_W) (h5 : r ∉ line5_W) : after ops V (Proc.devRef .tc r) = V (Proc.devRef .tc r) := by
  rw [ops_split, after_app, after_app, after_app, after_app, keep5 _ r h5, keep4 _ r h4, keep3 _ r h3, keep2 _ r h2,
    keep1 _ r h1]

/-- The result buffer after the whole line: the stretches in order, each layer's result feeding the next, the
    arguments and the two tables passing unchanged through the stretches that do not write them; the composition is
    `Stages.refTerm` by its definition. -/
theorem out_eq (V : Valuation τ sig (Elt Ideal)) :
    after (ops (F := Ideal)) V (main_v77 : DevRef τ sig)
      = Stages.refTerm (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  have t0 : (after (line2 (F := Ideal)) (after (line1 (F := Ideal)) V)) (main_c : DevRef τ sig) = (fun i => lit0 (S6.rowMajor i) : IVec S6 32) := (keep2 (after (line1 (F := Ideal)) V) main_c (by decide)).trans (tab0 V)
  have t1 : (after (line2 (F := Ideal)) (after (line1 (F := Ideal)) V)) (main_c_0 : DevRef τ sig) = (fun i => lit1 (S6.rowMajor i) : IVec S6 32) := (keep2 (after (line1 (F := Ideal)) V) main_c_0 (by decide)).trans (tab1 V)
  have t1' : (after (line3 (F := Ideal)) (after (line2 (F := Ideal)) (after (line1 (F := Ideal)) V))) (main_c_0 : DevRef τ sig) = (fun i => lit1 (S6.rowMajor i) : IVec S6 32) := (keep3 (after (line2 (F := Ideal)) (after (line1 (F := Ideal)) V)) main_c_0 (by decide)).trans t1
  rw [ops_split, after_app, after_app, after_app, after_app, out5 (after (line4 (F := Ideal)) (after (line3 (F := Ideal)) (after (line2 (F := Ideal)) (after (line1 (F := Ideal)) V)))),
    keep4 (after (line3 (F := Ideal)) (after (line2 (F := Ideal)) (after (line1 (F := Ideal)) V))) main_arg9 (by decide), keep4 (after (line3 (F := Ideal)) (after (line2 (F := Ideal)) (after (line1 (F := Ideal)) V))) main_arg10 (by decide),
    out4 (after (line3 (F := Ideal)) (after (line2 (F := Ideal)) (after (line1 (F := Ideal)) V))) t1',
    keep3 (after (line2 (F := Ideal)) (after (line1 (F := Ideal)) V)) main_arg0 (by decide),
    keep3 (after (line2 (F := Ideal)) (after (line1 (F := Ideal)) V)) main_arg7 (by decide),
    keep3 (after (line2 (F := Ideal)) (after (line1 (F := Ideal)) V)) main_arg8 (by decide),
    keep3 (after (line2 (F := Ideal)) (after (line1 (F := Ideal)) V)) main_arg9 (by decide),
    keep3 (after (line2 (F := Ideal)) (after (line1 (F := Ideal)) V)) main_arg10 (by decide),
    out3 (after (line2 (F := Ideal)) (after (line1 (F := Ideal)) V)) t0 t1,
    keep2 (after (line1 (F := Ideal)) V) main_arg0 (by decide),
    keep2 (after (line1 (F := Ideal)) V) main_arg5 (by decide),
    keep2 (after (line1 (F := Ideal)) V) main_arg6 (by decide),
    keep2 (after (line1 (F := Ideal)) V) main_arg7 (by decide),
    keep2 (after (line1 (F := Ideal)) V) main_arg8 (by decide),
    keep2 (after (line1 (F := Ideal)) V) main_arg9 (by decide),
    keep2 (after (line1 (F := Ideal)) V) main_arg10 (by decide),
    out2 (after (line1 (F := Ideal)) V) (tab1 V),
    keep1 V main_arg0 (by decide),
    keep1 V main_arg3 (by decide),
    keep1 V main_arg4 (by decide),
    keep1 V main_arg5 (by decide),
    keep1 V main_arg6 (by decide),
    keep1 V main_arg7 (by decide),
    keep1 V main_arg8 (by decide),
    keep1 V main_arg9 (by decide),
    keep1 V main_arg10 (by decide),
    out1 V]
  rfl

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v77) = Stages.refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  exact (θ_run defs _ _).mono (fun _ h c => ⟨(h c main_v77).trans (out_eq _),
      (h c main_arg0).trans (kept _ main_arg0 (by decide) (by decide) (by decide) (by decide) (by decide)),
      (h c main_arg1).trans (kept _ main_arg1 (by decide) (by decide) (by decide) (by decide) (by decide)),
      (h c main_arg2).trans (kept _ main_arg2 (by decide) (by decide) (by decide) (by decide) (by decide)),
      (h c main_arg3).trans (kept _ main_arg3 (by decide) (by decide) (by decide) (by decide) (by decide)),
      (h c main_arg4).trans (kept _ main_arg4 (by decide) (by decide) (by decide) (by decide) (by decide)),
      (h c main_arg5).trans (kept _ main_arg5 (by decide) (by decide) (by decide) (by decide) (by decide)),
      (h c main_arg6).trans (kept _ main_arg6 (by decide) (by decide) (by decide) (by decide) (by decide)),
      (h c main_arg7).trans (kept _ main_arg7 (by decide) (by decide) (by decide) (by decide) (by decide)),
      (h c main_arg8).trans (kept _ main_arg8 (by decide) (by decide) (by decide) (by decide) (by decide)),
      (h c main_arg9).trans (kept _ main_arg9 (by decide) (by decide) (by decide) (by decide) (by decide)),
      (h c main_arg10).trans (kept _ main_arg10 (by decide) (by decide) (by decide) (by decide) (by decide))⟩)
    (run_seq scopedRefs_eq scopedSems_eq defs main (fun _ => ops) main_eq (fun _ => ops_sub) m ρ)

end Cert.ReferenceIdeal.RefRun

end
-- ==== Proof.RefGraph.lean ====
/-
  The graph operations of the reference read at an index: a gather along the agent axis by the
  column of edge sources (targets) reads the source (target) agent's features, and the scatter-add of
  per-edge features onto zeros by the column of edge targets leaves at each agent the sum of its two
  incoming edges.
-/
import proofs.«426260_j63917703299078_3_alg».proof.Proof.RefStages
import proofs.«426260_j63917703299078_3_alg».proof.Proof.Spec
import Idealize.ShloMosaic.Lib.ValueIdx
import Idealize.ShloMosaic.PureOps.Ideal.Laws

noncomputable section

open scoped BigOperators

namespace Cert.ReferenceIdeal.Graph

open Idealize.ShloMosaic Idealize.ShloMosaic.ValueIdx Cert.ReferenceIdeal Cert.ReferenceIdeal.Stages Cert.ReferenceIdeal.Facts₀

/-! ## The two index columns, entry by entry -/

/-- Entry `e` of the source column, read signed and clamped into the agent range `[0, 2]`, is the
    source agent of edge `e`: none of the six literals is negative, so the shift by three never applies. -/
theorem clamp_src (e : Fin 6) (h : min (srcIdx (ix2 e (0 : Fin 1))).toInt.toNat 2 < 3) :
    (⟨min (srcIdx (ix2 e (0 : Fin 1))).toInt.toNat 2, h⟩ : Fin 3) = Cert.Spec.src e := by
  refine Fin.ext ?_
  show min (srcIdx (ix2 e (0 : Fin 1))).toInt.toNat 2 = (Cert.Spec.src e).val
  clear h
  fin_cases e <;> rfl

/-- Entry `e` of the target column, read signed and clamped into `[0, 2]`, is the target agent of edge `e`. -/
theorem clamp_dst (e : Fin 6) (h : min (dstIdx (ix2 e (0 : Fin 1))).toInt.toNat 2 < 3) :
    (⟨min (dstIdx (ix2 e (0 : Fin 1))).toInt.toNat 2, h⟩ : Fin 3) = Cert.Spec.dst e := by
  refine Fin.ext ?_
  show min (dstIdx (ix2 e (0 : Fin 1))).toInt.toNat 2 = (Cert.Spec.dst e).val
  clear h
  fin_cases e <;> rfl

/-- Entry `e` of the target column read as a signed integer (no clamp) is the target agent of edge `e`. -/
theorem dstIdx_toInt (e : Fin 6) : (dstIdx (ix2 e (0 : Fin 1))).toInt = ((Cert.Spec.dst e).val : Int) := by
  fin_cases e <;> rfl

/-- The edges arriving at agent `k` are exactly `inA k` and `inB k`. -/
theorem dst_eq_iff : ∀ (e : Fin 6) (k : Fin 3), Cert.Spec.dst e = k ↔ e = Cert.Spec.inA k ∨ e = Cert.Spec.inB k := by
  decide

/-- The two edges arriving at an agent are different edges. -/
theorem inA_ne_inB : ∀ k : Fin 3, Cert.Spec.inA k ≠ Cert.Spec.inB k := by decide

/-- Two rank-3 indices agree exactly when their three coordinates do. -/
theorem ix3_inj {n0 n1 n2 : Nat} (a a' : Fin n0) (b b' : Fin n1) (c c' : Fin n2) :
    ix3 a b c = ix3 a' b' c' ↔ a = a' ∧ b = b' ∧ c = c' := by
  constructor
  · intro h
    exact ⟨congrFun h (0 : Fin 3), congrFun h (1 : Fin 3), congrFun h (2 : Fin 3)⟩
  · rintro ⟨rfl, rfl, rfl⟩; rfl

/-! ## A gather along the middle axis, read at an index -/

section Edge

/-- The dimension numbers of a gather along the middle (agent) axis of a `[B, 3, F]` operand by a `[6, 1]` column of
    start indices: the first and last result axes are the slice's, the middle operand axis is collapsed and is the one the
    start index addresses; a slice is `[B, 1, F]`. -/
abbrev edgeDims (B F : Nat)
    (wf : GatherDims.WF ⟨3, ![B, 3, F]⟩ ⟨2, ![6, 1]⟩ ⟨3, ![B, 6, F]⟩ [0, 2] [1] [] [1] [] 1 ![B, 1, F]) :
    GatherDims ⟨3, ![B, 3, F]⟩ ⟨2, ![6, 1]⟩ ⟨3, ![B, 6, F]⟩ where
  offsetDims := [0, 2]
  collapsedSliceDims := [1]
  operandBatchingDims := []
  startIndicesBatchingDims := []
  startIndexMap := [1]
  indexVectorDim := 1
  sliceSizes := ![B, 1, F]
  wf := wf

/-- Result index `(b, e, f)` reads the operand at `(b, c, f)`, `c` the start index `idx[e, 0]` read signed and clamped
    into `[0, 3 − 1]`: on the outer axes the start and the batching coordinate are zero and the offset coordinate is the
    result's; on the middle axis only the start is not zero. -/
theorem edge_operandIdx {B F w : Nat}
    (wf : GatherDims.WF ⟨3, ![B, 3, F]⟩ ⟨2, ![6, 1]⟩ ⟨3, ![B, 6, F]⟩ [0, 2] [1] [] [1] [] 1 ![B, 1, F])
    (idx : IVec ⟨2, ![6, 1]⟩ w) (b : Fin B) (e : Fin 6) (f : Fin F) :
    (edgeDims B F wf).operandIdx (ix3 b e f) idx
      = ix3 b (⟨min (idx (ix2 e (0 : Fin 1))).toInt.toNat 2, by omega⟩ : Fin 3) f := by
  have hk : (edgeDims B F wf).sKept = [0, 2] := rfl
  funext a
  refine Fin.ext ?_
  show (edgeDims B F wf).start (ix3 b e f) idx a + (edgeDims B F wf).batchCoord (ix3 b e f) a
      + (edgeDims B F wf).offCoord (ix3 b e f) a = _
  rw [GatherDims.batchCoord_eq_zero _ _ _ List.not_mem_nil, Nat.add_zero]
  match a with
  | ⟨0, h0⟩ =>
    have hs : (edgeDims B F wf).start (ix3 b e f) idx ⟨0, h0⟩ = 0 := by
      unfold GatherDims.start
      rw [dif_neg (by simp [Fin.ext_iff])]
    rw [hs, Nat.zero_add]
    unfold GatherDims.offCoord
    rw [dif_pos (by rw [hk]; simp [Fin.ext_iff])]
    rfl
  | ⟨1, h1⟩ =>
    rw [GatherDims.offCoord_eq_zero _ _ _ (by rw [hk]; simp [Fin.ext_iff]), Nat.add_zero]
    unfold GatherDims.start
    rw [dif_pos (by simp [Fin.ext_iff])]
    have hsi : (edgeDims B F wf).siIdx (ix3 b e f) ⟨List.idxOf (⟨1, h1⟩ : Fin 3) (edgeDims B F wf).startIndexMap,
        List.idxOf_lt_length_iff.2 (by simp [Fin.ext_iff])⟩ = ix2 e (0 : Fin 1) := by
      funext c; refine Fin.ext ?_
      match c with
      | ⟨0, _⟩ => rfl
      | ⟨1, _⟩ => rfl
    rw [hsi]
    rfl
  | ⟨2, h2⟩ =>
    have hs : (edgeDims B F wf).start (ix3 b e f) idx ⟨2, h2⟩ = 0 := by
      unfold GatherDims.start
      rw [dif_neg (by simp [Fin.ext_iff])]
    rw [hs, Nat.zero_add]
    unfold GatherDims.offCoord
    rw [dif_pos (by rw [hk]; simp [Fin.ext_iff])]
    rfl

end Edge

theorem gather128_src (x : FVec Ideal S65536x3x128 .f32) (b : Fin 65536) (e : Fin 6) (f : Fin 128) :
    Host.gather gather_S65536x3x128_S6x1_S65536x6x128_02_1_n_n_1_1_655361128 x srcIdx (ix3 b e f)
      = x (ix3 b (Cert.Spec.src e) f) := by
  have hd : gather_S65536x3x128_S6x1_S65536x6x128_02_1_n_n_1_1_655361128
      = edgeDims 65536 128 gather_S65536x3x128_S6x1_S65536x6x128_02_1_n_n_1_1_655361128_wf := rfl
  unfold Host.gather
  rw [hd, edge_operandIdx, clamp_src]

theorem gather128_dst (x : FVec Ideal S65536x3x128 .f32) (b : Fin 65536) (e : Fin 6) (f : Fin 128) :
    Host.gather gather_S65536x3x128_S6x1_S65536x6x128_02_1_n_n_1_1_655361128 x dstIdx (ix3 b e f)
      = x (ix3 b (Cert.Spec.dst e) f) := by
  have hd : gather_S65536x3x128_S6x1_S65536x6x128_02_1_n_n_1_1_655361128
      = edgeDims 65536 128 gather_S65536x3x128_S6x1_S65536x6x128_02_1_n_n_1_1_655361128_wf := rfl
  unfold Host.gather
  rw [hd, edge_operandIdx, clamp_dst]

theorem gather256_src (h : FVec Ideal S65536x3x256 .f32) (b : Fin 65536) (e : Fin 6) (f : Fin 256) :
    Host.gather gather_S65536x3x256_S6x1_S65536x6x256_02_1_n_n_1_1_655361256 h srcIdx (ix3 b e f)
      = h (ix3 b (Cert.Spec.src e) f) := by
  have hd : gather_S65536x3x256_S6x1_S65536x6x256_02_1_n_n_1_1_655361256
      = edgeDims 65536 256 gather_S65536x3x256_S6x1_S65536x6x256_02_1_n_n_1_1_655361256_wf := rfl
  unfold Host.gather
  rw [hd, edge_operandIdx, clamp_src]

theorem gather256_dst (h : FVec Ideal S65536x3x256 .f32) (b : Fin 65536) (e : Fin 6) (f : Fin 256) :
    Host.gather gather_S65536x3x256_S6x1_S65536x6x256_02_1_n_n_1_1_655361256 h dstIdx (ix3 b e f)
      = h (ix3 b (Cert.Spec.dst e) f) := by
  have hd : gather_S65536x3x256_S6x1_S65536x6x256_02_1_n_n_1_1_655361256
      = edgeDims 65536 256 gather_S65536x3x256_S6x1_S65536x6x256_02_1_n_n_1_1_655361256_wf := rfl
  unfold Host.gather
  rw [hd, edge_operandIdx, clamp_dst]

/-! ## A scatter along the middle axis: where an update lands -/

section Scat

/-- The dimension numbers of a scatter of `[B, 6, F]` updates into a `[B, 3, F]` operand along its middle (agent) axis by a
    `[6, 1]` column of indices: the first and last update axes are the window's, the middle operand axis is inserted and is
    the one the scatter index addresses. -/
abbrev scatDims (B F : Nat)
    (wf : ScatterDims.WF ⟨3, ![B, 3, F]⟩ ⟨2, ![6, 1]⟩ ⟨3, ![B, 6, F]⟩ [0, 2] [1] [1] 1) :
    ScatterDims ⟨3, ![B, 3, F]⟩ ⟨2, ![6, 1]⟩ ⟨3, ![B, 6, F]⟩ where
  updateWindowDims := [0, 2]
  insertedWindowDims := [1]
  scatterDimsToOperandDims := [1]
  indexVectorDim := 1
  wf := wf

variable {B F w : Nat} (wf : ScatterDims.WF ⟨3, ![B, 3, F]⟩ ⟨2, ![6, 1]⟩ ⟨3, ![B, 6, F]⟩ [0, 2] [1] [1] 1)
  (idx : IVec ⟨2, ![6, 1]⟩ w) (b : Fin B) (e : Fin 6) (f : Fin F)

/-- The window's start for update `(b, e, f)`: the index `idx[e, 0]` read signed on the middle axis, zero on the others. -/
theorem scat_start (a : Fin 3) :
    (scatDims B F wf).start (ix3 b e f) idx a
      = match a with | ⟨0, _⟩ => 0 | ⟨1, _⟩ => (idx (ix2 e (0 : Fin 1))).toInt | ⟨2, _⟩ => 0 := by
  unfold ScatterDims.start
  match a with
  | ⟨0, h0⟩ => rw [dif_neg (by simp [Fin.ext_iff])]
  | ⟨1, h1⟩ =>
    rw [dif_pos (by simp [Fin.ext_iff])]
    have hsi : (scatDims B F wf).siIdx (ix3 b e f) ⟨List.idxOf (⟨1, h1⟩ : Fin 3) (scatDims B F wf).scatterDimsToOperandDims,
        List.idxOf_lt_length_iff.2 (by simp [Fin.ext_iff])⟩ = ix2 e (0 : Fin 1) := by
      funext c; refine Fin.ext ?_
      match c with
      | ⟨0, _⟩ => rfl
      | ⟨1, _⟩ => rfl
    rw [hsi]
  | ⟨2, h2⟩ => rw [dif_neg (by simp [Fin.ext_iff])]

/-- The window coordinate of update `(b, e, f)`: `b` and `f` on the outer axes, zero on the inserted middle axis. -/
theorem scat_window (a : Fin 3) :
    (scatDims B F wf).window (ix3 b e f) a
      = match a with | ⟨0, _⟩ => b.val | ⟨1, _⟩ => 0 | ⟨2, _⟩ => f.val := by
  have hk : (scatDims B F wf).sKept = [0, 2] := rfl
  unfold ScatterDims.window
  match a with
  | ⟨0, h0⟩ => rw [dif_pos (by rw [hk]; simp [Fin.ext_iff])]; rfl
  | ⟨1, h1⟩ => rw [dif_neg (by rw [hk]; simp [Fin.ext_iff])]
  | ⟨2, h2⟩ => rw [dif_pos (by rw [hk]; simp [Fin.ext_iff])]; rfl

/-- When the index `idx[e, 0]`, read signed, is the agent `k`, update `(b, e, f)` lands at `(b, k, f)`. -/
theorem scat_resultIdx (k : Fin 3) (hk : (idx (ix2 e (0 : Fin 1))).toInt = (k.val : Int)) :
    (scatDims B F wf).resultIdx? (ix3 b e f) idx = some (ix3 b k f) := by
  have hsum : ∀ a : Fin 3, (scatDims B F wf).start (ix3 b e f) idx a + ((scatDims B F wf).window (ix3 b e f) a : Int)
      = ((ix3 b k f a).val : Int) := by
    intro a
    rw [scat_start, scat_window]
    match a with
    | ⟨0, _⟩ => show (0 : Int) + ((b.val : Nat) : Int) = ((b.val : Nat) : Int); rw [Int.zero_add]
    | ⟨1, _⟩ => show (idx (ix2 e (0 : Fin 1))).toInt + ((0 : Nat) : Int) = ((k.val : Nat) : Int); rw [hk]; simp
    | ⟨2, _⟩ => show (0 : Int) + ((f.val : Nat) : Int) = ((f.val : Nat) : Int); rw [Int.zero_add]
  unfold ScatterDims.resultIdx?
  split
  · congr 1
    funext a
    refine Fin.ext ?_
    show ((scatDims B F wf).start (ix3 b e f) idx a + ((scatDims B F wf).window (ix3 b e f) a : Int)).toNat = _
    rw [hsum a]
    rfl
  · rename_i hno
    exact absurd (fun a => by rw [hsum a]; exact ⟨Int.natCast_nonneg _, Int.ofNat_lt.2 (ix3 b k f a).isLt⟩) hno

end Scat

/-- A sum over the indices satisfying a predicate that holds at exactly two distinct indices is the sum of the two terms. -/
theorem sum_filter_two {ι M : Type*} [AddCommMonoid M] [Fintype ι] [DecidableEq ι] (p : ι → Prop) [DecidablePred p]
    (x y : ι) (hxy : x ≠ y) (hp : ∀ i, p i ↔ i = x ∨ i = y) (g : ι → M) :
    ∑ i ∈ Finset.univ.filter p, g i = g x + g y := by
  have hset : Finset.univ.filter p = {x, y} := by
    ext i
    simp [hp]
  rw [hset, Finset.sum_pair hxy]

theorem scatter_dst (E : FVec Ideal S65536x6x256 .f32) (b : Fin 65536) (k : Fin 3) (j : Fin 256) :
    Host.scatterAdd scatter_S65536x3x256_S6x1_S65536x6x256_02_1_1_1
        (broadcastInDim S65536x3x256 ![] bcast_S_S65536x3x256 (constant S_ .f32 0x00000000#32)) dstIdx E (ix3 b k j)
      = E (ix3 b (Cert.Spec.inA k) j) + E (ix3 b (Cert.Spec.inB k) j) := by
  have hd : scatter_S65536x3x256_S6x1_S65536x6x256_02_1_1_1
      = scatDims 65536 256 scatter_S65536x3x256_S6x1_S65536x6x256_02_1_1_1_wf := rfl
  -- an update lands at `(b, k, j)` exactly when it is `(b, e, j)` with `e` one of the two edges arriving at `k`
  have hp : ∀ i : S65536x6x256.Idx,
      scatter_S65536x3x256_S6x1_S65536x6x256_02_1_1_1.resultIdx? i dstIdx = some (ix3 b k j)
        ↔ i = ix3 b (Cert.Spec.inA k) j ∨ i = ix3 b (Cert.Spec.inB k) j := by
    intro i
    obtain ⟨b', e, j', rfl⟩ : ∃ (b' : Fin 65536) (e : Fin 6) (j' : Fin 256), i = ix3 b' e j' :=
      ⟨i 0, i 1, i 2, eq_ix3 i⟩
    rw [hd, scat_resultIdx _ dstIdx b' e j' (Cert.Spec.dst e) (dstIdx_toInt e), Option.some_inj, ix3_inj, ix3_inj, ix3_inj,
      dst_eq_iff e k]
    tauto
  have hne : (ix3 b (Cert.Spec.inA k) j : S65536x6x256.Idx) ≠ ix3 b (Cert.Spec.inB k) j := by
    rw [Ne, ix3_inj]
    exact fun h => inA_ne_inB k h.2.1
  unfold Host.scatterAdd
  rw [Ideal.hostScatterAdd_def]
  unfold Ideal.hostScatterAdd
  rw [sum_filter_two _ _ _ hne hp]
  show Ideal.ofBits .f32 0x00000000#32 + _ = _
  rw [Ideal.ofBits_zero_f32, zero_add]

end Cert.ReferenceIdeal.Graph

end
-- ==== Proof.RefHead.lean ====
/-
  The reference's read-out at a batch row: the maximum over the agent axis started from minus
  infinity is the maximum of the three agents' values; the product with the transposed weight row is a
  sum over the 256 features; the bias is the one entry of its array.
-/
import proofs.«426260_j63917703299078_3_alg».proof.Proof.RefStages
import proofs.«426260_j63917703299078_3_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.ReferenceIdeal.Head

open Idealize.ShloMosaic Idealize.ShloMosaic.ValueIdx Cert.ReferenceIdeal Cert.ReferenceIdeal.Stages Cert.ReferenceIdeal.Facts₀

/-- The maximum of extended reals is commutative and associative: a maximum-reduction may be read in any order. -/
instance : Std.Commutative (FloatOps.maximumf (F := Ideal) (φ := .f32)) := ⟨fun x y => max_comm x y⟩
instance : Std.Associative (FloatOps.maximumf (F := Ideal) (φ := .f32)) := ⟨fun x y z => max_assoc x y z⟩

/-- The float word of minus infinity is the bottom of the extended reals. -/
theorem ofBits_neg_inf : Ideal.ofBits .f32 0xFF800000#32 = (⊥ : EReal) := by simp [Ideal.ofBits, Ideal.ieee]

theorem reduces_agents : S65536x3x256.Reduces [1] S65536x256 := by decide

/-- A maximum-fold over three values from the bottom element. -/
theorem fold_max_three (f : Fin 3 → EReal) :
    (Finset.univ : Finset (Fin 3)).fold (FloatOps.maximumf (F := Ideal) (φ := .f32)) (⊥ : EReal) f = max (max (f 0) (f 1)) (f 2) := by
  have hu : (Finset.univ : Finset (Fin 3)) = {(0 : Fin 3), (1 : Fin 3), (2 : Fin 3)} := by decide
  rw [hu, Finset.fold_insert (by decide), Finset.fold_insert (by decide), Finset.fold_singleton]
  show max (f 0) (max (f 1) (max (f 2) ⊥)) = _
  rw [max_bot_right, ← max_assoc]

/-- Over row `r` and feature `j`, the agent axis inserted at coordinate `k`. -/
theorem lift_agents (r : Fin 65536) (j : Fin 256) (k : Fin 3) :
    reduces_agents.lift (ix2 r j) k = ix3 r k j := by
  funext c
  apply Fin.ext
  show reduces_agents.liftVal (ix2 r j) k.val c = (ix3 r k j c).val
  match c with
  | ⟨0, _⟩ => rfl
  | ⟨1, _⟩ => rfl
  | ⟨2, _⟩ => rfl

/-- The maximum over the agent axis, from minus infinity, is the maximum of the three agents' values. -/
theorem max_agents (H : FVec Ideal S65536x3x256 .f32) (r : Fin 65536) (j : Fin 256) :
    Host.reduce FloatOps.maximumf H (constant (F := Ideal) S_ .f32 0xFF800000#32) reducesTo_S65536x3x256_S65536x256_d1 h_S_ (ix2 r j)
      = Cert.Spec.pool (fun k j => H (ix3 r k j)) j := by
  rw [Host.reduce_eq_fold_single FloatOps.maximumf H _ reducesTo_S65536x3x256_S65536x256_d1 reduces_agents h_S_ (ix2 r j)]
  have e : (constant (F := Ideal) S_ .f32 0xFF800000#32 (Shape.Idx.first h_S_) : EReal) = ⊥ := ofBits_neg_inf
  rw [e]
  refine (fold_max_three (fun k => H (reduces_agents.lift (ix2 r j) k))).trans ?_
  show max (max (H (reduces_agents.lift (ix2 r j) (0 : Fin 3))) (H (reduces_agents.lift (ix2 r j) (1 : Fin 3))))
    (H (reduces_agents.lift (ix2 r j) (2 : Fin 3))) = _
  rw [lift_agents, lift_agents, lift_agents]
  rfl

abbrev D := dot_S65536x256_S256x1_S65536x1_1_0_0_1_n_n

theorem lhs_D_0 (i : S65536x1.Idx) (q : D.contr.Idx) : (D.lhsIdx i q 0).val = (i 0).val := by
  unfold DotDims.lhsIdx
  rw [dif_neg (show ¬(0 : Fin S65536x256.rank) ∈ D.lhsBatch by decide), dif_pos (show (0 : Fin S65536x256.rank) ∈ D.lhsNonContracting by decide)]
  rfl
theorem lhs_D_1 (i : S65536x1.Idx) (q : D.contr.Idx) : (D.lhsIdx i q 1).val = (q ⟨0, by decide⟩).val :=
  D.lhsIdx_val_of_single rfl i q
theorem rhs_D_0 (i : S65536x1.Idx) (q : D.contr.Idx) : (D.rhsIdx i q 0).val = (q ⟨0, by decide⟩).val :=
  D.rhsIdx_val_of_single rfl i q
theorem rhs_D_1 (i : S65536x1.Idx) (q : D.contr.Idx) : (D.rhsIdx i q 1).val = (i 1).val := by
  unfold DotDims.rhsIdx
  rw [dif_neg (show ¬(1 : Fin S256x1.rank) ∈ D.rhsBatch by decide), dif_pos (show (1 : Fin S256x1.rank) ∈ D.rhsNonContracting by decide)]
  rfl

/-- The product of a 65536 × 256 array with a 256 × 1 column, at a row: the sum over the 256 features. -/
theorem dot_head (X : FVec Ideal S65536x256 .f32) (Y : FVec Ideal S256x1 .f32) (r : Fin 65536) (u : Fin 1) :
    Host.dotGeneral D none X Y (ix2 r u) = ∑ k : Fin 256, X (ix2 r k) * Y (ix2 k u) := by
  simp only [Host.dotGeneral]
  rw [Ideal.dotGeneral_apply, ← Equiv.sum_comp (contrEquiv1 D 256 rfl rfl).symm]
  refine Finset.sum_congr rfl fun k _ => ?_
  have hk := contrEquiv1_symm_val D 256 rfl rfl k
  have el : D.lhsIdx (ix2 r u) ((contrEquiv1 D 256 rfl rfl).symm k) = ix2 r k := funext fun a => Fin.ext (by
    match a with
    | ⟨0, _⟩ => exact lhs_D_0 _ _
    | ⟨1, _⟩ => exact (lhs_D_1 _ _).trans hk)
  have er : D.rhsIdx (ix2 r u) ((contrEquiv1 D 256 rfl rfl).symm k) = ix2 k u := funext fun a => Fin.ext (by
    match a with
    | ⟨0, _⟩ => exact (rhs_D_0 _ _).trans hk
    | ⟨1, _⟩ => exact rhs_D_1 _ _)
  rw [el, er]

/-- The weight row as a column. -/
theorem vw_col (vw : FVec Ideal S1x256 .f32) (k : Fin 256) (u : Fin 1) :
    transpose S256x1 [1, 0] vw transposes_S1x256_S256x1_1_0 (ix2 k u) = vw (ix2 (0 : Fin 1) k) := by
  refine transpose_apply [1, 0] _ _ (ix2 k u) (ix2 (0 : Fin 1) k) ?_
  intro b; match b with
    | ⟨0, _⟩ => rfl
    | ⟨1, _⟩ => show (0 : Fin 1).val = u.val; omega

/-- The bias spread over the rows. -/
theorem vb_all (vb : FVec Ideal S1 .f32) (r : Fin 65536) (u : Fin 1) :
    broadcastInDim S65536x1 ![0, 1] bcast_S1x1_S65536x1_0_1 (broadcastInDim S1x1 ![1] bcast_S1_S1x1_1 vb) (ix2 r u)
      = vb (ix1 (0 : Fin 1)) := by
  refine (broadcastInDim_apply _ _ _ (ix2 r u) (ix2 (0 : Fin 1) (0 : Fin 1)) ?_).trans ?_
  · intro a; match a with | ⟨0, _⟩ => rfl | ⟨1, _⟩ => rfl
  refine broadcastInDim_apply _ _ _ (ix2 (0 : Fin 1) (0 : Fin 1)) (ix1 (0 : Fin 1)) ?_
  intro a; match a with | ⟨0, _⟩ => rfl

theorem headR_apply (H : FVec Ideal S65536x3x256 .f32) (vw : FVec Ideal S1x256 .f32) (vb : FVec Ideal S1 .f32)
    (r : Fin 65536) (u : Fin 1) :
    headR H vw vb (ix2 r u)
      = Cert.Spec.head (Cert.Spec.pool (fun k j => H (ix3 r k j))) (fun j => vw (ix2 (0 : Fin 1) j)) (vb (ix1 (0 : Fin 1))) := by
  unfold headR
  rw [addf_apply, vb_all, dot_head]
  unfold Cert.Spec.head
  refine congrArg (· + vb (ix1 (0 : Fin 1))) ?_
  refine Finset.sum_congr rfl fun k _ => ?_
  rw [max_agents, vw_col]

end Cert.ReferenceIdeal.Head

end
-- ==== Proof.RefValue.lean ====
/-
  The reference's layers, read index by index, are the network of the specification: a product with
  a weight matrix over two arrays laid side by side is the sum of the two products with the matrix's
  column halves.
-/
import proofs.«426260_j63917703299078_3_alg».proof.Proof.RefGraph
import proofs.«426260_j63917703299078_3_alg».proof.Proof.RefHead
import proofs.«426260_j63917703299078_3_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Stages Cert.ReferenceIdeal.Facts₀
  Cert.ReferenceIdeal.Graph Cert.ReferenceIdeal.Head

/-- The dimension numbers of a product of a rank-3 array with a matrix over the array's last axis and
    the matrix's columns. -/
abbrev dot3 (B E K N : Nat)
    (wf : DotDims.WF (⟨3, ![B, E, K]⟩ : Shape) ⟨2, ![N, K]⟩ ⟨3, ![B, E, N]⟩ [2] [1] [0, 1] [0] [] []) :
    DotDims (⟨3, ![B, E, K]⟩ : Shape) ⟨2, ![N, K]⟩ ⟨3, ![B, E, N]⟩ where
  lhsContracting := [2]
  rhsContracting := [1]
  lhsNonContracting := [0, 1]
  rhsNonContracting := [0]
  lhsBatch := []
  rhsBatch := []
  wf := wf

section Dot3
variable {B E K N : Nat}
  (wf : DotDims.WF (⟨3, ![B, E, K]⟩ : Shape) ⟨2, ![N, K]⟩ ⟨3, ![B, E, N]⟩ [2] [1] [0, 1] [0] [] [])

theorem dot3_lhs0 (j : (⟨3, ![B, E, N]⟩ : Shape).Idx) (k : (dot3 B E K N wf).contr.Idx) :
    ((dot3 B E K N wf).lhsIdx j k 0).val = (j 0).val := by
  unfold DotDims.lhsIdx
  rw [dif_neg List.not_mem_nil, dif_pos List.mem_cons_self]
  rfl

theorem dot3_lhs1 (j : (⟨3, ![B, E, N]⟩ : Shape).Idx) (k : (dot3 B E K N wf).contr.Idx) :
    ((dot3 B E K N wf).lhsIdx j k 1).val = (j 1).val := by
  unfold DotDims.lhsIdx
  rw [dif_neg List.not_mem_nil, dif_pos (List.mem_cons_of_mem _ List.mem_cons_self)]
  rfl

theorem dot3_lhs2 (j : (⟨3, ![B, E, N]⟩ : Shape).Idx) (k : (dot3 B E K N wf).contr.Idx) :
    ((dot3 B E K N wf).lhsIdx j k 2).val = (k ⟨0, Nat.one_pos⟩).val :=
  (dot3 B E K N wf).lhsIdx_val_of_single rfl j k

theorem dot3_rhs0 (j : (⟨3, ![B, E, N]⟩ : Shape).Idx) (k : (dot3 B E K N wf).contr.Idx) :
    ((dot3 B E K N wf).rhsIdx j k 0).val = (j 2).val := by
  unfold DotDims.rhsIdx
  rw [dif_neg List.not_mem_nil, dif_pos List.mem_cons_self]
  rfl

theorem dot3_rhs1 (j : (⟨3, ![B, E, N]⟩ : Shape).Idx) (k : (dot3 B E K N wf).contr.Idx) :
    ((dot3 B E K N wf).rhsIdx j k 1).val = (k ⟨0, Nat.one_pos⟩).val :=
  (dot3 B E K N wf).rhsIdx_val_of_single rfl j k

/-- The product at an index: the sum over the shared axis of the row's entries times the matrix row's. -/
theorem dot3_apply (prec : Option ContractPrecision) (sched : HostSchedule)
    (lhs : FVec Ideal (⟨3, ![B, E, K]⟩ : Shape) .f32) (rhs : FVec Ideal (⟨2, ![N, K]⟩ : Shape) .f32)
    (r : Fin B) (e : Fin E) (j : Fin N) :
    FloatOps.dotGeneral (dot3 B E K N wf) prec sched lhs rhs (ix3 r e j)
      = ∑ k : Fin K, lhs (ix3 r e k) * rhs (ix2 j k) := by
  rw [Ideal.dotGeneral_apply, ← Equiv.sum_comp (contrEquiv1 (dot3 B E K N wf) K rfl rfl).symm]
  refine Finset.sum_congr rfl fun k _ => ?_
  have hk := contrEquiv1_symm_val (dot3 B E K N wf) K rfl rfl k
  congr 2
  · funext a
    refine Fin.ext ?_
    match a with
    | ⟨0, _⟩ => exact dot3_lhs0 wf _ _
    | ⟨1, _⟩ => exact dot3_lhs1 wf _ _
    | ⟨2, _⟩ => exact (dot3_lhs2 wf _ _).trans hk
  · funext a
    refine Fin.ext ?_
    match a with
    | ⟨0, _⟩ => exact dot3_rhs0 wf _ _
    | ⟨1, _⟩ => exact (dot3_rhs1 wf _ _).trans hk

end Dot3

/-! ## The bias, the zero and the one-half arrays at an index -/

/-- The bias vector spread over the batch and agent (or edge) axes reads its feature's entry. -/
theorem bias_apply {B E : Nat} (h1 : (⟨1, ![256]⟩ : Shape).BroadcastsInDim ⟨3, ![1, 1, 256]⟩ ![2])
    (h2 : (⟨3, ![1, 1, 256]⟩ : Shape).BroadcastsInDim ⟨3, ![B, E, 256]⟩ ![0, 1, 2])
    (b : FVec Ideal (⟨1, ![256]⟩ : Shape) .f32) (r : Fin B) (e : Fin E) (j : Fin 256) :
    broadcastInDim (⟨3, ![B, E, 256]⟩ : Shape) ![0, 1, 2] h2 (broadcastInDim (⟨3, ![1, 1, 256]⟩ : Shape) ![2] h1 b) (ix3 r e j)
      = b (ix1 j) := by
  rw [broadcastInDim_apply ![0, 1, 2] h2 _ (ix3 r e j) (ix3 (0 : Fin 1) (0 : Fin 1) j) (fun a => by
    match a with
    | ⟨0, _⟩ => rfl
    | ⟨1, _⟩ => rfl
    | ⟨2, _⟩ => rfl)]
  exact broadcastInDim_apply ![2] h1 b (ix3 (0 : Fin 1) (0 : Fin 1) j) (ix1 j) (fun a => by
    match a with
    | ⟨0, _⟩ => rfl)

/-! ## A sum over two arrays laid side by side -/

/-- A sum over `n₁ + n₂` positions is the sum over the first `n₁` plus the sum over the last `n₂`. -/
theorem sum_split {n₁ n₂ n : Nat} (hn : n₁ + n₂ = n) (g : Fin n → EReal) :
    ∑ k : Fin n, g k
      = (∑ f : Fin n₁, g ⟨f.val, by omega⟩) + ∑ f : Fin n₂, g ⟨n₁ + f.val, by omega⟩ := by
  subst hn
  rw [Fin.sum_univ_add]
  rfl

section Cat
variable {B E n₁ n₂ n : Nat}
  (hc : Shape.Concatenates [(⟨3, ![B, E, n₁]⟩ : Shape), ⟨3, ![B, E, n₂]⟩] ⟨3, ![B, E, n]⟩ 2)
  (X : FVec Ideal (⟨3, ![B, E, n₁]⟩ : Shape) .f32) (Y : FVec Ideal (⟨3, ![B, E, n₂]⟩ : Shape) .f32)

/-- Two arrays laid side by side along the feature axis, read at one of the first array's features. -/
theorem cat_left (r : Fin B) (e : Fin E) (f : Fin n₁) (hf : f.val < n) :
    concatenate (⟨3, ![B, E, n]⟩ : Shape) 2 [⟨(⟨3, ![B, E, n₁]⟩ : Shape), X⟩, ⟨(⟨3, ![B, E, n₂]⟩ : Shape), Y⟩] hc (ix3 r e ⟨f.val, hf⟩)
      = X (ix3 r e f) :=
  concatenate_pair_apply_left 2 X Y hc _ rfl (ix3 r e f) (fun b => by
    match b with
    | ⟨0, _⟩ => rfl
    | ⟨1, _⟩ => rfl
    | ⟨2, _⟩ => rfl)

/-- The same at one of the second array's features, which come after the first array's `n₁`. -/
theorem cat_right (r : Fin B) (e : Fin E) (f : Fin n₂) (hf : n₁ + f.val < n) :
    concatenate (⟨3, ![B, E, n]⟩ : Shape) 2 [⟨(⟨3, ![B, E, n₁]⟩ : Shape), X⟩, ⟨(⟨3, ![B, E, n₂]⟩ : Shape), Y⟩] hc (ix3 r e ⟨n₁ + f.val, hf⟩)
      = Y (ix3 r e f) :=
  concatenate_pair_apply_right 2 X Y hc _ rfl rfl (ix3 r e f) (fun b hb => by
    match b, hb with
    | ⟨0, _⟩, _ => rfl
    | ⟨1, _⟩, _ => rfl
    | ⟨2, _⟩, hb => exact absurd rfl hb) (Nat.add_comm _ _)

end Cat

/-! ## The three products of the reference at an index -/

theorem dotE1_apply (lhs : FVec Ideal S65536x6x256 .f32) (rhs : FVec Ideal S256x256 .f32)
    (r : Fin 65536) (e : Fin 6) (j : Fin 256) :
    Host.dotGeneral dot_S65536x6x256_S256x256_S65536x6x256_2_1_01_0_n_n none lhs rhs (ix3 r e j)
      = ∑ k : Fin 256, lhs (ix3 r e k) * rhs (ix2 j k) :=
  dot3_apply dot_S65536x6x256_S256x256_S65536x6x256_2_1_01_0_n_n_wf none .single lhs rhs r e j

theorem dotE2_apply (lhs : FVec Ideal S65536x6x512 .f32) (rhs : FVec Ideal S256x512 .f32)
    (r : Fin 65536) (e : Fin 6) (j : Fin 256) :
    Host.dotGeneral dot_S65536x6x512_S256x512_S65536x6x256_2_1_01_0_n_n none lhs rhs (ix3 r e j)
      = ∑ k : Fin 512, lhs (ix3 r e k) * rhs (ix2 j k) :=
  dot3_apply dot_S65536x6x512_S256x512_S65536x6x256_2_1_01_0_n_n_wf none .single lhs rhs r e j

theorem dotN_apply (lhs : FVec Ideal S65536x3x384 .f32) (rhs : FVec Ideal S256x384 .f32)
    (r : Fin 65536) (k : Fin 3) (j : Fin 256) :
    Host.dotGeneral dot_S65536x3x384_S256x384_S65536x3x256_2_1_01_0_n_n none lhs rhs (ix3 r k j)
      = ∑ f : Fin 384, lhs (ix3 r k f) * rhs (ix2 j f) :=
  dot3_apply dot_S65536x3x384_S256x384_S65536x3x256_2_1_01_0_n_n_wf none .single lhs rhs r k j

/-! ## The layers at a batch row -/

/-- Batch row `r` of a rank-3 array, as a function of the agent (or edge) and the feature. -/
def row3 {B E N : Nat} (A : FVec Ideal (⟨3, ![B, E, N]⟩ : Shape) .f32) (r : Fin B) : Fin E → Fin N → EReal :=
  fun a f => A (ix3 r a f)

/-- The first edge layer at an index: the weight matrix's first 128 columns meet the source agent's
    features, its last 128 the target agent's. -/
theorem edge1_apply (x : FVec Ideal S65536x3x128 .f32) (w : FVec Ideal S256x256 .f32) (b : FVec Ideal S256 .f32)
    (r : Fin 65536) (e : Fin 6) (j : Fin 256) :
    edge1 x w b (ix3 r e j)
      = Cert.Spec.edge (row3 x r) (fun j f => w (ix2 j (⟨f.val, by omega⟩ : Fin 256)))
          (fun j f => w (ix2 j (⟨128 + f.val, by omega⟩ : Fin 256))) (fun j => b (ix1 j)) e j := by
  unfold edge1 reluE
  rw [maximumf_apply, addf_apply, dotE1_apply, bias_apply, sum_split (n₁ := 128) (n₂ := 128) rfl]
  simp only [cat_left, cat_right, gather128_src, gather128_dst]
  rfl

/-- The second edge layer at an index, on 256 hidden features. -/
theorem edge2_apply (h : FVec Ideal S65536x3x256 .f32) (w : FVec Ideal S256x512 .f32) (b : FVec Ideal S256 .f32)
    (r : Fin 65536) (e : Fin 6) (j : Fin 256) :
    edge2 h w b (ix3 r e j)
      = Cert.Spec.edge (row3 h r) (fun j f => w (ix2 j (⟨f.val, by omega⟩ : Fin 512)))
          (fun j f => w (ix2 j (⟨256 + f.val, by omega⟩ : Fin 512))) (fun j => b (ix1 j)) e j := by
  unfold edge2 reluE
  rw [maximumf_apply, addf_apply, dotE2_apply, bias_apply, sum_split (n₁ := 256) (n₂ := 256) rfl]
  simp only [cat_left, cat_right, gather256_src, gather256_dst]
  rfl

/-- The averaging of incoming edges at an index. -/
theorem aggr_apply (E : FVec Ideal S65536x6x256 .f32) (r : Fin 65536) (k : Fin 3) (j : Fin 256) :
    aggr E (ix3 r k j) = Cert.Spec.agg (row3 E r) k j := by
  unfold aggr
  rw [mulf_apply, scatter_dst]
  rfl

/-- A node layer at an index: the weight matrix's first 256 columns meet the averaged message, its last
    128 the raw input. -/
theorem node_apply (A : FVec Ideal S65536x3x256 .f32) (x : FVec Ideal S65536x3x128 .f32) (w : FVec Ideal S256x384 .f32)
    (b : FVec Ideal S256 .f32) (r : Fin 65536) (k : Fin 3) (j : Fin 256) :
    node A x w b (ix3 r k j)
      = Cert.Spec.node (row3 A r) (row3 x r) (fun j f => w (ix2 j (⟨f.val, by omega⟩ : Fin 384)))
          (fun j f => w (ix2 j (⟨256 + f.val, by omega⟩ : Fin 384))) (fun j => b (ix1 j)) k j := by
  unfold node reluN
  rw [maximumf_apply, addf_apply, dotN_apply, bias_apply, sum_split (n₁ := 256) (n₂ := 128) rfl]
  simp only [cat_left, cat_right]
  rfl

/-! The same as equations between rows, so that the layers chain. -/

theorem row3_edge1 (x : FVec Ideal S65536x3x128 .f32) (w : FVec Ideal S256x256 .f32) (b : FVec Ideal S256 .f32)
    (r : Fin 65536) :
    row3 (edge1 x w b) r
      = Cert.Spec.edge (row3 x r) (fun j f => w (ix2 j (⟨f.val, by omega⟩ : Fin 256)))
          (fun j f => w (ix2 j (⟨128 + f.val, by omega⟩ : Fin 256))) (fun j => b (ix1 j)) :=
  funext fun e => funext fun j => edge1_apply x w b r e j

theorem row3_edge2 (h : FVec Ideal S65536x3x256 .f32) (w : FVec Ideal S256x512 .f32) (b : FVec Ideal S256 .f32)
    (r : Fin 65536) :
    row3 (edge2 h w b) r
      = Cert.Spec.edge (row3 h r) (fun j f => w (ix2 j (⟨f.val, by omega⟩ : Fin 512)))
          (fun j f => w (ix2 j (⟨256 + f.val, by omega⟩ : Fin 512))) (fun j => b (ix1 j)) :=
  funext fun e => funext fun j => edge2_apply h w b r e j

theorem row3_aggr (E : FVec Ideal S65536x6x256 .f32) (r : Fin 65536) :
    row3 (aggr E) r = Cert.Spec.agg (row3 E r) :=
  funext fun k => funext fun j => aggr_apply E r k j

theorem row3_node (A : FVec Ideal S65536x3x256 .f32) (x : FVec Ideal S65536x3x128 .f32) (w : FVec Ideal S256x384 .f32)
    (b : FVec Ideal S256 .f32) (r : Fin 65536) :
    row3 (node A x w b) r
      = Cert.Spec.node (row3 A r) (row3 x r) (fun j f => w (ix2 j (⟨f.val, by omega⟩ : Fin 384)))
          (fun j f => w (ix2 j (⟨256 + f.val, by omega⟩ : Fin 384))) (fun j => b (ix1 j)) :=
  funext fun k => funext fun j => node_apply A x w b r k j

/-- The read-out at a batch row, over the row of its input. -/
theorem headR_row (H : FVec Ideal S65536x3x256 .f32) (vw : FVec Ideal S1x256 .f32) (vb : FVec Ideal S1 .f32)
    (r : Fin 65536) (u : Fin 1) :
    headR H vw vb (ix2 r u)
      = Cert.Spec.head (Cert.Spec.pool (row3 H r)) (fun j => vw (ix2 (0 : Fin 1) j)) (vb (ix1 (0 : Fin 1))) :=
  headR_apply H vw vb r u

theorem refTerm_eq_G (x : FVec Ideal S65536x3x128 .f32) (w1 : FVec Ideal S256x256 .f32) (b1 : FVec Ideal S256 .f32)
    (wv1 : FVec Ideal S256x384 .f32) (bv1 : FVec Ideal S256 .f32) (w2 : FVec Ideal S256x512 .f32) (b2 : FVec Ideal S256 .f32)
    (wv2 : FVec Ideal S256x384 .f32) (bv2 : FVec Ideal S256 .f32) (vw : FVec Ideal S1x256 .f32) (vb : FVec Ideal S1 .f32) :
    refTerm x w1 b1 wv1 bv1 w2 b2 wv2 bv2 vw vb = Cert.Spec.G x w1 b1 wv1 bv1 w2 b2 wv2 bv2 vw vb := by
  funext i
  obtain ⟨r, u, rfl⟩ : ∃ (r : Fin 65536) (u : Fin 1), i = ix2 r u := ⟨i 0, i 1, eq_ix2 i⟩
  rw [Cert.Spec.G_apply]
  unfold refTerm
  rw [headR_row, row3_node, row3_aggr, row3_edge2, row3_node, row3_aggr, row3_edge1]
  rfl

end Cert.ReferenceIdeal.RefValue

end
-- ==== Proof.lean ====
/-
  Equivalence over the extended reals of a fused graph-network kernel and its array reference.

  Both programs compute, for each of 65536 batch rows holding three agents of 128 features, two rounds
  of message passing on the directed triangle (an edge layer on the features of an edge's two ends, the
  half-sum of the two edges arriving at each agent, a node layer on that message and the raw input), then
  the maximum over the agents and a linear read-out.  The kernel multiplies by the two transposed column
  halves of each weight matrix separately and adds the products; the reference lays the two operands side
  by side and multiplies once by the whole matrix.  A sum over a range laid end to end is the sum of the
  sums over its parts, on the extended reals as everywhere, so both results are the one function
  `Cert.Spec.G` of the argument arrays; no finiteness of the inputs is used.

  The kernel's frames are the generated ones; the reference's frame is its run with the result dropped;
  the idealisation rewrote nothing, so its preservation claim is trivial.
-/
import proofs.«426260_j63917703299078_3_alg».proof.Defs
import proofs.«426260_j63917703299078_3_alg».proof.Proof.Gen.Kernel
import proofs.«426260_j63917703299078_3_alg».proof.Proof.Gen.Kernel.Frame
import proofs.«426260_j63917703299078_3_alg».proof.Proof.Gen.KernelIdeal
import proofs.«426260_j63917703299078_3_alg».proof.Proof.Gen.KernelIdeal.Frame
import proofs.«426260_j63917703299078_3_alg».proof.Proof.Gen.ReferenceIdeal
import proofs.«426260_j63917703299078_3_alg».proof.Proof.Gen.Pre_finite_inputs
import proofs.«426260_j63917703299078_3_alg».proof.Proof.KernelRun
import proofs.«426260_j63917703299078_3_alg».proof.Proof.RefRun
import proofs.«426260_j63917703299078_3_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run m ρ)

/-- Both runs end with the result array at the specification's function of arguments that agree. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.KRun.run m ρ, ?_⟩
  refine (θ_run Cert.ReferenceIdeal.defs _ _).mono (fun _ h c => ⟨(h c).1.trans ?_, (h c).2⟩)
    (Cert.ReferenceIdeal.RefRun.run m' ρ')
  obtain ⟨h0, h1, h2, h3, h4, h5, h6, h7, h8, h9, h10⟩ := hagree c
  rw [Cert.ReferenceIdeal.RefValue.refTerm_eq_G, h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
